-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x4 : Shape := ⟨2, ![30000, 4]⟩
abbrev S2x34000 : Shape := ⟨2, ![2, 34000]⟩
abbrev S4x8 : Shape := ⟨2, ![4, 8]⟩
abbrev S8 : Shape := ⟨1, ![8]⟩
abbrev S8x3000 : Shape := ⟨2, ![8, 3000]⟩
abbrev S3000 : Shape := ⟨1, ![3000]⟩
abbrev S3000x30 : Shape := ⟨2, ![3000, 30]⟩
abbrev S30 : Shape := ⟨1, ![30]⟩
abbrev S30x60 : Shape := ⟨2, ![30, 60]⟩
abbrev S60 : Shape := ⟨1, ![60]⟩
abbrev S_ : Shape := ⟨0, ![]⟩
abbrev S1x34000 : Shape := ⟨2, ![1, 34000]⟩
abbrev S34000 : Shape := ⟨1, ![34000]⟩

class Facts : Prop where
  bcast_S_S30000x4 : S_.BroadcastsInDim S30000x4 (![] : Fin 0 → Fin S30000x4.rank)
  reducesTo_S30000x4_S_d0_1 : S30000x4.ReducesTo [0, 1] S_
  h_S_ : 0 < S_.numel
  bcast_S_S4x8 : S_.BroadcastsInDim S4x8 (![] : Fin 0 → Fin S4x8.rank)
  reducesTo_S4x8_S_d0_1 : S4x8.ReducesTo [0, 1] S_
  bcast_S_S8 : S_.BroadcastsInDim S8 (![] : Fin 0 → Fin S8.rank)
  reducesTo_S8_S_d0 : S8.ReducesTo [0] S_
  bcast_S_S8x3000 : S_.BroadcastsInDim S8x3000 (![] : Fin 0 → Fin S8x3000.rank)
  reducesTo_S8x3000_S_d0_1 : S8x3000.ReducesTo [0, 1] S_
  bcast_S_S3000 : S_.BroadcastsInDim S3000 (![] : Fin 0 → Fin S3000.rank)
  reducesTo_S3000_S_d0 : S3000.ReducesTo [0] S_
  bcast_S_S3000x30 : S_.BroadcastsInDim S3000x30 (![] : Fin 0 → Fin S3000x30.rank)
  reducesTo_S3000x30_S_d0_1 : S3000x30.ReducesTo [0, 1] S_
  bcast_S_S30 : S_.BroadcastsInDim S30 (![] : Fin 0 → Fin S30.rank)
  reducesTo_S30_S_d0 : S30.ReducesTo [0] S_
  bcast_S_S30x60 : S_.BroadcastsInDim S30x60 (![] : Fin 0 → Fin S30x60.rank)
  reducesTo_S30x60_S_d0_1 : S30x60.ReducesTo [0, 1] S_
  bcast_S_S60 : S_.BroadcastsInDim S60 (![] : Fin 0 → Fin S60.rank)
  reducesTo_S60_S_d0 : S60.ReducesTo [0] S_
  bcast_S_S2x34000 : S_.BroadcastsInDim S2x34000 (![] : Fin 0 → Fin S2x34000.rank)
  reducesTo_S2x34000_S_d0_1 : S2x34000.ReducesTo [0, 1] S_
  slices_S2x34000_S1x34000_0_0 : S2x34000.Slices ![0, 0] S1x34000
  shapeCasts_S1x34000_S34000 : S1x34000.ShapeCasts S34000
  bcast_S_S34000 : S_.BroadcastsInDim S34000 (![] : Fin 0 → Fin S34000.rank)
  slices_S2x34000_S1x34000_1_0 : S2x34000.Slices ![1, 0] S1x34000
  reducesTo_S34000_S_d0 : S34000.ReducesTo [0] S_

variable [Facts]

def fn_part3 {F : FTy → Type} [FloatOps F] (main_arg1 : IVec S2x34000 32) (main_v50 : IVec S_ 1) : IVec S_ 1 :=
  let main_v51 : IVec S1x34000 32 := (extractStridedSlice S1x34000 ![0, 0] · slices_S2x34000_S1x34000_0_0) main_arg1
  let main_v52 : IVec S34000 32 := shapeCast S34000 main_v51 shapeCasts_S1x34000_S34000
  let main_c_19 : IVec S_ 32 := constantI S_ 32 30#32
  let main_v53 : IVec S34000 32 := broadcastInDim S34000 ![] bcast_S_S34000 main_c_19
  let main_v54 : IVec S34000 32 := Host.divsi main_v52 main_v53
  let main_v55 : IVec S1x34000 32 := (extractStridedSlice S1x34000 ![1, 0] · slices_S2x34000_S1x34000_1_0) main_arg1
  let main_v56 : IVec S34000 32 := shapeCast S34000 main_v55 shapeCasts_S1x34000_S34000
  let main_c_20 : IVec S_ 32 := constantI S_ 32 30#32
  let main_v57 : IVec S34000 32 := broadcastInDim S34000 ![] bcast_S_S34000 main_c_20
  let main_v58 : IVec S34000 32 := Host.divsi main_v56 main_v57
  let main_v59 : IVec S34000 1 := cmpi .eq main_v54 main_v58
  let main_c_21 : IVec S_ 1 := constantI S_ 1 1#1
  let main_v60 : IVec S_ 1 := (fun x v => Host.reduce IntOp.andi x v reducesTo_S34000_S_d0 h_S_) main_v59 main_c_21
  let main_v61 : IVec S_ 1 := andi main_v50 main_v60
  main_v61

def fn_part2 {F : FTy → Type} [FloatOps F] (main_arg1 : IVec S2x34000 32) (main_arg8 : FVec F S30x60 .f32) (main_arg9 : FVec F S60 .f32) (main_v33 : IVec S_ 1) : IVec S_ 1 :=
  let main_v34 : FVec F S30x60 .f32 := Host.absf main_arg8
  let main_cst_12 : FVec F S_ .f32 := constant S_ .f32 0x7F800000#32
  let main_v35 : FVec F S30x60 .f32 := broadcastInDim S30x60 ![] bcast_S_S30x60 main_cst_12
  let main_v36 : IVec S30x60 1 := cmpf .olt main_v34 main_v35
  let main_c_13 : IVec S_ 1 := constantI S_ 1 1#1
  let main_v37 : IVec S_ 1 := (fun x v => Host.reduce IntOp.andi x v reducesTo_S30x60_S_d0_1 h_S_) main_v36 main_c_13
  let main_v38 : IVec S_ 1 := andi main_v33 main_v37
  let main_v39 : FVec F S60 .f32 := Host.absf main_arg9
  let main_cst_14 : FVec F S_ .f32 := constant S_ .f32 0x7F800000#32
  let main_v40 : FVec F S60 .f32 := broadcastInDim S60 ![] bcast_S_S60 main_cst_14
  let main_v41 : IVec S60 1 := cmpf .olt main_v39 main_v40
  let main_c_15 : IVec S_ 1 := constantI S_ 1 1#1
  let main_v42 : IVec S_ 1 := (fun x v => Host.reduce IntOp.andi x v reducesTo_S60_S_d0 h_S_) main_v41 main_c_15
  let main_v43 : IVec S_ 1 := andi main_v38 main_v42
  let main_c_16 : IVec S_ 32 := constantI S_ 32 0#32
  let main_v44 : IVec S2x34000 32 := broadcastInDim S2x34000 ![] bcast_S_S2x34000 main_c_16
  let main_v45 : IVec S2x34000 1 := cmpi .sge main_arg1 main_v44
  let main_c_17 : IVec S_ 32 := constantI S_ 32 30000#32
  let main_v46 : IVec S2x34000 32 := broadcastInDim S2x34000 ![] bcast_S_S2x34000 main_c_17
  let main_v47 : IVec S2x34000 1 := cmpi .slt main_arg1 main_v46
  let main_v48 : IVec S2x34000 1 := andi main_v45 main_v47
  let main_c_18 : IVec S_ 1 := constantI S_ 1 1#1
  let main_v49 : IVec S_ 1 := (fun x v => Host.reduce IntOp.andi x v reducesTo_S2x34000_S_d0_1 h_S_) main_v48 main_c_18
  let main_v50 : IVec S_ 1 := andi main_v43 main_v49
  fn_part3 (F := F) main_arg1 main_v50

def fn_part1 {F : FTy → Type} [FloatOps F] (main_arg1 : IVec S2x34000 32) (main_arg5 : FVec F S3000 .f32) (main_arg6 : FVec F S3000x30 .f32) (main_arg7 : FVec F S30 .f32) (main_arg8 : FVec F S30x60 .f32) (main_arg9 : FVec F S60 .f32) (main_v13 : IVec S_ 1) (main_v16 : IVec S8x3000 1) : IVec S_ 1 :=
  let main_c_5 : IVec S_ 1 := constantI S_ 1 1#1
  let main_v17 : IVec S_ 1 := (fun x v => Host.reduce IntOp.andi x v reducesTo_S8x3000_S_d0_1 h_S_) main_v16 main_c_5
  let main_v18 : IVec S_ 1 := andi main_v13 main_v17
  let main_v19 : FVec F S3000 .f32 := Host.absf main_arg5
  let main_cst_6 : FVec F S_ .f32 := constant S_ .f32 0x7F800000#32
  let main_v20 : FVec F S3000 .f32 := broadcastInDim S3000 ![] bcast_S_S3000 main_cst_6
  let main_v21 : IVec S3000 1 := cmpf .olt main_v19 main_v20
  let main_c_7 : IVec S_ 1 := constantI S_ 1 1#1
  let main_v22 : IVec S_ 1 := (fun x v => Host.reduce IntOp.andi x v reducesTo_S3000_S_d0 h_S_) main_v21 main_c_7
  let main_v23 : IVec S_ 1 := andi main_v18 main_v22
  let main_v24 : FVec F S3000x30 .f32 := Host.absf main_arg6
  let main_cst_8 : FVec F S_ .f32 := constant S_ .f32 0x7F800000#32
  let main_v25 : FVec F S3000x30 .f32 := broadcastInDim S3000x30 ![] bcast_S_S3000x30 main_cst_8
  let main_v26 : IVec S3000x30 1 := cmpf .olt main_v24 main_v25
  let main_c_9 : IVec S_ 1 := constantI S_ 1 1#1
  let main_v27 : IVec S_ 1 := (fun x v => Host.reduce IntOp.andi x v reducesTo_S3000x30_S_d0_1 h_S_) main_v26 main_c_9
  let main_v28 : IVec S_ 1 := andi main_v23 main_v27
  let main_v29 : FVec F S30 .f32 := Host.absf main_arg7
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg1 main_arg8 main_arg9 main_v33

def fn {F : FTy → Type} [FloatOps F] (main_arg0 : FVec F S30000x4 .f32) (main_arg1 : IVec S2x34000 32) (main_arg2 : FVec F S4x8 .f32) (main_arg3 : FVec F S8 .f32) (main_arg4 : FVec F S8x3000 .f32) (main_arg5 : FVec F S3000 .f32) (main_arg6 : FVec F S3000x30 .f32) (main_arg7 : FVec F S30 .f32) (main_arg8 : FVec F S30x60 .f32) (main_arg9 : FVec F S60 .f32) : IVec S_ 1 :=
  let main_v0 : FVec F S30000x4 .f32 := Host.absf main_arg0
  let main_cst : FVec F S_ .f32 := constant S_ .f32 0x7F800000#32
  let main_v1 : FVec F S30000x4 .f32 := broadcastInDim S30000x4 ![] bcast_S_S30000x4 main_cst
  let main_v2 : IVec S30000x4 1 := cmpf .olt main_v0 main_v1
  let main_c : IVec S_ 1 := constantI S_ 1 1#1
  let main_v3 : IVec S_ 1 := (fun x v => Host.reduce IntOp.andi x v reducesTo_S30000x4_S_d0_1 h_S_) main_v2 main_c
  let main_v4 : FVec F S4x8 .f32 := Host.absf main_arg2
  let main_cst_0 : FVec F S_ .f32 := constant S_ .f32 0x7F800000#32
  let main_v5 : FVec F S4x8 .f32 := broadcastInDim S4x8 ![] bcast_S_S4x8 main_cst_0
  let main_v6 : IVec S4x8 1 := cmpf .olt main_v4 main_v5
  let main_c_1 : IVec S_ 1 := constantI S_ 1 1#1
  let main_v7 : IVec S_ 1 := (fun x v => Host.reduce IntOp.andi x v reducesTo_S4x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x3000 .f32 := Host.absf main_arg4
  let main_cst_4 : FVec F S_ .f32 := constant S_ .f32 0x7F800000#32
  let main_v15 : FVec F S8x3000 .f32 := broadcastInDim S8x3000 ![] bcast_S_S8x3000 main_cst_4
  let main_v16 : IVec S8x3000 1 := cmpf .olt main_v14 main_v15
  fn_part1 (F := F) main_arg1 main_arg5 main_arg6 main_arg7 main_arg8 main_arg9 main_v13 main_v16
-- ==== Kernel.lean ====
abbrev S30000x4 : Shape := ⟨2, ![30000, 4]⟩
abbrev S2x34000 : Shape := ⟨2, ![2, 34000]⟩
abbrev S4x8 : Shape := ⟨2, ![4, 8]⟩
abbrev S8 : Shape := ⟨1, ![8]⟩
abbrev S8x3000 : Shape := ⟨2, ![8, 3000]⟩
abbrev S3000 : Shape := ⟨1, ![3000]⟩
abbrev S3000x30 : Shape := ⟨2, ![3000, 30]⟩
abbrev S30 : Shape := ⟨1, ![30]⟩
abbrev S30x60 : Shape := ⟨2, ![30, 60]⟩
abbrev S60 : Shape := ⟨1, ![60]⟩
abbrev S30000 : Shape := ⟨1, ![30000]⟩
abbrev S1x34000 : Shape := ⟨2, ![1, 34000]⟩
abbrev S34000 : Shape := ⟨1, ![34000]⟩
abbrev S64000 : Shape := ⟨1, ![64000]⟩
abbrev S_ : Shape := ⟨0, ![]⟩
abbrev S64000x1 : Shape := ⟨2, ![64000, 1]⟩
abbrev S34000x1 : Shape := ⟨2, ![34000, 1]⟩
abbrev S900000 : Shape := ⟨1, ![900000]⟩
abbrev S1000x30x30 : Shape := ⟨3, ![1000, 30, 30]⟩
abbrev S1000x30 : Shape := ⟨2, ![1000, 30]⟩
abbrev S30x1 : Shape := ⟨2, ![30, 1]⟩
abbrev S30x2 : Shape := ⟨2, ![30, 2]⟩
abbrev S8x3072 : Shape := ⟨2, ![8, 3072]⟩
abbrev S1 : Shape := ⟨1, ![1]⟩
abbrev S3072 : Shape := ⟨1, ![3072]⟩
abbrev S3072x30 : Shape := ⟨2, ![3072, 30]⟩
abbrev S30000x60 : Shape := ⟨2, ![30000, 60]⟩
abbrev S600x4 : Shape := ⟨2, ![600, 4]⟩
abbrev S20x30x30 : Shape := ⟨3, ![20, 30, 30]⟩
abbrev S600x60 : Shape := ⟨2, ![600, 60]⟩
abbrev S20x30x4 : Shape := ⟨3, ![20, 30, 4]⟩
abbrev S600x8 : Shape := ⟨2, ![600, 8]⟩
abbrev S1x8 : Shape := ⟨2, ![1, 8]⟩
abbrev S20x30x8 : Shape := ⟨3, ![20, 30, 8]⟩
abbrev S600x30 : Shape := ⟨2, ![600, 30]⟩
abbrev S8x1024 : Shape := ⟨2, ![8, 1024]⟩
abbrev S1024 : Shape := ⟨1, ![1024]⟩
abbrev S600x1024 : Shape := ⟨2, ![600, 1024]⟩
abbrev S1x1024 : Shape := ⟨2, ![1, 1024]⟩
abbrev S1024x30 : Shape := ⟨2, ![1024, 30]⟩
abbrev S1x30 : Shape := ⟨2, ![1, 30]⟩
abbrev S1x60 : Shape := ⟨2, ![1, 60]⟩
abbrev S600x1500x2 : Shape := ⟨3, ![600, 1500, 2]⟩

abbrev nBuf : Space → Nat
  | .hbm => 188
  | .vmem => 14
  | .smem => 0
  | _ => 0

abbrev hbmTy0_0 (i : Nat) : BufTy := match i % 128 with
  | 0 => ⟨S30000x4, .f32⟩
  | 1 => ⟨S2x34000, .i32⟩
  | 2 => ⟨S4x8, .f32⟩
  | 3 => ⟨S8, .f32⟩
  | 4 => ⟨S8x3000, .f32⟩
  | 5 => ⟨S3000, .f32⟩
  | 6 => ⟨S3000x30, .f32⟩
  | 7 => ⟨S30, .f32⟩
  | 8 => ⟨S30x60, .f32⟩
  | 9 => ⟨S60, .f32⟩
  | 10 => ⟨S30000, .i32⟩
  | 11 => ⟨S1x34000, .i32⟩
  | 12 => ⟨S34000, .i32⟩
  | 13 => ⟨S64000, .i32⟩
  | 14 => ⟨S1x34000, .i32⟩
  | 15 => ⟨S34000, .i32⟩
  | 16 => ⟨S64000, .i32⟩
  | 17 => ⟨S_, .f32⟩
  | 18 => ⟨S64000, .f32⟩
  | 19 => ⟨S_, .f32⟩
  | 20 => ⟨S30000, .f32⟩
  | 21 => ⟨S64000x1, .i32⟩
  | 22 => ⟨S30000, .f32⟩
  | 23 => ⟨S_, .f32⟩
  | 24 => ⟨S30000, .f32⟩
  | 25 => ⟨S30000, .i1⟩
  | 26 => ⟨S30000, .f32⟩
  | 27 => ⟨S_, .f32⟩
  | 28 => ⟨S30000, .f32⟩
  | 29 => ⟨S30000, .f32⟩
  | 30 => ⟨S1x34000, .i32⟩
  | 31 => ⟨S34000, .i32⟩
  | 32 => ⟨S1x34000, .i32⟩
  | 33 => ⟨S34000, .i32⟩
  | 34 => ⟨S_, .i32⟩
  | 35 => ⟨S34000, .i32⟩
  | 36 => ⟨S34000, .i1⟩
  | 37 => ⟨S_, .i32⟩
  | 38 => ⟨S34000, .i32⟩
  | 39 => ⟨S34000, .i32⟩
  | 40 => ⟨S34000, .i32⟩
  | 41 => ⟨S34000x1, .i32⟩
  | 42 => ⟨S34000, .f32⟩
  | 43 => ⟨S_, .i32⟩
  | 44 => ⟨S34000, .i32⟩
  | 45 => ⟨S34000, .i1⟩
  | 46 => ⟨S_, .i32⟩
  | 47 => ⟨S34000, .i32⟩
  | 48 => ⟨S34000, .i32⟩
  | 49 => ⟨S34000, .i32⟩
  | 50 => ⟨S34000x1, .i32⟩
  | 51 => ⟨S34000, .f32⟩
  | 52 => ⟨S34000, .f32⟩
  | 53 => ⟨S_, .i32⟩
  | 54 => ⟨S_, .i32⟩
  | 55 => ⟨S34000, .i32⟩
  | 56 => ⟨S34000, .i32⟩
  | 57 => ⟨S34000, .i32⟩
  | 58 => ⟨S_, .i32⟩
  | 59 => ⟨S34000, .i32⟩
  | 60 => ⟨S34000, .i1⟩
  | 61 => ⟨S34000, .i32⟩
  | 62 => ⟨S34000, .i32⟩
  | 63 => ⟨S_, .i32⟩
  | 64 => ⟨S34000, .i32⟩
  | 65 => ⟨S34000, .i1⟩
  | 66 => ⟨S34000, .i1⟩
  | 67 => ⟨S_, .i32⟩
  | 68 => ⟨S34000, .i32⟩
  | 69 => ⟨S34000, .i32⟩
  | 70 => ⟨S34000, .i32⟩
  | 71 => ⟨S_, .i32⟩
  | 72 => ⟨S_, .i32⟩
  | 73 => ⟨S34000, .i32⟩
  | 74 => ⟨S34000, .i32⟩
  | 75 => ⟨S34000, .i32⟩
  | 76 => ⟨S_, .i32⟩
  | 77 => ⟨S34000, .i32⟩
  | 78 => ⟨S34000, .i1⟩
  | 79 => ⟨S34000, .i32⟩
  | 80 => ⟨S34000, .i32⟩
  | 81 => ⟨S_, .i32⟩
  | 82 => ⟨S34000, .i32⟩
  | 83 => ⟨S34000, .i1⟩
  | 84 => ⟨S34000, .i1⟩
  | 85 => ⟨S_, .i32⟩
  | 86 => ⟨S34000, .i32⟩
  | 87 => ⟨S34000, .i32⟩
  | 88 => ⟨S34000, .i32⟩
  | 89 => ⟨S34000, .i1⟩
  | 90 => ⟨S_, .f32⟩
  | 91 => ⟨S34000, .f32⟩
  | 92 => ⟨S34000, .f32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S34000, .i32⟩
  | 100 => ⟨S34000, .i32⟩
  | 101 => ⟨S_, .i32⟩
  | 102 => ⟨S34000, .i32⟩
  | 103 => ⟨S34000, .i1⟩
  | 104 => ⟨S_, .i32⟩
  | 105 => ⟨S34000, .i32⟩
  | 106 => ⟨S34000, .i1⟩
  | 107 => ⟨S_, .i32⟩
  | 108 => ⟨S_, .i1⟩
  | 109 => ⟨S34000, .i1⟩
  | 110 => ⟨S34000, .i1⟩
  | 111 => ⟨S34000, .i1⟩
  | 112 => ⟨S34000, .i32⟩
  | 113 => ⟨S34000, .i32⟩
  | 114 => ⟨S34000, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S34000, .i32⟩
  | 122 => ⟨S34000, .i32⟩
  | 123 => ⟨S_, .i32⟩
  | 124 => ⟨S34000, .i32⟩
  | 125 => ⟨S34000, .i1⟩
  | 126 => ⟨S_, .i32⟩
  | 127 => ⟨S34000, .i32⟩
  | _ => ⟨S30000x4, .f32⟩

abbrev hbmTy0_1 (i : Nat) : BufTy := match i % 128 with
  | 0 => ⟨S34000, .i1⟩
  | 1 => ⟨S_, .i32⟩
  | 2 => ⟨S_, .i1⟩
  | 3 => ⟨S34000, .i1⟩
  | 4 => ⟨S34000, .i1⟩
  | 5 => ⟨S34000, .i1⟩
  | 6 => ⟨S34000, .i32⟩
  | 7 => ⟨S34000, .i32⟩
  | 8 => ⟨S34000, .i32⟩
  | 9 => ⟨S_, .i32⟩
  | 10 => ⟨S34000, .i32⟩
  | 11 => ⟨S34000, .i32⟩
  | 12 => ⟨S_, .i32⟩
  | 13 => ⟨S34000, .i32⟩
  | 14 => ⟨S34000, .i32⟩
  | 15 => ⟨S34000, .i32⟩
  | 16 => ⟨S34000, .i32⟩
  | 17 => ⟨S_, .f32⟩
  | 18 => ⟨S900000, .f32⟩
  | 19 => ⟨S34000x1, .i32⟩
  | 20 => ⟨S900000, .f32⟩
  | 21 => ⟨S1000x30x30, .f32⟩
  | 22 => ⟨S30000, .f32⟩
  | 23 => ⟨S1000x30, .f32⟩
  | 24 => ⟨S30, .i32⟩
  | 25 => ⟨S_, .i32⟩
  | 26 => ⟨S30, .i32⟩
  | 27 => ⟨S30, .i1⟩
  | 28 => ⟨S_, .i32⟩
  | 29 => ⟨S30, .i32⟩
  | 30 => ⟨S30, .i32⟩
  | 31 => ⟨S30, .i32⟩
  | 32 => ⟨S_, .i32⟩
  | 33 => ⟨S30, .i32⟩
  | 34 => ⟨S30, .i1⟩
  | 35 => ⟨S_, .i32⟩
  | 36 => ⟨S30, .i32⟩
  | 37 => ⟨S30, .i32⟩
  | 38 => ⟨S30, .i32⟩
  | 39 => ⟨S30x1, .i32⟩
  | 40 => ⟨S30x1, .i32⟩
  | 41 => ⟨S30x2, .i32⟩
  | 42 => ⟨S1000x30x30, .f32⟩
  | 43 => ⟨S_, .f32⟩
  | 44 => ⟨S8x3072, .f32⟩
  | 45 => ⟨S_, .i32⟩
  | 46 => ⟨S1, .i32⟩
  | 47 => ⟨S8x3072, .f32⟩
  | 48 => ⟨S_, .f32⟩
  | 49 => ⟨S3072, .f32⟩
  | 50 => ⟨S_, .i32⟩
  | 51 => ⟨S1, .i32⟩
  | 52 => ⟨S3072, .f32⟩
  | 53 => ⟨S_, .f32⟩
  | 54 => ⟨S3072x30, .f32⟩
  | 55 => ⟨S_, .i32⟩
  | 56 => ⟨S1, .i32⟩
  | 57 => ⟨S3072x30, .f32⟩
  | 58 => ⟨S30000x60, .f32⟩
  | 59 => ⟨S600x1500x2, .f32⟩
  | _ => ⟨S30000x4, .f32⟩

abbrev hbmTy (i : Nat) : BufTy := match i / 128 with
  | 0 => hbmTy0_0 i
  | 1 => hbmTy0_1 i
  | _ => ⟨S30000x4, .f32⟩

abbrev bufTy : (tb : Table) → Fin (tcTables nBuf tb) → BufTy
  | .hbm, ⟨i, _⟩ => hbmTy i
  | .local _ .vmem, ⟨0, _⟩ => ⟨S600x4, .f32⟩
  | .local _ .vmem, ⟨1, _⟩ => ⟨S600x4, .f32⟩
  | .local _ .vmem, ⟨2, _⟩ => ⟨S20x30x30, .f32⟩
  | .local _ .vmem, ⟨3, _⟩ => ⟨S20x30x30, .f32⟩
  | .local _ .vmem, ⟨4, _⟩ => ⟨S4x8, .f32⟩
  | .local _ .vmem, ⟨5, _⟩ => ⟨S8, .f32⟩
  | .local _ .vmem, ⟨6, _⟩ => ⟨S8x3072, .f32⟩
  | .local _ .vmem, ⟨7, _⟩ => ⟨S3072, .f32⟩
  | .local _ .vmem, ⟨8, _⟩ => ⟨S3072x30, .f32⟩
  | .local _ .vmem, ⟨9, _⟩ => ⟨S30, .f32⟩
  | .local _ .vmem, ⟨10, _⟩ => ⟨S30x60, .f32⟩
  | .local _ .vmem, ⟨11, _⟩ => ⟨S60, .f32⟩
  | .local _ .vmem, ⟨12, _⟩ => ⟨S600x60, .f32⟩
  | .local _ .vmem, ⟨13, _⟩ => ⟨S600x60, .f32⟩
  | _, _ => ⟨S30000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v34 : Ref sig .tc := ⟨.hbm, 70, rfl⟩
abbrev main_c_7 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_c : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_0 : Ref sig .tc := ⟨.hbm, 85, rfl⟩
abbrev main_call2_v12 : Ref sig .tc := ⟨.hbm, 86, rfl⟩
abbrev main_call2_v13 : Ref sig .tc := ⟨.hbm, 87, rfl⟩
abbrev main_v35 : Ref sig .tc := ⟨.hbm, 88, rfl⟩
abbrev main_v36 : Ref sig .tc := ⟨.hbm, 89, rfl⟩
abbrev main_cst_8 : Ref sig .tc := ⟨.hbm, 90, rfl⟩
abbrev main_call3_v0 : Ref sig .tc := ⟨.hbm, 91, rfl⟩
abbrev main_v37 : Ref sig .tc := ⟨.hbm, 92, rfl⟩
abbrev main_c_9 : Ref sig .tc := ⟨.hbm, 93, rfl⟩
abbrev main_call4_v0 : Ref sig .tc := ⟨.hbm, 94, rfl⟩
abbrev main_call4_c : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_1 : Ref sig .tc := ⟨.hbm, 101, rfl⟩
abbrev main_call4_v5 : Ref sig .tc := ⟨.hbm, 102, rfl⟩
abbrev main_call4_v6 : Ref sig .tc := ⟨.hbm, 103, rfl⟩
abbrev main_call4_c_2 : Ref sig .tc := ⟨.hbm, 104, rfl⟩
abbrev main_call4_v7 : Ref sig .tc := ⟨.hbm, 105, rfl⟩
abbrev main_call4_v8 : Ref sig .tc := ⟨.hbm, 106, rfl⟩
abbrev main_call4_c_3 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_v12 : Ref sig .tc := ⟨.hbm, 111, rfl⟩
abbrev main_call4_v13 : Ref sig .tc := ⟨.hbm, 112, rfl⟩
abbrev main_call4_v14 : Ref sig .tc := ⟨.hbm, 113, rfl⟩
abbrev main_v38 : Ref sig .tc := ⟨.hbm, 114, rfl⟩
abbrev main_c_10 : Ref sig .tc := ⟨.hbm, 115, rfl⟩
abbrev main_call5_v0 : Ref sig .tc := ⟨.hbm, 116, rfl⟩
abbrev main_call5_c : Ref sig .tc := ⟨.hbm, 117, rfl⟩
abbrev main_call5_v1 : Ref sig .tc := ⟨.hbm, 118, rfl⟩
abbrev main_call5_c_0 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_c_1 : Ref sig .tc := ⟨.hbm, 123, rfl⟩
abbrev main_call5_v5 : Ref sig .tc := ⟨.hbm, 124, rfl⟩
abbrev main_call5_v6 : Ref sig .tc := ⟨.hbm, 125, rfl⟩
abbrev main_call5_c_2 : Ref sig .tc := ⟨.hbm, 126, rfl⟩
abbrev main_call5_v7 : Ref sig .tc := ⟨.hbm, 127, rfl⟩
abbrev main_call5_v8 : Ref sig .tc := ⟨.hbm, 128, rfl⟩
abbrev main_call5_c_3 : Ref sig .tc := ⟨.hbm, 129, rfl⟩
abbrev main_call5_v9 : Ref sig .tc := ⟨.hbm, 130, rfl⟩
abbrev main_call5_v10 : Ref sig .tc := ⟨.hbm, 131, rfl⟩
abbrev main_call5_v11 : Ref sig .tc := ⟨.hbm, 132, rfl⟩
abbrev main_call5_v12 : Ref sig .tc := ⟨.hbm, 133, rfl⟩
abbrev main_call5_v13 : Ref sig .tc := ⟨.hbm, 134, rfl⟩
abbrev main_call5_v14 : Ref sig .tc := ⟨.hbm, 135, rfl⟩
abbrev main_v39 : Ref sig .tc := ⟨.hbm, 136, rfl⟩
abbrev main_c_11 : Ref sig .tc := ⟨.hbm, 137, rfl⟩
abbrev main_v40 : Ref sig .tc := ⟨.hbm, 138, rfl⟩
abbrev main_v41 : Ref sig .tc := ⟨.hbm, 139, rfl⟩
abbrev main_c_12 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_cst_13 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩
abbrev main_v52 : Ref sig .tc := ⟨.hbm, 152, rfl⟩
abbrev main_c_14 : Ref sig .tc := ⟨.hbm, 153, rfl⟩
abbrev main_v53 : Ref sig .tc := ⟨.hbm, 154, rfl⟩
abbrev main_v54 : Ref sig .tc := ⟨.hbm, 155, rfl⟩
abbrev main_c_15 : Ref sig .tc := ⟨.hbm, 156, rfl⟩
abbrev main_v55 : Ref sig .tc := ⟨.hbm, 157, rfl⟩
abbrev main_v56 : Ref sig .tc := ⟨.hbm, 158, rfl⟩
abbrev main_v57 : Ref sig .tc := ⟨.hbm, 159, rfl⟩
abbrev main_c_16 : Ref sig .tc := ⟨.hbm, 160, rfl⟩
abbrev main_v58 : Ref sig .tc := ⟨.hbm, 161, rfl⟩
abbrev main_v59 : Ref sig .tc := ⟨.hbm, 162, rfl⟩
abbrev main_c_17 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_cst_18 : Ref sig .tc := ⟨.hbm, 171, rfl⟩
abbrev main_v67 : Ref sig .tc := ⟨.hbm, 172, rfl⟩
abbrev main_c_19 : Ref sig .tc := ⟨.hbm, 173, rfl⟩
abbrev main_v68 : Ref sig .tc := ⟨.hbm, 174, rfl⟩
abbrev main_v69 : Ref sig .tc := ⟨.hbm, 175, rfl⟩
abbrev main_cst_20 : Ref sig .tc := ⟨.hbm, 176, rfl⟩
abbrev main_v70 : Ref sig .tc := ⟨.hbm, 177, rfl⟩
abbrev main_c_21 : Ref sig .tc := ⟨.hbm, 178, rfl⟩
abbrev main_v71 : Ref sig .tc := ⟨.hbm, 179, rfl⟩
abbrev main_v72 : Ref sig .tc := ⟨.hbm, 180, rfl⟩
abbrev main_cst_22 : Ref sig .tc := ⟨.hbm, 181, rfl⟩
abbrev main_v73 : Ref sig .tc := ⟨.hbm, 182, rfl⟩
abbrev main_c_23 : Ref sig .tc := ⟨.hbm, 183, rfl⟩
abbrev main_v74 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S600x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x30x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S30 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S30x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S60 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S600x60 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x34000_S1x34000_0_0 : S2x34000.Slices ![0, 0] S1x34000
  shapeCasts_S1x34000_S34000 : S1x34000.ShapeCasts S34000
  concatenates_S34000_S30000_S64000_d0 : Shape.Concatenates [S34000, S30000] S64000 0
  slices_S2x34000_S1x34000_1_0 : S2x34000.Slices ![1, 0] S1x34000
  bcast_S_S64000 : S_.BroadcastsInDim S64000 (![] : Fin 0 → Fin S64000.rank)
  bcast_S_S30000 : S_.BroadcastsInDim S30000 (![] : Fin 0 → Fin S30000.rank)
  bcast_S64000_S64000x1_0 : S64000.BroadcastsInDim S64000x1 (![0] : Fin 1 → Fin S64000x1.rank)
  bcast_S_S34000 : S_.BroadcastsInDim S34000 (![] : Fin 0 → Fin S34000.rank)
  bcast_S34000_S34000x1_0 : S34000.BroadcastsInDim S34000x1 (![0] : Fin 1 → Fin S34000x1.rank)
  bcast_S_S900000 : S_.BroadcastsInDim S900000 (![] : Fin 0 → Fin S900000.rank)
  shapeCasts_S900000_S1000x30x30 : S900000.ShapeCasts S1000x30x30
  shapeCasts_S30000_S1000x30 : S30000.ShapeCasts S1000x30
  bcast_S_S30 : S_.BroadcastsInDim S30 (![] : Fin 0 → Fin S30.rank)
  bcast_S30_S30x1_0 : S30.BroadcastsInDim S30x1 (![0] : Fin 1 → Fin S30x1.rank)
  concatenates_S30x1_S30x1_S30x2_d1 : Shape.Concatenates [S30x1, S30x1] S30x2 1
  bcast_S_S8x3072 : S_.BroadcastsInDim S8x3072 (![] : Fin 0 → Fin S8x3072.rank)
  bcast_S_S1 : S_.BroadcastsInDim S1 (![] : Fin 0 → Fin S1.rank)
  bcast_S_S3072 : S_.BroadcastsInDim S3072 (![] : Fin 0 → Fin S3072.rank)
  bcast_S_S3072x30 : S_.BroadcastsInDim S3072x30 (![] : Fin 0 → Fin S3072x30.rank)
  inb_S20x30x30_S20x30x30_0_0_0 : ∀ a, (![0, 0, 0] : Fin 3 → Nat) a + S20x30x30.size a ≤ S20x30x30.size a
  h_S20x30x30 : 0 < S20x30x30.numel
  shapeCasts_S20x30x30_S20x30x30 : S20x30x30.ShapeCasts S20x30x30
  bitsLt_bf16_f32 : FTy.bits .bf16 < FTy.bits .f32
  inb_S600x4_S600x4_0_0 : ∀ a, (![0, 0] : Fin 2 → Nat) a + S600x4.size a ≤ S600x4.size a
  h_S600x4 : 0 < S600x4.numel
  shapeCasts_S600x4_S20x30x4 : S600x4.ShapeCasts S20x30x4
  shapeCasts_S20x30x4_S600x4 : S20x30x4.ShapeCasts S600x4
  inb_S4x8_S4x8_0_0 : ∀ a, (![0, 0] : Fin 2 → Nat) a + S4x8.size a ≤ S4x8.size a
  h_S4x8 : 0 < S4x8.numel
  inb_S8_S8_0 : ∀ a, (![0] : Fin 1 → Nat) a + S8.size a ≤ S8.size a
  h_S8 : 0 < S8.numel
  shapeCasts_S8_S1x8 : S8.ShapeCasts S1x8
  broadcasts_S1x8_S600x8 : S1x8.Broadcasts S600x8
  shapeCasts_S600x8_S20x30x8 : S600x8.ShapeCasts S20x30x8
  shapeCasts_S20x30x8_S600x8 : S20x30x8.ShapeCasts S600x8
  inb_S8x3072_S8x1024_0_0 : ∀ a, (![0, 0] : Fin 2 → Nat) a + S8x1024.size a ≤ S8x3072.size a
  h_S8x1024 : 0 < S8x1024.numel
  shapeCasts_S8x1024_S8x1024 : S8x1024.ShapeCasts S8x1024
  inb_S3072_S1024_0 : ∀ a, (![0] : Fin 1 → Nat) a + S1024.size a ≤ S3072.size a
  h_S1024 : 0 < S1024.numel
  shapeCasts_S1024_S1024 : S1024.ShapeCasts S1024
  shapeCasts_S1024_S1x1024 : S1024.ShapeCasts S1x1024
  broadcasts_S1x1024_S600x1024 : S1x1024.Broadcasts S600x1024
  inb_S3072x30_S1024x30_0_0 : ∀ a, (![0, 0] : Fin 2 → Nat) a + S1024x30.size a ≤ S3072x30.size a
  h_S1024x30 : 0 < S1024x30.numel
  shapeCasts_S1024x30_S1024x30 : S1024x30.ShapeCasts S1024x30
  inb_S8x3072_S8x1024_0_1024 : ∀ a, (![0, 1024] : Fin 2 → Nat) a + S8x1024.size a ≤ S8x3072.size a
  inb_S3072_S1024_1024 : ∀ a, (![1024] : Fin 1 → Nat) a + S1024.size a ≤ S3072.size a
  inb_S3072x30_S1024x30_1024_0 : ∀ a, (![1024, 0] : Fin 2 → Nat) a + S1024x30.size a ≤ S3072x30.size a
  inb_S8x3072_S8x1024_0_2048 : ∀ a, (![0, 2048] : Fin 2 → Nat) a + S8x1024.size a ≤ S8x3072.size a
  inb_S3072_S1024_2048 : ∀ a, (![2048] : Fin 1 → Nat) a + S1024.size a ≤ S3072.size a
  inb_S3072x30_S1024x30_2048_0 : ∀ a, (![2048, 0] : Fin 2 → Nat) a + S1024x30.size a ≤ S3072x30.size a
  inb_S30_S30_0 : ∀ a, (![0] : Fin 1 → Nat) a + S30.size a ≤ S30.size a
  h_S30 : 0 < S30.numel
  shapeCasts_S30_S1x30 : S30.ShapeCasts S1x30
  broadcasts_S1x30_S600x30 : S1x30.Broadcasts S600x30
  inb_S30x60_S30x60_0_0 : ∀ a, (![0, 0] : Fin 2 → Nat) a + S30x60.size a ≤ S30x60.size a
  h_S30x60 : 0 < S30x60.numel
  inb_S60_S60_0 : ∀ a, (![0] : Fin 1 → Nat) a + S60.size a ≤ S60.size a
  h_S60 : 0 < S60.numel
  shapeCasts_S60_S1x60 : S60.ShapeCasts S1x60
  broadcasts_S1x60_S600x60 : S1x60.Broadcasts S600x60
  inb_S600x60_S600x60_0_0 : ∀ a, (![0, 0] : Fin 2 → Nat) a + S600x60.size a ≤ S600x60.size a
  h_S600x60 : 0 < S600x60.numel
  shapeCasts_S30000x60_S600x1500x2 : S30000x60.ShapeCasts S600x1500x2
  scatter_S30000_S64000x1_S64000_n_0_0_1_wf : ScatterDims.WF S30000 S64000x1 S64000 [] [0] [0] 1
  gather_S30000_S34000x1_S34000_n_0_n_n_0_1_1_wf : GatherDims.WF S30000 S34000x1 S34000 [] [0] [] [0] [] 1 ![1]
  scatter_S900000_S34000x1_S34000_n_0_0_1_wf : ScatterDims.WF S900000 S34000x1 S34000 [] [0] [0] 1
  scatter_S1000x30x30_S30x2_S1000x30_0_12_12_1_wf : ScatterDims.WF S1000x30x30 S30x2 S1000x30 [0] [1, 2] [1, 2] 1
  scatter_S8x3072_S1_S8x3000_01_n_1_0_wf : ScatterDims.WF S8x3072 S1 S8x3000 [0, 1] [] [1] 0
  scatter_S3072_S1_S3000_0_n_0_0_wf : ScatterDims.WF S3072 S1 S3000 [0] [] [0] 0
  scatter_S3072x30_S1_S3000x30_01_n_0_0_wf : ScatterDims.WF S3072x30 S1 S3000x30 [0, 1] [] [0] 0
  dot_S20x30x30_S20x30x4_S20x30x4_2_1_1_2_0_0_wf : DotDims.WF S20x30x30 S20x30x4 S20x30x4 [2] [1] [1] [2] [0] [0]
  dot_S600x4_S4x8_S600x8_1_0_0_1_n_n_wf : DotDims.WF S600x4 S4x8 S600x8 [1] [0] [0] [1] [] []
  dot_S20x30x30_S20x30x8_S20x30x8_2_1_1_2_0_0_wf : DotDims.WF S20x30x30 S20x30x8 S20x30x8 [2] [1] [1] [2] [0] [0]
  dot_S600x8_S8x1024_S600x1024_1_0_0_1_n_n_wf : DotDims.WF S600x8 S8x1024 S600x1024 [1] [0] [0] [1] [] []
  dot_S600x1024_S1024x30_S600x30_1_0_0_1_n_n_wf : DotDims.WF S600x1024 S1024x30 S600x30 [1] [0] [0] [1] [] []
  dot_S600x30_S30x60_S600x60_1_0_0_1_n_n_wf : DotDims.WF S600x30 S30x60 S600x60 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S600x4.size a ≤ S30000x4.size a
  hwx0_0 : ∀ i : grid0.Coords, EltTy.bits .f32 = 32 ∨ (Rect.block (s := S30000x4) S600x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20x30x30.size a ≤ S1000x30x30.size a
  hwx0_1 : ∀ i : grid0.Coords, EltTy.bits .f32 = 32 ∨ (Rect.block (s := S1000x30x30) S20x30x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x8.size a ≤ S4x8.size a
  hwx0_2 : ∀ i : grid0.Coords, EltTy.bits .f32 = 32 ∨ (Rect.block (s := S4x8) S4x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x3072.size a ≤ S8x3072.size a
  hwx0_4 : ∀ i : grid0.Coords, EltTy.bits .f32 = 32 ∨ (Rect.block (s := S8x3072) S8x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3072.size a ≤ S3072.size a
  hwx0_5 : ∀ i : grid0.Coords, EltTy.bits .f32 = 32 ∨ (Rect.block (s := S3072) S3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3072x30.size a ≤ S3072x30.size a
  hwx0_6 : ∀ i : grid0.Coords, EltTy.bits .f32 = 32 ∨ (Rect.block (s := S3072x30) S3072x30.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S30.size a ≤ S30.size a
  hwx0_7 : ∀ i : grid0.Coords, EltTy.bits .f32 = 32 ∨ (Rect.block (s := S30) S30.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S30x60.size a ≤ S30x60.size a
  hwx0_8 : ∀ i : grid0.Coords, EltTy.bits .f32 = 32 ∨ (Rect.block (s := S30x60) S30x60.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S60.size a ≤ S60.size a
  hwx0_9 : ∀ i : grid0.Coords, EltTy.bits .f32 = 32 ∨ (Rect.block (s := S60) S60.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S600x60.size a ≤ S30000x60.size a
  hwx0_10 : ∀ i : grid0.Coords, EltTy.bits .f32 = 32 ∨ (Rect.block (s := S30000x60) S600x60.size (cc0_transform_10 i) (hinb0_10 i)).WholeWords (EltTy.packing .f32)

variable [Facts₀]

def scatter_S30000_S64000x1_S64000_n_0_0_1 : ScatterDims S30000 S64000x1 S64000 where
  updateWindowDims := []
  insertedWindowDims := [0]
  scatterDimsToOperandDims := [0]
  indexVectorDim := 1
  wf := scatter_S30000_S64000x1_S64000_n_0_0_1_wf
def gather_S30000_S34000x1_S34000_n_0_n_n_0_1_1 : GatherDims S30000 S34000x1 S34000 where
  offsetDims := []
  collapsedSliceDims := [0]
  operandBatchingDims := []
  startIndicesBatchingDims := []
  startIndexMap := [0]
  indexVectorDim := 1
  sliceSizes := ![1]
  wf := gather_S30000_S34000x1_S34000_n_0_n_n_0_1_1_wf
def scatter_S900000_S34000x1_S34000_n_0_0_1 : ScatterDims S900000 S34000x1 S34000 where
  updateWindowDims := []
  insertedWindowDims := [0]
  scatterDimsToOperandDims := [0]
  indexVectorDim := 1
  wf := scatter_S900000_S34000x1_S34000_n_0_0_1_wf
def scatter_S1000x30x30_S30x2_S1000x30_0_12_12_1 : ScatterDims S1000x30x30 S30x2 S1000x30 where
  updateWindowDims := [0]
  insertedWindowDims := [1, 2]
  scatterDimsToOperandDims := [1, 2]
  indexVectorDim := 1
  wf := scatter_S1000x30x30_S30x2_S1000x30_0_12_12_1_wf
def scatter_S8x3072_S1_S8x3000_01_n_1_0 : ScatterDims S8x3072 S1 S8x3000 where
  updateWindowDims := [0, 1]
  insertedWindowDims := []
  scatterDimsToOperandDims := [1]
  indexVectorDim := 0
  wf := scatter_S8x3072_S1_S8x3000_01_n_1_0_wf
def scatter_S3072_S1_S3000_0_n_0_0 : ScatterDims S3072 S1 S3000 where
  updateWindowDims := [0]
  insertedWindowDims := []
  scatterDimsToOperandDims := [0]
  indexVectorDim := 0
  wf := scatter_S3072_S1_S3000_0_n_0_0_wf
def scatter_S3072x30_S1_S3000x30_01_n_0_0 : ScatterDims S3072x30 S1 S3000x30 where
  updateWindowDims := [0, 1]
  insertedWindowDims := []
  scatterDimsToOperandDims := [0]
  indexVectorDim := 0
  wf := scatter_S3072x30_S1_S3000x30_01_n_0_0_wf
def dot_S20x30x30_S20x30x4_S20x30x4_2_1_1_2_0_0 : DotDims S20x30x30 S20x30x4 S20x30x4 where
  lhsContracting := [2]
  rhsContracting := [1]
  lhsNonContracting := [1]
  rhsNonContracting := [2]
  lhsBatch := [0]
  rhsBatch := [0]
  wf := dot_S20x30x30_S20x30x4_S20x30x4_2_1_1_2_0_0_wf
def dot_S600x4_S4x8_S600x8_1_0_0_1_n_n : DotDims S600x4 S4x8 S600x8 where
  lhsContracting := [1]
  rhsContracting := [0]
  lhsNonContracting := [0]
  rhsNonContracting := [1]
  lhsBatch := []
  rhsBatch := []
  wf := dot_S600x4_S4x8_S600x8_1_0_0_1_n_n_wf
def dot_S20x30x30_S20x30x8_S20x30x8_2_1_1_2_0_0 : DotDims S20x30x30 S20x30x8 S20x30x8 where
  lhsContracting := [2]
  rhsContracting := [1]
  lhsNonContracting := [1]
  rhsNonContracting := [2]
  lhsBatch := [0]
  rhsBatch := [0]
  wf := dot_S20x30x30_S20x30x8_S20x30x8_2_1_1_2_0_0_wf
def dot_S600x8_S8x1024_S600x1024_1_0_0_1_n_n : DotDims S600x8 S8x1024 S600x1024 where
  lhsContracting := [1]
  rhsContracting := [0]
  lhsNonContracting := [0]
  rhsNonContracting := [1]
  lhsBatch := []
  rhsBatch := []
  wf := dot_S600x8_S8x1024_S600x1024_1_0_0_1_n_n_wf
def dot_S600x1024_S1024x30_S600x30_1_0_0_1_n_n : DotDims S600x1024 S1024x30 S600x30 where
  lhsContracting := [1]
  rhsContracting := [0]
  lhsNonContracting := [0]
  rhsNonContracting := [1]
  lhsBatch := []
  rhsBatch := []
  wf := dot_S600x1024_S1024x30_S600x30_1_0_0_1_n_n_wf
def dot_S600x30_S30x60_S600x60_1_0_0_1_n_n : DotDims S600x30 S30x60 S600x60 where
  lhsContracting := [1]
  rhsContracting := [0]
  lhsNonContracting := [0]
  rhsNonContracting := [1]
  lhsBatch := []
  rhsBatch := []
  wf := dot_S600x30_S30x60_S600x60_1_0_0_1_n_n_wf

abbrev win0_0 : Pipeline.Window sig grid0 :=
  Pipeline.Window.ofSpec (Memref.whole main_arg0) S600x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S20x30x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S8x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v72) S3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v75) S3072x30.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S30.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S30x60.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S60.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v76) S600x60.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S30000x4 : Shape := ⟨2, ![30000, 4]⟩
abbrev S2x34000 : Shape := ⟨2, ![2, 34000]⟩
abbrev S4x8 : Shape := ⟨2, ![4, 8]⟩
abbrev S8 : Shape := ⟨1, ![8]⟩
abbrev S8x3000 : Shape := ⟨2, ![8, 3000]⟩
abbrev S3000 : Shape := ⟨1, ![3000]⟩
abbrev S3000x30 : Shape := ⟨2, ![3000, 30]⟩
abbrev S30 : Shape := ⟨1, ![30]⟩
abbrev S30x60 : Shape := ⟨2, ![30, 60]⟩
abbrev S60 : Shape := ⟨1, ![60]⟩
abbrev S30000 : Shape := ⟨1, ![30000]⟩
abbrev S1x34000 : Shape := ⟨2, ![1, 34000]⟩
abbrev S34000 : Shape := ⟨1, ![34000]⟩
abbrev S64000 : Shape := ⟨1, ![64000]⟩
abbrev S_ : Shape := ⟨0, ![]⟩
abbrev S64000x1 : Shape := ⟨2, ![64000, 1]⟩
abbrev S30000x8 : Shape := ⟨2, ![30000, 8]⟩
abbrev S64000x8 : Shape := ⟨2, ![64000, 8]⟩
abbrev S1x8 : Shape := ⟨2, ![1, 8]⟩
abbrev S30000x3000 : Shape := ⟨2, ![30000, 3000]⟩
abbrev S64000x3000 : Shape := ⟨2, ![64000, 3000]⟩
abbrev S1x3000 : Shape := ⟨2, ![1, 3000]⟩
abbrev S30000x30 : Shape := ⟨2, ![30000, 30]⟩
abbrev S1x30 : Shape := ⟨2, ![1, 30]⟩
abbrev S30000x60 : Shape := ⟨2, ![30000, 60]⟩
abbrev S1x60 : Shape := ⟨2, ![1, 60]⟩
abbrev S600x1500x2 : Shape := ⟨3, ![600, 1500, 2]⟩

abbrev nBuf : Space → Nat
  | .hbm => 103
  | .vmem => 0
  | .smem => 0
  | _ => 0

abbrev bufTy : (tb : Table) → Fin (tcTables nBuf tb) → BufTy
  | .hbm, ⟨0, _⟩ => ⟨S30000x4, .f32⟩
  | .hbm, ⟨1, _⟩ => ⟨S2x34000, .i32⟩
  | .hbm, ⟨2, _⟩ => ⟨S4x8, .f32⟩
  | .hbm, ⟨3, _⟩ => ⟨S8, .f32⟩
  | .hbm, ⟨4, _⟩ => ⟨S8x3000, .f32⟩
  | .hbm, ⟨5, _⟩ => ⟨S3000, .f32⟩
  | .hbm, ⟨6, _⟩ => ⟨S3000x30, .f32⟩
  | .hbm, ⟨7, _⟩ => ⟨S30, .f32⟩
  | .hbm, ⟨8, _⟩ => ⟨S30x60, .f32⟩
  | .hbm, ⟨9, _⟩ => ⟨S60, .f32⟩
  | .hbm, ⟨10, _⟩ => ⟨S30000, .i32⟩
  | .hbm, ⟨11, _⟩ => ⟨S1x34000, .i32⟩
  | .hbm, ⟨12, _⟩ => ⟨S34000, .i32⟩
  | .hbm, ⟨13, _⟩ => ⟨S64000, .i32⟩
  | .hbm, ⟨14, _⟩ => ⟨S1x34000, .i32⟩
  | .hbm, ⟨15, _⟩ => ⟨S34000, .i32⟩
  | .hbm, ⟨16, _⟩ => ⟨S64000, .i32⟩
  | .hbm, ⟨17, _⟩ => ⟨S_, .f32⟩
  | .hbm, ⟨18, _⟩ => ⟨S64000, .f32⟩
  | .hbm, ⟨19, _⟩ => ⟨S_, .f32⟩
  | .hbm, ⟨20, _⟩ => ⟨S30000, .f32⟩
  | .hbm, ⟨21, _⟩ => ⟨S64000x1, .i32⟩
  | .hbm, ⟨22, _⟩ => ⟨S30000, .f32⟩
  | .hbm, ⟨23, _⟩ => ⟨S_, .f32⟩
  | .hbm, ⟨24, _⟩ => ⟨S30000, .f32⟩
  | .hbm, ⟨25, _⟩ => ⟨S30000, .i1⟩
  | .hbm, ⟨26, _⟩ => ⟨S30000, .f32⟩
  | .hbm, ⟨27, _⟩ => ⟨S_, .f32⟩
  | .hbm, ⟨28, _⟩ => ⟨S_, .f32⟩
  | .hbm, ⟨29, _⟩ => ⟨S30000, .f32⟩
  | .hbm, ⟨30, _⟩ => ⟨S30000, .f32⟩
  | .hbm, ⟨31, _⟩ => ⟨S_, .i32⟩
  | .hbm, ⟨32, _⟩ => ⟨S64000, .i32⟩
  | .hbm, ⟨33, _⟩ => ⟨S64000, .i1⟩
  | .hbm, ⟨34, _⟩ => ⟨S_, .i32⟩
  | .hbm, ⟨35, _⟩ => ⟨S64000, .i32⟩
  | .hbm, ⟨36, _⟩ => ⟨S64000, .i32⟩
  | .hbm, ⟨37, _⟩ => ⟨S64000, .i32⟩
  | .hbm, ⟨38, _⟩ => ⟨S64000x1, .i32⟩
  | .hbm, ⟨39, _⟩ => ⟨S64000, .f32⟩
  | .hbm, ⟨40, _⟩ => ⟨S_, .i32⟩
  | .hbm, ⟨41, _⟩ => ⟨S64000, .i32⟩
  | .hbm, ⟨42, _⟩ => ⟨S64000, .i1⟩
  | .hbm, ⟨43, _⟩ => ⟨S_, .i32⟩
  | .hbm, ⟨44, _⟩ => ⟨S64000, .i32⟩
  | .hbm, ⟨45, _⟩ => ⟨S64000, .i32⟩
  | .hbm, ⟨46, _⟩ => ⟨S64000, .i32⟩
  | .hbm, ⟨47, _⟩ => ⟨S64000x1, .i32⟩
  | .hbm, ⟨48, _⟩ => ⟨S64000, .f32⟩
  | .hbm, ⟨49, _⟩ => ⟨S64000, .f32⟩
  | .hbm, ⟨50, _⟩ => ⟨S64000x1, .f32⟩
  | .hbm, ⟨51, _⟩ => ⟨S30000x8, .f32⟩
  | .hbm, ⟨52, _⟩ => ⟨S_, .i32⟩
  | .hbm, ⟨53, _⟩ => ⟨S64000, .i32⟩
  | .hbm, ⟨54, _⟩ => ⟨S64000, .i1⟩
  | .hbm, ⟨55, _⟩ => ⟨S_, .i32⟩
  | .hbm, ⟨56, _⟩ => ⟨S64000, .i32⟩
  | .hbm, ⟨57, _⟩ => ⟨S64000, .i32⟩
  | .hbm, ⟨58, _⟩ => ⟨S64000, .i32⟩
  | .hbm, ⟨59, _⟩ => ⟨S64000x1, .i32⟩
  | .hbm, ⟨60, _⟩ => ⟨S64000x8, .f32⟩
  | .hbm, ⟨61, _⟩ => ⟨S64000x8, .f32⟩
  | .hbm, ⟨62, _⟩ => ⟨S64000x8, .f32⟩
  | .hbm, ⟨63, _⟩ => ⟨S_, .f32⟩
  | .hbm, ⟨64, _⟩ => ⟨S30000x8, .f32⟩
  | .hbm, ⟨65, _⟩ => ⟨S64000x1, .i32⟩
  | .hbm, ⟨66, _⟩ => ⟨S30000x8, .f32⟩
  | .hbm, ⟨67, _⟩ => ⟨S1x8, .f32⟩
  | .hbm, ⟨68, _⟩ => ⟨S30000x8, .f32⟩
  | .hbm, ⟨69, _⟩ => ⟨S30000x8, .f32⟩
  | .hbm, ⟨70, _⟩ => ⟨S30000x8, .f32⟩
  | .hbm, ⟨71, _⟩ => ⟨S30000x3000, .f32⟩
  | .hbm, ⟨72, _⟩ => ⟨S_, .i32⟩
  | .hbm, ⟨73, _⟩ => ⟨S64000, .i32⟩
  | .hbm, ⟨74, _⟩ => ⟨S64000, .i1⟩
  | .hbm, ⟨75, _⟩ => ⟨S_, .i32⟩
  | .hbm, ⟨76, _⟩ => ⟨S64000, .i32⟩
  | .hbm, ⟨77, _⟩ => ⟨S64000, .i32⟩
  | .hbm, ⟨78, _⟩ => ⟨S64000, .i32⟩
  | .hbm, ⟨79, _⟩ => ⟨S64000x1, .i32⟩
  | .hbm, ⟨80, _⟩ => ⟨S64000x3000, .f32⟩
  | .hbm, ⟨81, _⟩ => ⟨S64000x3000, .f32⟩
  | .hbm, ⟨82, _⟩ => ⟨S64000x3000, .f32⟩
  | .hbm, ⟨83, _⟩ => ⟨S_, .f32⟩
  | .hbm, ⟨84, _⟩ => ⟨S30000x3000, .f32⟩
  | .hbm, ⟨85, _⟩ => ⟨S64000x1, .i32⟩
  | .hbm, ⟨86, _⟩ => ⟨S30000x3000, .f32⟩
  | .hbm, ⟨87, _⟩ => ⟨S1x3000, .f32⟩
  | .hbm, ⟨88, _⟩ => ⟨S30000x3000, .f32⟩
  | .hbm, ⟨89, _⟩ => ⟨S30000x3000, .f32⟩
  | .hbm, ⟨90, _⟩ => ⟨S30000x3000, .f32⟩
  | .hbm, ⟨91, _⟩ => ⟨S30000x30, .f32⟩
  | .hbm, ⟨92, _⟩ => ⟨S1x30, .f32⟩
  | .hbm, ⟨93, _⟩ => ⟨S30000x30, .f32⟩
  | .hbm, ⟨94, _⟩ => ⟨S30000x30, .f32⟩
  | .hbm, ⟨95, _⟩ => ⟨S_, .f32⟩
  | .hbm, ⟨96, _⟩ => ⟨S30000x30, .f32⟩
  | .hbm, ⟨97, _⟩ => ⟨S30000x30, .f32⟩
  | .hbm, ⟨98, _⟩ => ⟨S30000x60, .f32⟩
  | .hbm, ⟨99, _⟩ => ⟨S1x60, .f32⟩
  | .hbm, ⟨100, _⟩ => ⟨S30000x60, .f32⟩
  | .hbm, ⟨101, _⟩ => ⟨S30000x60, .f32⟩
  | .hbm, ⟨102, _⟩ => ⟨S600x1500x2, .f32⟩
  | _, _ => ⟨S30000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_cst : Ref sig .tc := ⟨.hbm, 95, rfl⟩
abbrev main_call1_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  slices_S2x34000_S1x34000_0_0 : S2x34000.Slices ![0, 0] S1x34000
  shapeCasts_S1x34000_S34000 : S1x34000.ShapeCasts S34000
  concatenates_S34000_S30000_S64000_d0 : Shape.Concatenates [S34000, S30000] S64000 0
  slices_S2x34000_S1x34000_1_0 : S2x34000.Slices ![1, 0] S1x34000
  bcast_S_S64000 : S_.BroadcastsInDim S64000 (![] : Fin 0 → Fin S64000.rank)
  bcast_S_S30000 : S_.BroadcastsInDim S30000 (![] : Fin 0 → Fin S30000.rank)
  bcast_S64000_S64000x1_0 : S64000.BroadcastsInDim S64000x1 (![0] : Fin 1 → Fin S64000x1.rank)
  bcast_S64000x1_S64000x8_0_1 : S64000x1.BroadcastsInDim S64000x8 (![0, 1] : Fin 2 → Fin S64000x8.rank)
  bcast_S_S30000x8 : S_.BroadcastsInDim S30000x8 (![] : Fin 0 → Fin S30000x8.rank)
  bcast_S8_S1x8_1 : S8.BroadcastsInDim S1x8 (![1] : Fin 1 → Fin S1x8.rank)
  bcast_S1x8_S30000x8_0_1 : S1x8.BroadcastsInDim S30000x8 (![0, 1] : Fin 2 → Fin S30000x8.rank)
  bcast_S64000x1_S64000x3000_0_1 : S64000x1.BroadcastsInDim S64000x3000 (![0, 1] : Fin 2 → Fin S64000x3000.rank)
  bcast_S_S30000x3000 : S_.BroadcastsInDim S30000x3000 (![] : Fin 0 → Fin S30000x3000.rank)
  bcast_S3000_S1x3000_1 : S3000.BroadcastsInDim S1x3000 (![1] : Fin 1 → Fin S1x3000.rank)
  bcast_S1x3000_S30000x3000_0_1 : S1x3000.BroadcastsInDim S30000x3000 (![0, 1] : Fin 2 → Fin S30000x3000.rank)
  bcast_S30_S1x30_1 : S30.BroadcastsInDim S1x30 (![1] : Fin 1 → Fin S1x30.rank)
  bcast_S1x30_S30000x30_0_1 : S1x30.BroadcastsInDim S30000x30 (![0, 1] : Fin 2 → Fin S30000x30.rank)
  bcast_S_S30000x30 : S_.BroadcastsInDim S30000x30 (![] : Fin 0 → Fin S30000x30.rank)
  bcast_S60_S1x60_1 : S60.BroadcastsInDim S1x60 (![1] : Fin 1 → Fin S1x60.rank)
  bcast_S1x60_S30000x60_0_1 : S1x60.BroadcastsInDim S30000x60 (![0, 1] : Fin 2 → Fin S30000x60.rank)
  shapeCasts_S30000x60_S600x1500x2 : S30000x60.ShapeCasts S600x1500x2
  scatter_S30000_S64000x1_S64000_n_0_0_1_wf : ScatterDims.WF S30000 S64000x1 S64000 [] [0] [0] 1
  gather_S30000_S64000x1_S64000_n_0_n_n_0_1_1_wf : GatherDims.WF S30000 S64000x1 S64000 [] [0] [] [0] [] 1 ![1]
  dot_S30000x4_S4x8_S30000x8_1_0_0_1_n_n_wf : DotDims.WF S30000x4 S4x8 S30000x8 [1] [0] [0] [1] [] []
  gather_S30000x8_S64000x1_S64000x8_1_0_n_n_0_1_18_wf : GatherDims.WF S30000x8 S64000x1 S64000x8 [1] [0] [] [0] [] 1 ![1, 8]
  scatter_S30000x8_S64000x1_S64000x8_1_0_0_1_wf : ScatterDims.WF S30000x8 S64000x1 S64000x8 [1] [0] [0] 1
  dot_S30000x8_S8x3000_S30000x3000_1_0_0_1_n_n_wf : DotDims.WF S30000x8 S8x3000 S30000x3000 [1] [0] [0] [1] [] []
  gather_S30000x3000_S64000x1_S64000x3000_1_0_n_n_0_1_13000_wf : GatherDims.WF S30000x3000 S64000x1 S64000x3000 [1] [0] [] [0] [] 1 ![1, 3000]
  scatter_S30000x3000_S64000x1_S64000x3000_1_0_0_1_wf : ScatterDims.WF S30000x3000 S64000x1 S64000x3000 [1] [0] [0] 1
  dot_S30000x3000_S3000x30_S30000x30_1_0_0_1_n_n_wf : DotDims.WF S30000x3000 S3000x30 S30000x30 [1] [0] [0] [1] [] []
  dot_S30000x30_S30x60_S30000x60_1_0_0_1_n_n_wf : DotDims.WF S30000x30 S30x60 S30000x60 [1] [0] [0] [1] [] []

variable [Facts₀]

def scatter_S30000_S64000x1_S64000_n_0_0_1 : ScatterDims S30000 S64000x1 S64000 where
  updateWindowDims := []
  insertedWindowDims := [0]
  scatterDimsToOperandDims := [0]
  indexVectorDim := 1
  wf := scatter_S30000_S64000x1_S64000_n_0_0_1_wf
def gather_S30000_S64000x1_S64000_n_0_n_n_0_1_1 : GatherDims S30000 S64000x1 S64000 where
  offsetDims := []
  collapsedSliceDims := [0]
  operandBatchingDims := []
  startIndicesBatchingDims := []
  startIndexMap := [0]
  indexVectorDim := 1
  sliceSizes := ![1]
  wf := gather_S30000_S64000x1_S64000_n_0_n_n_0_1_1_wf
def dot_S30000x4_S4x8_S30000x8_1_0_0_1_n_n : DotDims S30000x4 S4x8 S30000x8 where
  lhsContracting := [1]
  rhsContracting := [0]
  lhsNonContracting := [0]
  rhsNonContracting := [1]
  lhsBatch := []
  rhsBatch := []
  wf := dot_S30000x4_S4x8_S30000x8_1_0_0_1_n_n_wf
def gather_S30000x8_S64000x1_S64000x8_1_0_n_n_0_1_18 : GatherDims S30000x8 S64000x1 S64000x8 where
  offsetDims := [1]
  collapsedSliceDims := [0]
  operandBatchingDims := []
  startIndicesBatchingDims := []
  startIndexMap := [0]
  indexVectorDim := 1
  sliceSizes := ![1, 8]
  wf := gather_S30000x8_S64000x1_S64000x8_1_0_n_n_0_1_18_wf
def scatter_S30000x8_S64000x1_S64000x8_1_0_0_1 : ScatterDims S30000x8 S64000x1 S64000x8 where
  updateWindowDims := [1]
  insertedWindowDims := [0]
  scatterDimsToOperandDims := [0]
  indexVectorDim := 1
  wf := scatter_S30000x8_S64000x1_S64000x8_1_0_0_1_wf
def dot_S30000x8_S8x3000_S30000x3000_1_0_0_1_n_n : DotDims S30000x8 S8x3000 S30000x3000 where
  lhsContracting := [1]
  rhsContracting := [0]
  lhsNonContracting := [0]
  rhsNonContracting := [1]
  lhsBatch := []
  rhsBatch := []
  wf := dot_S30000x8_S8x3000_S30000x3000_1_0_0_1_n_n_wf
def gather_S30000x3000_S64000x1_S64000x3000_1_0_n_n_0_1_13000 : GatherDims S30000x3000 S64000x1 S64000x3000 where
  offsetDims := [1]
  collapsedSliceDims := [0]
  operandBatchingDims := []
  startIndicesBatchingDims := []
  startIndexMap := [0]
  indexVectorDim := 1
  sliceSizes := ![1, 3000]
  wf := gather_S30000x3000_S64000x1_S64000x3000_1_0_n_n_0_1_13000_wf
def scatter_S30000x3000_S64000x1_S64000x3000_1_0_0_1 : ScatterDims S30000x3000 S64000x1 S64000x3000 where
  updateWindowDims := [1]
  insertedWindowDims := [0]
  scatterDimsToOperandDims := [0]
  indexVectorDim := 1
  wf := scatter_S30000x3000_S64000x1_S64000x3000_1_0_0_1_wf
def dot_S30000x3000_S3000x30_S30000x30_1_0_0_1_n_n : DotDims S30000x3000 S3000x30 S30000x30 where
  lhsContracting := [1]
  rhsContracting := [0]
  lhsNonContracting := [0]
  rhsNonContracting := [1]
  lhsBatch := []
  rhsBatch := []
  wf := dot_S30000x3000_S3000x30_S30000x30_1_0_0_1_n_n_wf
def dot_S30000x30_S30x60_S30000x60_1_0_0_1_n_n : DotDims S30000x30 S30x60 S30000x60 where
  lhsContracting := [1]
  rhsContracting := [0]
  lhsNonContracting := [0]
  rhsNonContracting := [1]
  lhsBatch := []
  rhsBatch := []
  wf := dot_S30000x30_S30x60_S30000x60_1_0_0_1_n_n_wf

class Facts : Prop extends Facts₀ where

variable [Facts]
-- ==== Proof.Spec.lean ====
/-
  The two computations as functions of the decoded inputs, entry by entry, on the extended reals.

  A graph on 30000 nodes has 34000 directed edges `s e → t e`; every node also gets a self loop. With
  `deg n` the number of edges and loops into `n` and `dinv n = deg n ^ (-1/2)`, one aggregation step sends node
  features `f` to `n ↦ ∑ over edges and loops (a → n) of f a · dinv a · dinv n`.

  * The reference applies: features times weights, aggregation, bias, tanh — twice — then a dense layer with a
    maximum with zero, then a dense layer.
  * The kernel first builds, for each block of 30 consecutive nodes, the 30 × 30 matrix of the aggregation
    restricted to edges with both ends in that block, and then works on tiles of 600 rows (20 blocks): it
    aggregates first and multiplies by the weights afterwards, and runs the 3000-wide layer over 3072 columns
    (the weights padded with zeros) in three chunks of 1024.
-/
import Idealize.ShloMosaic.PureOps.Ideal

noncomputable section

open scoped BigOperators

namespace Cert.Gcn

open Idealize.ShloMosaic

/-- A node decoded from an index word: the word read signed, a negative word sent to node 0, clipped to the last node. -/
def nodeOf (w : BitVec 32) : Fin 30000 := ⟨min w.toInt.toNat 29999, by omega⟩

/-- The decoded inputs. -/
structure Inputs where
  X : Fin 30000 → Fin 4 → EReal
  s : Fin 34000 → Fin 30000
  t : Fin 34000 → Fin 30000
  W1 : Fin 4 → Fin 8 → EReal
  b1 : Fin 8 → EReal
  W2 : Fin 8 → Fin 3000 → EReal
  b2 : Fin 3000 → EReal
  Wl1 : Fin 3000 → Fin 30 → EReal
  bl1 : Fin 30 → EReal
  Wl2 : Fin 30 → Fin 60 → EReal
  bl2 : Fin 60 → EReal

/-- Every float entry is a real number. -/
structure Inputs.IsReal (d : Inputs) : Prop where
  X : ∀ n j, ∃ r : ℝ, d.X n j = (r : EReal)
  W1 : ∀ j k, ∃ r : ℝ, d.W1 j k = (r : EReal)
  b1 : ∀ k, ∃ r : ℝ, d.b1 k = (r : EReal)
  W2 : ∀ k c, ∃ r : ℝ, d.W2 k c = (r : EReal)
  b2 : ∀ c, ∃ r : ℝ, d.b2 c = (r : EReal)
  Wl1 : ∀ c q, ∃ r : ℝ, d.Wl1 c q = (r : EReal)
  bl1 : ∀ q, ∃ r : ℝ, d.bl1 q = (r : EReal)
  Wl2 : ∀ q z, ∃ r : ℝ, d.Wl2 q z = (r : EReal)
  bl2 : ∀ z, ∃ r : ℝ, d.bl2 z = (r : EReal)

/-- No edge leaves its block of 30 consecutive nodes. -/
def Inputs.InBlocks (d : Inputs) : Prop := ∀ e, (d.s e).val / 30 = (d.t e).val / 30

variable (d : Inputs)

/-! ## Edges with the self loops appended, degrees -/

/-- Source of extended edge `e`: the first 34000 are the edges, the next 30000 the self loops. -/
def srow (e : Fin 64000) : Fin 30000 := if h : e.val < 34000 then d.s ⟨e.val, h⟩ else ⟨e.val - 34000, by omega⟩

/-- Target of extended edge `e`. -/
def scol (e : Fin 64000) : Fin 30000 := if h : e.val < 34000 then d.t ⟨e.val, h⟩ else ⟨e.val - 34000, by omega⟩

/-- In-degree with the self loop counted. -/
def deg (n : Fin 30000) : EReal := 0 + ∑ _e ∈ Finset.univ.filter (fun e : Fin 64000 => scol d e = n), (1 : EReal)

/-- `deg ^ (-1/2)`, zero where the degree is not positive. -/
def dinv (n : Fin 30000) : EReal := if 0 < deg d n then Ideal.rsqrt (deg d n) else 0

/-! ## The reference -/

def normR (e : Fin 64000) : EReal := dinv d (srow d e) * dinv d (scol d e)

/-- One aggregation step of the reference on one feature column. -/
def aggR (f : Fin 30000 → EReal) (n : Fin 30000) : EReal :=
  0 + ∑ e ∈ Finset.univ.filter (fun e : Fin 64000 => scol d e = n), f (srow d e) * normR d e

def hw1R (n : Fin 30000) (k : Fin 8) : EReal := ∑ j : Fin 4, d.X n j * d.W1 j k
def h1R (n : Fin 30000) (k : Fin 8) : EReal := Ideal.tanh (aggR d (fun a => hw1R d a k) n + d.b1 k)
def hw2R (n : Fin 30000) (c : Fin 3000) : EReal := ∑ k : Fin 8, h1R d n k * d.W2 k c
def h2R (n : Fin 30000) (c : Fin 3000) : EReal := Ideal.tanh (aggR d (fun a => hw2R d a c) n + d.b2 c)
def h3R (n : Fin 30000) (q : Fin 30) : EReal := max ((∑ c : Fin 3000, h2R d n c * d.Wl1 c q) + d.bl1 q) 0
def outR (n : Fin 30000) (z : Fin 60) : EReal := (∑ q : Fin 30, h3R d n q * d.Wl2 q z) + d.bl2 z

/-! ## The kernel's block matrices -/

/-- Weight of edge `e` as the kernel keeps it: dropped when the edge leaves its block. -/
def normK (e : Fin 34000) : EReal :=
  if (d.s e).val / 30 = (d.t e).val / 30 then dinv d (d.s e) * dinv d (d.t e) else 0

/-- Flat position of edge `e` in the 1000 × 30 × 30 table: block of the target, target within the block, source within the block. -/
def segOf (e : Fin 34000) : ℕ := (d.t e).val / 30 * 900 + (d.t e).val % 30 * 30 + (d.s e).val % 30

def flatK (i : Fin 900000) : EReal :=
  0 + ∑ e ∈ Finset.univ.filter (fun e : Fin 34000 => segOf d e = i.val), normK d e

/-- Node `v` of block `b`. -/
def nodeAt (b : Fin 1000) (v : Fin 30) : Fin 30000 := ⟨b.val * 30 + v.val, by omega⟩

/-- Entry `(u, v)` of block `b`'s matrix: the in-block edges `v → u`, plus the self loop on the diagonal. -/
def blkK (b : Fin 1000) (u v : Fin 30) : EReal :=
  flatK d ⟨b.val * 900 + u.val * 30 + v.val, by omega⟩
    + (if u = v then dinv d (nodeAt b u) * dinv d (nodeAt b u) else 0)

/-! ## The kernel's zero-padded weights -/

def W2p (k : Fin 8) (c : Fin 3072) : EReal := if h : c.val < 3000 then d.W2 k ⟨c.val, h⟩ else 0
def b2p (c : Fin 3072) : EReal := if h : c.val < 3000 then d.b2 ⟨c.val, h⟩ else 0
def Wl1p (c : Fin 3072) (q : Fin 30) : EReal := if h : c.val < 3000 then d.Wl1 ⟨c.val, h⟩ q else 0

end Cert.Gcn

/-! ## One tile of the kernel: 600 rows, 20 blocks -/

namespace Cert.Gcn.Tile

open Idealize.ShloMosaic

variable (Xt : Fin 600 → Fin 4 → EReal) (Bt : Fin 20 → Fin 30 → Fin 30 → EReal)
  (W1 : Fin 4 → Fin 8 → EReal) (b1 : Fin 8 → EReal) (W2p : Fin 8 → Fin 3072 → EReal) (b2p : Fin 3072 → EReal)
  (Wl1p : Fin 3072 → Fin 30 → EReal) (bl1 : Fin 30 → EReal) (Wl2 : Fin 30 → Fin 60 → EReal) (bl2 : Fin 60 → EReal)

/-- Row `v` of block `g` of the tile. -/
def rowAt (g : Fin 20) (v : Fin 30) : Fin 600 := ⟨g.val * 30 + v.val, by omega⟩

/-- Aggregation inside the tile: row `r` lies in block `r / 30` at position `r % 30`. -/
def agg (f : Fin 600 → EReal) (r : Fin 600) : EReal :=
  ∑ v : Fin 30, Bt ⟨r.val / 30, by omega⟩ ⟨r.val % 30, Nat.mod_lt _ (by norm_num)⟩ v * f (rowAt ⟨r.val / 30, by omega⟩ v)

def h1 (r : Fin 600) (k : Fin 8) : EReal :=
  Ideal.tanh ((∑ j : Fin 4, agg Bt (fun a => Xt a j) r * W1 j k) + b1 k)

def ah1 (r : Fin 600) (k : Fin 8) : EReal := agg Bt (fun a => h1 Xt Bt W1 b1 a k) r

def h2 (r : Fin 600) (c : Fin 3072) : EReal :=
  Ideal.tanh ((∑ k : Fin 8, ah1 Xt Bt W1 b1 r k * W2p k c) + b2p c)

/-- The chunk of 1024 hidden columns starting at `o`, contracted with the padded dense weights. -/
def chunk (o : ℕ) (ho : o + 1024 ≤ 3072) (r : Fin 600) (q : Fin 30) : EReal :=
  ∑ l : Fin 1024, h2 Xt Bt W1 b1 W2p b2p r ⟨o + l.val, by omega⟩ * Wl1p ⟨o + l.val, by omega⟩ q

def acc (r : Fin 600) (q : Fin 30) : EReal :=
  ((0 + chunk Xt Bt W1 b1 W2p b2p Wl1p 0 (by norm_num) r q) + chunk Xt Bt W1 b1 W2p b2p Wl1p 1024 (by norm_num) r q)
    + chunk Xt Bt W1 b1 W2p b2p Wl1p 2048 (by norm_num) r q

def h3 (r : Fin 600) (q : Fin 30) : EReal := max (acc Xt Bt W1 b1 W2p b2p Wl1p r q + bl1 q) 0

def out (r : Fin 600) (z : Fin 60) : EReal :=
  (∑ q : Fin 30, h3 Xt Bt W1 b1 W2p b2p Wl1p bl1 r q * Wl2 q z) + bl2 z

end Cert.Gcn.Tile

namespace Cert.Gcn

variable (d : Inputs)

/-- The kernel's result at node `n`: tile `n / 600`, row `n % 600` of it. -/
def outK (n : Fin 30000) (z : Fin 60) : EReal :=
  Tile.out (fun (r : Fin 600) (j : Fin 4) => d.X ⟨n.val / 600 * 600 + r.val, by omega⟩ j)
    (fun (g : Fin 20) (u v : Fin 30) => blkK d ⟨n.val / 600 * 20 + g.val, by omega⟩ u v)
    d.W1 d.b1 (W2p d) (b2p d) (Wl1p d) d.bl1 d.Wl2 d.bl2 ⟨n.val % 600, Nat.mod_lt _ (by norm_num)⟩ z

end Cert.Gcn

end
-- ==== Proof.Decode.lean ====
/-
  The decoded inputs of `Spec` read off the ten argument arrays, and what the precondition says of them:
  every float entry is a real number, every index word is a node (`0 ≤ word < 30000`), and no edge leaves its
  block of 30 consecutive nodes.
-/
import proofs.«424383_j28647431864457_3_alg».proof.Proof.Spec
import Idealize.ShloMosaic.Lib.ValueIdx
import Idealize.ShloMosaic.Lib.ValueIdxRank1

noncomputable section

namespace Cert.Gcn

open Idealize.ShloMosaic Idealize.ShloMosaic.ValueIdx

/-- The inputs as `Spec` names them: features, the two rows of the edge list decoded to nodes, weights and biases. -/
def inputsOf (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) : Inputs where
  X n j := a0 (ix2 n j)
  s e := nodeOf (a1 (ix2 (0 : Fin 2) e))
  t e := nodeOf (a1 (ix2 (1 : Fin 2) e))
  W1 j k := a2 (ix2 j k)
  b1 k := a3 (ix1 k)
  W2 k c := a4 (ix2 k c)
  b2 c := a5 (ix1 c)
  Wl1 c q := a6 (ix2 c q)
  bl1 q := a7 (ix1 q)
  Wl2 q z := a8 (ix2 q z)
  bl2 z := a9 (ix1 z)

/-- What the precondition gives: real entries, index words that are nodes, edges inside their blocks. -/
structure ArgsOk (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) : Prop where
  real : (inputsOf a0 a1 a2 a3 a4 a5 a6 a7 a8 a9).IsReal
  range : ∀ i : (⟨2, ![2, 34000]⟩ : Shape).Idx, 0 ≤ (a1 i).toInt ∧ (a1 i).toInt < 30000
  blocks : (inputsOf a0 a1 a2 a3 a4 a5 a6 a7 a8 a9).InBlocks

/-- An index word that is a node reads, signed, as the node it decodes to. -/
theorem toInt_eq_nodeOf (w : BitVec 32) (h0 : 0 ≤ w.toInt) (h1 : w.toInt < 30000) : w.toInt = ((nodeOf w).val : ℤ) := by
  show w.toInt = ((min w.toInt.toNat 29999 : ℕ) : ℤ)
  omega

end Cert.Gcn

end
-- ==== Proof.PreFacts.lean ====
/-
  The precondition decoded: from "every comparison in it came out true" to facts about the argument arrays —
  each float entry is below +∞ in absolute value, hence real; each index word lies in [0, 30000); and the two
  rows of the edge list agree after division by 30.
-/
import proofs.«424383_j28647431864457_3_alg».proof.Pre_finite_inputs
import proofs.«424383_j28647431864457_3_alg».proof.Proof.Decode
import Idealize.ShloMosaic.Lib.ReduceAll
import Idealize.ShloMosaic.Lib.StableHlo.Predicate

noncomputable section

namespace Cert.Gcn

open Idealize.ShloMosaic Idealize.ShloMosaic.ValueIdx

/-- A reduction by `and` over every axis — its result has the one index of the scalar shape — that came out 1
    had a 1 at every index. -/
private theorem all_of_reduce {s : Shape} {axes : List (Fin s.rank)} (x : s.Idx → BitVec 1)
    (init : Cert.Pre_finite_inputs.S_.Idx → BitVec 1) (hr : s.ReducesTo axes Cert.Pre_finite_inputs.S_)
    (hS : 0 < Cert.Pre_finite_inputs.S_.numel) (e : Host.reduce IntOp.andi x init hr hS ix0 = 1#1) (i : s.Idx) :
    x i = 1#1 :=
  Host.reduce_andi_eq_one x init hr hS ix0 e i (funext fun d => d.elim0)

/-- An extended real whose absolute value lies below +∞ is a real number. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have h' : max x (-x) < ⊤ := by
    simpa only [Ideal.cmp, StableHlo.Predicate.ofBool_eq_one_iff, decide_eq_true_eq] using h
  induction x using EReal.rec with
  | bot => simp at h'
  | coe r => exact ⟨r, rfl⟩
  | top => simp at h'

/-- A float array all of whose entries test below +∞ in absolute value has real entries. -/
private theorem real_of_all {s : Shape} {axes : List (Fin s.rank)} (a : s.Idx → EReal)
    (hb : Cert.Pre_finite_inputs.S_.BroadcastsInDim s (![] : Fin 0 → Fin s.rank))
    (hr : s.ReducesTo axes Cert.Pre_finite_inputs.S_) (hS : 0 < Cert.Pre_finite_inputs.S_.numel)
    (e : Host.reduce IntOp.andi
          (cmpf (F := Ideal) (φ := .f32) .olt (Host.absf (F := Ideal) (φ := .f32) a)
            (broadcastInDim s ![] hb (constant (F := Ideal) Cert.Pre_finite_inputs.S_ .f32 0x7F800000#32)))
          (constantI Cert.Pre_finite_inputs.S_ 1 1#1) hr hS ix0 = 1#1) (i : s.Idx) : ∃ r : ℝ, a i = (r : EReal) :=
  real_of_abs_lt (a i) (all_of_reduce _ _ hr hS e i)

/-- A word that tests at least 0 and below 30000, signed, reads signed in [0, 30000). -/
private theorem range_of_word (w : BitVec 32)
    (h : IntOp.andi (IntOp.cmpi .sge w 0#32) (IntOp.cmpi .slt w 30000#32) = 1#1) : 0 ≤ w.toInt ∧ w.toInt < 30000 := by
  obtain ⟨h0, h1⟩ := IntOp.andi_eq_one.1 h
  have h0' := IntOp.cmpi_sge.1 h0
  have h1' := IntOp.cmpi_slt.1 h1
  rw [show (0#32 : BitVec 32).toInt = 0 from by decide] at h0'
  rw [show (30000#32 : BitVec 32).toInt = 30000 from by decide] at h1'
  exact ⟨h0', h1'⟩

/-- A word in [0, 30000) decodes to the node of its unsigned value, and its top bit is clear. -/
private theorem nodeOf_val (w : BitVec 32) (h0 : 0 ≤ w.toInt) (h1 : w.toInt < 30000) :
    (nodeOf w).val = w.toNat ∧ 2 * w.toNat < 2 ^ 32 := by
  have hn := toInt_eq_nodeOf w h0 h1
  have hc := BitVec.toInt_eq_toNat_cond w
  have hlt := w.isLt
  split at hc <;> omega

/-- Signed division of a word with a clear top bit by 30 is division of its value by 30. -/
private theorem toNat_divsi_thirty (w : BitVec 32) (hw : 2 * w.toNat < 2 ^ 32) :
    (IntOp.divsi .host w 30#32).toNat = w.toNat / 30 := by
  have hcorner : ¬ IntOp.SDivCorner w 30#32 := IntOp.not_corner_of_pos (by decide)
  have hm : w.msb = false := BitVec.msb_eq_false_iff_two_mul_lt.mpr hw
  simp only [IntOp.divsi, if_neg hcorner, BitVec.sdiv_eq, hm, show (30#32 : BitVec 32).msb = false from by decide,
    BitVec.udiv_eq, BitVec.toNat_udiv, BitVec.toNat_ofNat]

/-- Two words in [0, 30000) with equal quotients by 30 decode to nodes of one block. -/
private theorem block_of_words (x y : BitVec 32) (hx : 0 ≤ x.toInt ∧ x.toInt < 30000) (hy : 0 ≤ y.toInt ∧ y.toInt < 30000)
    (h : IntOp.cmpi .eq (IntOp.divsi .host x 30#32) (IntOp.divsi .host y 30#32) = 1#1) :
    (nodeOf x).val / 30 = (nodeOf y).val / 30 := by
  obtain ⟨hx1, hx2⟩ := nodeOf_val x hx.1 hx.2
  obtain ⟨hy1, hy2⟩ := nodeOf_val y hy.1 hy.2
  have hq := congrArg BitVec.toNat (IntOp.cmpi_eq.1 h)
  rw [toNat_divsi_thirty x hx2, toNat_divsi_thirty y hy2] at hq
  rw [hx1, hy1]
  exact hq

/-- Entry `e` of row `r` of the edge array, read through the slice of that row and its flattening: the flat
    position `e` of the one-row slice is its entry (0, e), which the slice takes from (r, e). -/
private theorem row_read (a1 : IVec ⟨2, ![2, 34000]⟩ 32) (o : ℕ) (r : Fin 2) (ho : r.val = o)
    (hs : Cert.Pre_finite_inputs.S2x34000.Slices ![o, 0] Cert.Pre_finite_inputs.S1x34000)
    (hc : Cert.Pre_finite_inputs.S1x34000.ShapeCasts Cert.Pre_finite_inputs.S34000) (e : Fin 34000) :
    shapeCast Cert.Pre_finite_inputs.S34000 (extractStridedSlice Cert.Pre_finite_inputs.S1x34000 ![o, 0] a1 hs) hc (ix1 e)
      = a1 (ix2 r e) := by
  have hk : Shape.reshapeEquiv hc (ix1 e) = ix2 (0 : Fin 1) e :=
    Shape.reshapeEquiv_eq_of_rowMajor hc (by
      rw [Shape.rowMajor_val_two, Shape.rowMajor_val_one]
      show (0 : ℕ) * 34000 + e.val = e.val
      omega)
  unfold shapeCast
  rw [hk]
  unfold extractStridedSlice
  refine congrArg a1 (funext fun a => Fin.ext ?_)
  match a with
  | ⟨0, _⟩ => show o + 0 = r.val; omega
  | ⟨1, _⟩ => show 0 + e.val = e.val; omega

/-- The block comparison at edge `e`, read at the two words of that edge. -/
private theorem blocks_elem (a1 : IVec ⟨2, ![2, 34000]⟩ 32)
    (hs0 : Cert.Pre_finite_inputs.S2x34000.Slices ![0, 0] Cert.Pre_finite_inputs.S1x34000)
    (hs1 : Cert.Pre_finite_inputs.S2x34000.Slices ![1, 0] Cert.Pre_finite_inputs.S1x34000)
    (hc : Cert.Pre_finite_inputs.S1x34000.ShapeCasts Cert.Pre_finite_inputs.S34000)
    (hb : Cert.Pre_finite_inputs.S_.BroadcastsInDim Cert.Pre_finite_inputs.S34000 (![] : Fin 0 → Fin Cert.Pre_finite_inputs.S34000.rank))
    (e : Fin 34000)
    (h : cmpi .eq
          (Host.divsi (shapeCast Cert.Pre_finite_inputs.S34000 (extractStridedSlice Cert.Pre_finite_inputs.S1x34000 ![0, 0] a1 hs0) hc)
            (broadcastInDim Cert.Pre_finite_inputs.S34000 ![] hb (constantI Cert.Pre_finite_inputs.S_ 32 30#32)))
          (Host.divsi (shapeCast Cert.Pre_finite_inputs.S34000 (extractStridedSlice Cert.Pre_finite_inputs.S1x34000 ![1, 0] a1 hs1) hc)
            (broadcastInDim Cert.Pre_finite_inputs.S34000 ![] hb (constantI Cert.Pre_finite_inputs.S_ 32 30#32)))
          (ix1 e) = 1#1) :
    IntOp.cmpi .eq (IntOp.divsi .host (a1 (ix2 (0 : Fin 2) e)) 30#32) (IntOp.divsi .host (a1 (ix2 (1 : Fin 2) e)) 30#32) = 1#1 := by
  have h' : IntOp.cmpi .eq
      (IntOp.divsi .host
        (shapeCast Cert.Pre_finite_inputs.S34000 (extractStridedSlice Cert.Pre_finite_inputs.S1x34000 ![0, 0] a1 hs0) hc (ix1 e)) 30#32)
      (IntOp.divsi .host
        (shapeCast Cert.Pre_finite_inputs.S34000 (extractStridedSlice Cert.Pre_finite_inputs.S1x34000 ![1, 0] a1 hs1) hc (ix1 e)) 30#32)
      = 1#1 := h
  rw [row_read a1 0 0 rfl hs0 hc e, row_read a1 1 1 rfl hs1 hc e] at h'
  exact h'

/-- The printed precondition, all true, gives the decoded facts. -/
theorem argsOk_of_pre [Cert.Pre_finite_inputs.Facts] (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal)
    (h : Cert.Pre_finite_inputs.fn (F := Ideal) a0 a1 a2 a3 a4 a5 a6 a7 a8 a9 = fun _ => 1#1) :
    ArgsOk a0 a1 a2 a3 a4 a5 a6 a7 a8 a9 := by
  have e := congrFun h ix0
  dsimp only [Cert.Pre_finite_inputs.fn, Cert.Pre_finite_inputs.fn_part1, Cert.Pre_finite_inputs.fn_part2,
    Cert.Pre_finite_inputs.fn_part3] at e
  -- the conjunction, last conjunct first: blocks, range, then the nine float arrays
  obtain ⟨e, eB⟩ := IntOp.andi_eq_one.1 e
  obtain ⟨e, eR⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  have hrange : ∀ i : (⟨2, ![2, 34000]⟩ : Shape).Idx, 0 ≤ (a1 i).toInt ∧ (a1 i).toInt < 30000 := fun i =>
    range_of_word (a1 i) (all_of_reduce _ _ _ _ eR i)
  refine ⟨⟨fun n j => real_of_all a0 _ _ _ e0 (ix2 n j), fun j k => real_of_all a2 _ _ _ e2 (ix2 j k),
    fun k => real_of_all a3 _ _ _ e3 (ix1 k), fun k c => real_of_all a4 _ _ _ e4 (ix2 k c),
    fun c => real_of_all a5 _ _ _ e5 (ix1 c), fun c q => real_of_all a6 _ _ _ e6 (ix2 c q),
    fun q => real_of_all a7 _ _ _ e7 (ix1 q), fun q z => real_of_all a8 _ _ _ e8 (ix2 q z),
    fun z => real_of_all a9 _ _ _ e9 (ix1 z)⟩, hrange, fun e => ?_⟩
  exact block_of_words _ _ (hrange _) (hrange _)
    (blocks_elem a1 _ _ _ _ e (all_of_reduce _ _ _ _ eB (ix1 e)))

end Cert.Gcn

end
-- ==== Proof.AggMath.lean ====
/-
  The aggregation step over the reals: degrees and their inverse square roots are real numbers; a block's
  30 × 30 matrix applied to the block's rows is the reference's sum over edges and self loops, when no edge
  leaves its block; and the step is linear in the features.
-/
import proofs.«424383_j28647431864457_3_alg».proof.Proof.Spec

noncomputable section

open scoped BigOperators

namespace Cert.Gcn

open Idealize.ShloMosaic

variable (d : Inputs)

/-! ## Sums and products of coerced reals -/

/-- A finite sum of coerced reals is the coerced real sum. -/
private theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The sum of two reals is real. -/
private theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals is real. -/
private theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is real. -/
private theorem real_sum {ι : Type} (s : Finset ι) (g : ι → EReal) (hg : ∀ i, ∃ r : ℝ, g i = (r : EReal)) :
    ∃ r : ℝ, ∑ i ∈ s, g i = (r : EReal) := by
  choose G hG using hg
  refine ⟨∑ i ∈ s, G i, ?_⟩
  rw [← coe_sum]
  exact Finset.sum_congr rfl (fun i _ => hG i)

/-! ## Degrees and their inverse square roots -/

/-- The degree is the coerced number of incoming extended edges. -/
private theorem deg_coe (n : Fin 30000) :
    deg d n = ((∑ _e ∈ Finset.univ.filter (fun e : Fin 64000 => scol d e = n), (1 : ℝ) : ℝ) : EReal) := by
  unfold deg
  rw [zero_add, ← coe_sum]
  rfl

/-- `deg ^ (-1/2)` is a real number at every node. -/
theorem dinv_real (n : Fin 30000) : ∃ r : ℝ, dinv d n = (r : EReal) := by
  unfold dinv
  by_cases h : 0 < deg d n
  · rw [if_pos h]
    rw [deg_coe] at h ⊢
    generalize (∑ _e ∈ Finset.univ.filter (fun e : Fin 64000 => scol d e = n), (1 : ℝ)) = r at h ⊢
    have hr : 0 < r := by exact_mod_cast h
    refine ⟨(Real.sqrt r)⁻¹, ?_⟩
    rw [Ideal.rsqrt_coe, if_neg (not_lt.mpr hr.le), if_neg hr.ne']
  · rw [if_neg h]
    exact ⟨0, rfl⟩

/-! ## The block matrices and the aggregation are real -/

/-- The weight the kernel keeps for an edge is real. -/
private theorem normK_real (e : Fin 34000) : ∃ r : ℝ, normK d e = (r : EReal) := by
  unfold normK
  split_ifs
  · exact real_mul (dinv_real d _) (dinv_real d _)
  · exact ⟨0, rfl⟩

/-- Every entry of the flat table is real. -/
private theorem flatK_real (i : Fin 900000) : ∃ r : ℝ, flatK d i = (r : EReal) := by
  unfold flatK
  rw [zero_add]
  exact real_sum _ _ (normK_real d)

/-- Every entry of a block matrix is a real number. -/
theorem blkK_real (b : Fin 1000) (u v : Fin 30) : ∃ r : ℝ, blkK d b u v = (r : EReal) := by
  unfold blkK
  refine real_add (flatK_real d _) ?_
  split_ifs
  · exact real_mul (dinv_real d _) (dinv_real d _)
  · exact ⟨0, rfl⟩

/-- The aggregation of real features is real. -/
theorem aggR_real (f : Fin 30000 → EReal) (hf : ∀ a, ∃ r : ℝ, f a = (r : EReal)) (n : Fin 30000) :
    ∃ r : ℝ, aggR d f n = (r : EReal) := by
  unfold aggR normR
  rw [zero_add]
  exact real_sum _ _ (fun e => real_mul (hf _) (real_mul (dinv_real d _) (dinv_real d _)))

/-! ## Both sides as coerced real sums -/

/-- The aggregation of coerced features is the coerced real sum over the extended edges into the node. -/
private theorem aggR_coe {D F : Fin 30000 → ℝ} {f : Fin 30000 → EReal}
    (hD : ∀ a, dinv d a = (D a : EReal)) (hF : ∀ a, f a = (F a : EReal)) (n : Fin 30000) :
    aggR d f n = ((∑ e ∈ Finset.univ.filter (fun e : Fin 64000 => scol d e = n),
      F (srow d e) * (D (srow d e) * D (scol d e)) : ℝ) : EReal) := by
  unfold aggR normR
  rw [zero_add, ← coe_sum]
  refine Finset.sum_congr rfl (fun e _ => ?_)
  rw [hF, hD, hD, EReal.coe_mul, EReal.coe_mul]

/-- A block entry, when no edge leaves its block: the coerced real sum over the edges at that flat position,
plus the self loop on the diagonal. -/
private theorem blkK_coe (hb : d.InBlocks) {D : Fin 30000 → ℝ} (hD : ∀ a, dinv d a = (D a : EReal))
    (b : Fin 1000) (u v : Fin 30) :
    blkK d b u v = ((∑ e ∈ Finset.univ.filter (fun e : Fin 34000 => segOf d e = b.val * 900 + u.val * 30 + v.val),
      D (d.s e) * D (d.t e) + (if u = v then D (nodeAt b u) * D (nodeAt b u) else 0) : ℝ) : EReal) := by
  unfold blkK flatK
  dsimp only
  rw [zero_add, EReal.coe_add, ← coe_sum]
  refine congrArg₂ (· + ·) ?_ ?_
  · refine Finset.sum_congr rfl (fun e _ => ?_)
    unfold normK
    rw [if_pos (hb e), hD, hD, EReal.coe_mul]
  · split_ifs
    · rw [hD, EReal.coe_mul]
    · rfl

/-! ## The extended edge list: the edges, then the self loops -/

/-- A sum over the 64000 extended edges is the sum over the 34000 edges plus the sum over the 30000 self loops. -/
private theorem sum_split (g : Fin 64000 → ℝ) :
    ∑ e, g e = ∑ e : Fin 34000, g ⟨e.val, by omega⟩ + ∑ i : Fin 30000, g ⟨34000 + i.val, by omega⟩ :=
  Fin.sum_univ_add (a := 34000) (b := 30000) g

private theorem srow_lo (e : Fin 34000) (h : e.val < 64000) : srow d ⟨e.val, h⟩ = d.s e := by
  unfold srow
  rw [dif_pos e.isLt]

private theorem scol_lo (e : Fin 34000) (h : e.val < 64000) : scol d ⟨e.val, h⟩ = d.t e := by
  unfold scol
  rw [dif_pos e.isLt]

private theorem srow_hi (i : Fin 30000) (h : 34000 + i.val < 64000) : srow d ⟨34000 + i.val, h⟩ = i := by
  unfold srow
  rw [dif_neg (by simp)]
  apply Fin.ext
  show 34000 + i.val - 34000 = i.val
  omega

private theorem scol_hi (i : Fin 30000) (h : 34000 + i.val < 64000) : scol d ⟨34000 + i.val, h⟩ = i := by
  unfold scol
  rw [dif_neg (by simp)]
  apply Fin.ext
  show 34000 + i.val - 34000 = i.val
  omega

/-! ## One row of one block, over the reals -/

/-- Base-30 digits: an edge sits at flat position `(b, u, v)` exactly when its target is node `u` of block `b`
and its source sits at `v` within its block. -/
private theorem seg_iff (S T b u v : ℕ) (hu : u < 30) (hv : v < 30) :
    T / 30 * 900 + T % 30 * 30 + S % 30 = b * 900 + u * 30 + v ↔ T = b * 30 + u ∧ S % 30 = v := by
  omega

/-- One edge against row `u` of block `b`: it contributes, at its source, exactly when its target is that node. -/
private theorem edge_row (hb : d.InBlocks) (D F : Fin 30000 → ℝ) (b : Fin 1000) (u : Fin 30) (e : Fin 34000) :
    ∑ v : Fin 30, (if segOf d e = b.val * 900 + u.val * 30 + v.val
        then D (d.s e) * D (d.t e) * F (nodeAt b v) else 0)
      = if d.t e = nodeAt b u then F (d.s e) * (D (d.s e) * D (d.t e)) else 0 := by
  have hbe : (d.s e).val / 30 = (d.t e).val / 30 := hb e
  by_cases ht : d.t e = nodeAt b u
  · rw [if_pos ht]
    have htv : (d.t e).val = b.val * 30 + u.val := by rw [ht]; rfl
    have hlt : (d.s e).val % 30 < 30 := Nat.mod_lt _ (by norm_num)
    have hs : nodeAt b ⟨(d.s e).val % 30, hlt⟩ = d.s e := by
      apply Fin.ext
      show b.val * 30 + (d.s e).val % 30 = (d.s e).val
      omega
    rw [Finset.sum_eq_single (⟨(d.s e).val % 30, hlt⟩ : Fin 30)]
    · rw [if_pos, hs]
      · ring
      · exact (seg_iff _ _ _ _ _ u.isLt hlt).mpr ⟨htv, rfl⟩
    · intro v _ hv
      rw [if_neg]
      intro h
      apply hv
      apply Fin.ext
      exact ((seg_iff _ _ _ _ _ u.isLt v.isLt).mp h).2.symm
    · intro h
      exact absurd (Finset.mem_univ _) h
  · rw [if_neg ht]
    apply Finset.sum_eq_zero
    intro v _
    rw [if_neg]
    intro h
    apply ht
    apply Fin.ext
    exact ((seg_iff _ _ _ _ _ u.isLt v.isLt).mp h).1

/-- Row `u` of block `b` against the block's rows, over the reals: the sum over the edges and the self loop
into that node. -/
private theorem block_agg_real (hb : d.InBlocks) (D F : Fin 30000 → ℝ) (b : Fin 1000) (u : Fin 30) :
    ∑ v : Fin 30, (∑ e ∈ Finset.univ.filter (fun e : Fin 34000 => segOf d e = b.val * 900 + u.val * 30 + v.val),
        D (d.s e) * D (d.t e) + (if u = v then D (nodeAt b u) * D (nodeAt b u) else 0)) * F (nodeAt b v)
      = ∑ e ∈ Finset.univ.filter (fun e : Fin 64000 => scol d e = nodeAt b u),
        F (srow d e) * (D (srow d e) * D (scol d e)) := by
  have hL : ∀ v : Fin 30,
      (∑ e ∈ Finset.univ.filter (fun e : Fin 34000 => segOf d e = b.val * 900 + u.val * 30 + v.val),
        D (d.s e) * D (d.t e) + (if u = v then D (nodeAt b u) * D (nodeAt b u) else 0)) * F (nodeAt b v)
      = ∑ e : Fin 34000, (if segOf d e = b.val * 900 + u.val * 30 + v.val
          then D (d.s e) * D (d.t e) * F (nodeAt b v) else 0)
        + (if u = v then D (nodeAt b u) * D (nodeAt b u) * F (nodeAt b v) else 0) := by
    intro v
    rw [add_mul, Finset.sum_mul, Finset.sum_filter, ite_mul, zero_mul]
  rw [Finset.sum_congr rfl (fun v _ => hL v), Finset.sum_add_distrib, Finset.sum_comm,
    Finset.sum_congr rfl (fun e _ => edge_row d hb D F b u e), Finset.sum_ite_eq, if_pos (Finset.mem_univ _),
    Finset.sum_filter, sum_split]
  simp only [srow_lo, scol_lo, srow_hi, scol_hi]
  rw [Finset.sum_ite_eq', if_pos (Finset.mem_univ _)]
  ring

/-- Row `u` of block `b`'s matrix against the block's rows of real features is the reference's aggregation at that node. -/
theorem block_agg (hb : d.InBlocks) (f : Fin 30000 → EReal) (hf : ∀ a, ∃ r : ℝ, f a = (r : EReal))
    (b : Fin 1000) (u : Fin 30) :
    ∑ v : Fin 30, blkK d b u v * f (nodeAt b v) = aggR d f (nodeAt b u) := by
  choose F hF using hf
  choose D hD using dinv_real d
  rw [aggR_coe d hD hF, ← block_agg_real d hb D F b u, ← coe_sum]
  refine Finset.sum_congr rfl (fun v _ => ?_)
  rw [blkK_coe d hb hD, hF, ← EReal.coe_mul]

/-! ## Linearity -/

/-- Aggregating a real linear combination of feature columns is the combination of the aggregated columns. -/
theorem aggR_linear {C : Type} [Fintype C] (g : Fin 30000 → C → EReal) (w : C → EReal)
    (hg : ∀ a j, ∃ r : ℝ, g a j = (r : EReal)) (hw : ∀ j, ∃ r : ℝ, w j = (r : EReal)) (n : Fin 30000) :
    aggR d (fun a => ∑ j, g a j * w j) n = ∑ j, aggR d (fun a => g a j) n * w j := by
  choose G hG using hg
  choose W hW using hw
  choose D hD using dinv_real d
  have hF : ∀ a, (fun a => ∑ j, g a j * w j) a = ((∑ j, G a j * W j : ℝ) : EReal) := by
    intro a
    show ∑ j, g a j * w j = _
    rw [← coe_sum]
    refine Finset.sum_congr rfl (fun j _ => ?_)
    rw [hG, hW, EReal.coe_mul]
  have hR : ∀ j, aggR d (fun a => g a j) n * w j
      = (((∑ e ∈ Finset.univ.filter (fun e : Fin 64000 => scol d e = n),
          G (srow d e) j * (D (srow d e) * D (scol d e))) * W j : ℝ) : EReal) := by
    intro j
    rw [aggR_coe d hD (fun a => hG a j), hW, EReal.coe_mul]
  rw [aggR_coe d hD hF, Finset.sum_congr rfl (fun j _ => hR j), coe_sum]
  refine congrArg Real.toEReal ?_
  simp only [Finset.sum_mul]
  rw [Finset.sum_comm]
  refine Finset.sum_congr rfl (fun e _ => Finset.sum_congr rfl (fun j _ => ?_))
  ring

end Cert.Gcn

end
-- ==== Proof.LayerMath.lean ====
/-
  The kernel's value is the reference's: tile by tile the kernel aggregates first and multiplies by the weights
  afterwards, which over real numbers is the reference's order; the 72 padded hidden columns contribute
  `tanh 0 · 0 = 0`; and three chunks of 1024 columns add up to the sum over all 3000.
-/
import proofs.«424383_j28647431864457_3_alg».proof.Proof.Spec
import proofs.«424383_j28647431864457_3_alg».proof.Proof.AggMath
import Mathlib.Algebra.BigOperators.Fin

noncomputable section

open scoped BigOperators

namespace Cert.Gcn

open Idealize.ShloMosaic

/-! ## Real numbers inside the extended reals -/

/-- `x` is a real number. -/
private abbrev IsR (x : EReal) : Prop := ∃ r : ℝ, x = (r : EReal)

private theorem isR_zero : IsR 0 := ⟨0, rfl⟩

private theorem isR_add {x y : EReal} (hx : IsR x) (hy : IsR y) : IsR (x + y) := by
  obtain ⟨a, rfl⟩ := hx
  obtain ⟨b, rfl⟩ := hy
  exact ⟨a + b, (EReal.coe_add a b).symm⟩

private theorem isR_mul {x y : EReal} (hx : IsR x) (hy : IsR y) : IsR (x * y) := by
  obtain ⟨a, rfl⟩ := hx
  obtain ⟨b, rfl⟩ := hy
  exact ⟨a * b, (EReal.coe_mul a b).symm⟩

private theorem isR_sum {ι : Type} (s : Finset ι) (f : ι → EReal) (h : ∀ i, IsR (f i)) : IsR (∑ i ∈ s, f i) :=
  Finset.sum_induction f IsR (fun _ _ => isR_add) isR_zero (fun i _ => h i)

private theorem isR_tanh {x : EReal} (hx : IsR x) : IsR (Ideal.tanh x) := by
  obtain ⟨a, rfl⟩ := hx
  exact ⟨Real.tanh a, rfl⟩

variable (d : Inputs)

/-! ## One tile: 600 consecutive nodes, 20 consecutive blocks -/

/-- The node at row `r` of tile `T`. -/
private def tnode (T : ℕ) (hT : T < 50) (r : Fin 600) : Fin 30000 := ⟨T * 600 + r.val, by omega⟩

/-- The features of tile `T`'s rows. -/
private def tX (T : ℕ) (hT : T < 50) : Fin 600 → Fin 4 → EReal := fun r j => d.X (tnode T hT r) j

/-- The block matrices of tile `T`. -/
private def tB (T : ℕ) (hT : T < 50) : Fin 20 → Fin 30 → Fin 30 → EReal :=
  fun g u v => blkK d ⟨T * 20 + g.val, by omega⟩ u v

/-- Aggregation inside the tile of a real feature column restricted to the tile is the reference's aggregation:
    row `r` of tile `T` is position `r % 30` of block `20 T + r / 30`, and row `(r / 30) · 30 + v` of the tile is
    node `v` of that block. -/
private theorem agg_tile (hb : d.InBlocks) (T : ℕ) (hT : T < 50) (F : Fin 30000 → EReal) (hF : ∀ a, IsR (F a))
    (r : Fin 600) :
    Tile.agg (tB d T hT) (fun a => F (tnode T hT a)) r = aggR d F (tnode T hT r) := by
  have hnode : ∀ v : Fin 30, tnode T hT (Tile.rowAt ⟨r.val / 30, by omega⟩ v)
      = nodeAt ⟨T * 20 + r.val / 30, by omega⟩ v := by
    intro v
    apply Fin.ext
    show T * 600 + (r.val / 30 * 30 + v.val) = (T * 20 + r.val / 30) * 30 + v.val
    omega
  have hrow : tnode T hT r
      = nodeAt ⟨T * 20 + r.val / 30, by omega⟩ ⟨r.val % 30, Nat.mod_lt _ (by norm_num)⟩ := by
    apply Fin.ext
    show T * 600 + r.val = (T * 20 + r.val / 30) * 30 + r.val % 30
    omega
  rw [hrow]
  refine Eq.trans ?_ (block_agg d hb F hF ⟨T * 20 + r.val / 30, by omega⟩ ⟨r.val % 30, Nat.mod_lt _ (by norm_num)⟩)
  unfold Tile.agg
  refine Finset.sum_congr rfl (fun v _ => ?_)
  beta_reduce
  rw [hnode v]
  rfl

/-! ## The first layer -/

private theorem hw1R_real (hr : d.IsReal) (a : Fin 30000) (k : Fin 8) : IsR (hw1R d a k) :=
  isR_sum _ _ (fun j => isR_mul (hr.X a j) (hr.W1 j k))

/-- Aggregating the four feature columns and then combining them with the weights is aggregating the combination. -/
private theorem h1_tile (hr : d.IsReal) (hb : d.InBlocks) (T : ℕ) (hT : T < 50) (r : Fin 600) (k : Fin 8) :
    Tile.h1 (tX d T hT) (tB d T hT) d.W1 d.b1 r k = h1R d (tnode T hT r) k := by
  have hagg : ∀ j : Fin 4, Tile.agg (tB d T hT) (fun a => tX d T hT a j) r
      = aggR d (fun m => d.X m j) (tnode T hT r) :=
    fun j => agg_tile d hb T hT (fun m => d.X m j) (fun m => hr.X m j) r
  have hlin : aggR d (fun a => hw1R d a k) (tnode T hT r)
      = ∑ j : Fin 4, aggR d (fun a => d.X a j) (tnode T hT r) * d.W1 j k :=
    aggR_linear d d.X (fun j => d.W1 j k) hr.X (fun j => hr.W1 j k) (tnode T hT r)
  show Ideal.tanh ((∑ j : Fin 4, Tile.agg (tB d T hT) (fun a => tX d T hT a j) r * d.W1 j k) + d.b1 k)
    = Ideal.tanh (aggR d (fun a => hw1R d a k) (tnode T hT r) + d.b1 k)
  rw [hlin]
  simp only [hagg]

private theorem h1R_real (hr : d.IsReal) (n : Fin 30000) (k : Fin 8) : IsR (h1R d n k) :=
  isR_tanh (isR_add (aggR_real d _ (fun a => hw1R_real d hr a k) n) (hr.b1 k))

/-! ## The second layer -/

private theorem ah1_tile (hr : d.IsReal) (hb : d.InBlocks) (T : ℕ) (hT : T < 50) (r : Fin 600) (k : Fin 8) :
    Tile.ah1 (tX d T hT) (tB d T hT) d.W1 d.b1 r k = aggR d (fun m => h1R d m k) (tnode T hT r) := by
  have hfun : (fun a => Tile.h1 (tX d T hT) (tB d T hT) d.W1 d.b1 a k)
      = fun a => (fun m => h1R d m k) (tnode T hT a) := by
    funext a
    exact h1_tile d hr hb T hT a k
  show Tile.agg (tB d T hT) (fun a => Tile.h1 (tX d T hT) (tB d T hT) d.W1 d.b1 a k) r = _
  rw [hfun]
  exact agg_tile d hb T hT (fun m => h1R d m k) (fun m => h1R_real d hr m k) r

/-- On a true hidden column the padded weights are the weights, and the order of aggregation and combination
    is again immaterial. -/
private theorem h2_tile_lt (hr : d.IsReal) (hb : d.InBlocks) (T : ℕ) (hT : T < 50) (r : Fin 600) (c : Fin 3072)
    (hc : c.val < 3000) :
    Tile.h2 (tX d T hT) (tB d T hT) d.W1 d.b1 (W2p d) (b2p d) r c = h2R d (tnode T hT r) ⟨c.val, hc⟩ := by
  have hlin : aggR d (fun a => hw2R d a ⟨c.val, hc⟩) (tnode T hT r)
      = ∑ k : Fin 8, aggR d (fun a => h1R d a k) (tnode T hT r) * d.W2 k ⟨c.val, hc⟩ :=
    aggR_linear d (fun a k => h1R d a k) (fun k => d.W2 k ⟨c.val, hc⟩) (fun a k => h1R_real d hr a k)
      (fun k => hr.W2 k _) (tnode T hT r)
  show Ideal.tanh ((∑ k : Fin 8, Tile.ah1 (tX d T hT) (tB d T hT) d.W1 d.b1 r k * W2p d k c) + b2p d c)
    = Ideal.tanh (aggR d (fun a => hw2R d a ⟨c.val, hc⟩) (tnode T hT r) + d.b2 ⟨c.val, hc⟩)
  rw [hlin]
  simp only [ah1_tile d hr hb T hT, W2p, b2p, dif_pos hc]

/-! ## The dense layer over the hidden columns -/

/-- The term of hidden column `i` in the dense layer, zero past the 3000 true columns. -/
private def hterm (n : Fin 30000) (q : Fin 30) (i : ℕ) : EReal :=
  if h : i < 3000 then h2R d n ⟨i, h⟩ * d.Wl1 ⟨i, h⟩ q else 0

/-- A padded column meets a zero weight. -/
private theorem term_tile (hr : d.IsReal) (hb : d.InBlocks) (T : ℕ) (hT : T < 50) (r : Fin 600) (q : Fin 30)
    (c : Fin 3072) :
    Tile.h2 (tX d T hT) (tB d T hT) d.W1 d.b1 (W2p d) (b2p d) r c * Wl1p d c q = hterm d (tnode T hT r) q c.val := by
  by_cases hc : c.val < 3000
  · rw [h2_tile_lt d hr hb T hT r c hc]
    simp only [Wl1p, hterm, dif_pos hc]
  · simp only [Wl1p, hterm, dif_neg hc, mul_zero]

private theorem chunk_tile (hr : d.IsReal) (hb : d.InBlocks) (T : ℕ) (hT : T < 50) (r : Fin 600) (q : Fin 30)
    (o : ℕ) (ho : o + 1024 ≤ 3072) :
    Tile.chunk (tX d T hT) (tB d T hT) d.W1 d.b1 (W2p d) (b2p d) (Wl1p d) o ho r q
      = ∑ l ∈ Finset.range 1024, hterm d (tnode T hT r) q (o + l) := by
  unfold Tile.chunk
  simp only [term_tile d hr hb T hT r q]
  exact Fin.sum_univ_eq_sum_range (fun l => hterm d (tnode T hT r) q (o + l)) 1024

/-- Three consecutive runs of 1024 terms are the first 3072 terms. -/
private theorem sum_chunks (G : ℕ → EReal) :
    ((0 + ∑ l ∈ Finset.range 1024, G (0 + l)) + ∑ l ∈ Finset.range 1024, G (1024 + l))
      + ∑ l ∈ Finset.range 1024, G (2048 + l) = ∑ i ∈ Finset.range 3072, G i := by
  have h2 : ∑ i ∈ Finset.range 3072, G i
      = ∑ i ∈ Finset.range 2048, G i + ∑ l ∈ Finset.range 1024, G (2048 + l) :=
    Finset.sum_range_add G 2048 1024
  have h1 : ∑ i ∈ Finset.range 2048, G i
      = ∑ i ∈ Finset.range 1024, G i + ∑ l ∈ Finset.range 1024, G (1024 + l) :=
    Finset.sum_range_add G 1024 1024
  rw [h2, h1]
  simp only [zero_add]

private theorem acc_tile (hr : d.IsReal) (hb : d.InBlocks) (T : ℕ) (hT : T < 50) (r : Fin 600) (q : Fin 30) :
    Tile.acc (tX d T hT) (tB d T hT) d.W1 d.b1 (W2p d) (b2p d) (Wl1p d) r q
      = ∑ c : Fin 3000, h2R d (tnode T hT r) c * d.Wl1 c q := by
  have h3 : ∑ i ∈ Finset.range 3072, hterm d (tnode T hT r) q i
      = ∑ i ∈ Finset.range 3000, hterm d (tnode T hT r) q i
        + ∑ l ∈ Finset.range 72, hterm d (tnode T hT r) q (3000 + l) :=
    Finset.sum_range_add _ 3000 72
  have hz : ∑ l ∈ Finset.range 72, hterm d (tnode T hT r) q (3000 + l) = 0 :=
    Finset.sum_eq_zero (fun l _ => dif_neg (by omega))
  unfold Tile.acc
  rw [chunk_tile d hr hb T hT r q, chunk_tile d hr hb T hT r q, chunk_tile d hr hb T hT r q, sum_chunks, h3, hz,
    add_zero, ← Fin.sum_univ_eq_sum_range]
  exact Finset.sum_congr rfl (fun c _ => dif_pos c.isLt)

/-! ## The last two layers -/

private theorem h3_tile (hr : d.IsReal) (hb : d.InBlocks) (T : ℕ) (hT : T < 50) (r : Fin 600) (q : Fin 30) :
    Tile.h3 (tX d T hT) (tB d T hT) d.W1 d.b1 (W2p d) (b2p d) (Wl1p d) d.bl1 r q = h3R d (tnode T hT r) q := by
  show max (Tile.acc (tX d T hT) (tB d T hT) d.W1 d.b1 (W2p d) (b2p d) (Wl1p d) r q + d.bl1 q) 0
    = max ((∑ c : Fin 3000, h2R d (tnode T hT r) c * d.Wl1 c q) + d.bl1 q) 0
  rw [acc_tile d hr hb T hT r q]

private theorem out_tile (hr : d.IsReal) (hb : d.InBlocks) (T : ℕ) (hT : T < 50) (r : Fin 600) (z : Fin 60) :
    Tile.out (tX d T hT) (tB d T hT) d.W1 d.b1 (W2p d) (b2p d) (Wl1p d) d.bl1 d.Wl2 d.bl2 r z
      = outR d (tnode T hT r) z := by
  show (∑ q : Fin 30, Tile.h3 (tX d T hT) (tB d T hT) d.W1 d.b1 (W2p d) (b2p d) (Wl1p d) d.bl1 r q * d.Wl2 q z)
      + d.bl2 z = (∑ q : Fin 30, h3R d (tnode T hT r) q * d.Wl2 q z) + d.bl2 z
  simp only [h3_tile d hr hb T hT r]

/-- With real inputs and no edge leaving its block, the kernel's entry is the reference's. -/
theorem outK_eq_outR (d : Inputs) (hr : d.IsReal) (hb : d.InBlocks) (n : Fin 30000) (z : Fin 60) :
    outK d n z = outR d n z := by
  have hT : n.val / 600 < 50 := by omega
  have hn : tnode (n.val / 600) hT ⟨n.val % 600, Nat.mod_lt _ (by norm_num)⟩ = n := by
    apply Fin.ext
    show n.val / 600 * 600 + n.val % 600 = n.val
    omega
  exact (out_tile d hr hb (n.val / 600) hT ⟨n.val % 600, Nat.mod_lt _ (by norm_num)⟩ z).trans
    (congrArg (fun m => outR d m z) hn)

end Cert.Gcn

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.RefDinv.lean ====
/-
  The reference's first stages read at an index: the edge list with the self loops appended (a concatenate),
  the degree (a segment sum of ones), its inverse square root where positive, and each extended edge's weight
  (two lookups of that table and a product).
-/
import proofs.«424383_j28647431864457_3_alg».proof.Proof.RefRead
import proofs.«424383_j28647431864457_3_alg».proof.Proof.Decode
import proofs.«424383_j28647431864457_3_alg».proof.Proof.LibGS
import Idealize.ShloMosaic.Lib.StableHlo.Predicate

noncomputable section

open scoped BigOperators

namespace Cert.Gcn.Ref

open Cert.ReferenceIdeal Idealize.ShloMosaic Idealize.ShloMosaic.TcCoe Idealize.ShloMosaic.ValueIdx Idealize.SL.Sem

variable [Facts]

/-! ## The extended edge list: the edge row, then the nodes in order -/

/-- A node number, as a 32-bit word, reads signed as itself. -/
private theorem toInt_ofNat_node (k : ℕ) (hk : k < 30000) : (BitVec.ofNat 32 k).toInt = (k : ℤ) := by
  have h1 : (BitVec.ofNat 32 k).toNat = k := by
    rw [BitVec.toNat_ofNat]
    exact Nat.mod_eq_of_lt (by omega)
  rw [BitVec.toInt_eq_toNat_of_lt (by rw [h1]; omega), h1]

/-- Below the first piece's length the joined array is the first piece. -/
private theorem cat_left {α : Type} (x : S34000.Idx → α) (y : S30000.Idx → α) (e : Fin 64000) (h : e.val < 34000) :
    concatenate S64000 0 [⟨S34000, x⟩, ⟨S30000, y⟩] Facts₀.concatenates_S34000_S30000_S64000_d0 (ix1 e)
      = x (ix1 ⟨e.val, h⟩) :=
  concatenate_pair_apply_left 0 x y _ (ix1 e) rfl (ix1 ⟨e.val, h⟩) (fun b => by
    match b with
    | ⟨0, _⟩ => rfl)

/-- From the first piece's length on it is the second piece, that length less. -/
private theorem cat_right {α : Type} (x : S34000.Idx → α) (y : S30000.Idx → α) (e : Fin 64000) (h : 34000 ≤ e.val) :
    concatenate S64000 0 [⟨S34000, x⟩, ⟨S30000, y⟩] Facts₀.concatenates_S34000_S30000_S64000_d0 (ix1 e)
      = y (ix1 ⟨e.val - 34000, by omega⟩) :=
  concatenate_pair_apply_right 0 x y _ (ix1 e) rfl rfl (ix1 ⟨e.val - 34000, by omega⟩)
    (fun b hb => by
      match b with
      | ⟨0, _⟩ => exact absurd rfl hb)
    (by show (e.val - 34000) + 34000 = e.val; omega)

/-- Row 0 of the edge array, flattened. -/
private theorem v2_at (a1 : IVec ⟨2, ![2, 34000]⟩ 32) (k : Fin 34000) :
    Read.val_main_v2 (F := Ideal) a1 (ix1 k) = a1 (ix2 (0 : Fin 2) k) := by
  rw [Read.val_main_v2_apply, Read.val_main_v1_apply]
  congr 1
  funext a
  match a with
  | ⟨0, _⟩ => rfl
  | ⟨1, _⟩ => exact Fin.ext (Nat.mod_eq_of_lt k.isLt)

/-- Row 1 of the edge array, flattened. -/
private theorem v5_at (a1 : IVec ⟨2, ![2, 34000]⟩ 32) (k : Fin 34000) :
    Read.val_main_v5 (F := Ideal) a1 (ix1 k) = a1 (ix2 (1 : Fin 2) k) := by
  rw [Read.val_main_v5_apply, Read.val_main_v4_apply]
  congr 1
  funext a
  match a with
  | ⟨0, _⟩ => rfl
  | ⟨1, _⟩ => exact Fin.ext (Nat.mod_eq_of_lt k.isLt)

/-- The source words of the edges proper: row 0 of the edge array. -/
private theorem v3_edge (a1 : IVec ⟨2, ![2, 34000]⟩ 32) (e : Fin 64000) (h : e.val < 34000) :
    Read.val_main_v3 (F := Ideal) a1 (ix1 e) = a1 (ix2 (0 : Fin 2) ⟨e.val, h⟩) :=
  (cat_left _ _ e h).trans (v2_at a1 _)

/-- The source words of the self loops: the nodes in order. -/
private theorem v3_loop (a1 : IVec ⟨2, ![2, 34000]⟩ 32) (e : Fin 64000) (h : 34000 ≤ e.val) :
    Read.val_main_v3 (F := Ideal) a1 (ix1 e) = BitVec.ofNat 32 (e.val - 34000) :=
  cat_right _ _ e h

/-- The target words of the edges proper: row 1 of the edge array. -/
private theorem v6_edge (a1 : IVec ⟨2, ![2, 34000]⟩ 32) (e : Fin 64000) (h : e.val < 34000) :
    Read.val_main_v6 (F := Ideal) a1 (ix1 e) = a1 (ix2 (1 : Fin 2) ⟨e.val, h⟩) :=
  (cat_left _ _ e h).trans (v5_at a1 _)

/-- The target words of the self loops: the nodes in order. -/
private theorem v6_loop (a1 : IVec ⟨2, ![2, 34000]⟩ 32) (e : Fin 64000) (h : 34000 ≤ e.val) :
    Read.val_main_v6 (F := Ideal) a1 (ix1 e) = BitVec.ofNat 32 (e.val - 34000) :=
  cat_right _ _ e h

/-- The source word of extended edge `e`, read signed, is its source node. -/
theorem srow_value (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (e : Fin 64000) :
    (Read.val_main_v3 (F := Ideal) a1 (ix1 e)).toInt = ((srow (inputsOf a0 a1 a2 a3 a4 a5 a6 a7 a8 a9) e).val : ℤ) := by
  by_cases h : e.val < 34000
  · rw [v3_edge a1 e h, toInt_eq_nodeOf _ (hr _).1 (hr _).2]
    unfold srow
    rw [dif_pos h]
    rfl
  · rw [v3_loop a1 e (by omega)]
    unfold srow
    rw [dif_neg h]
    exact toInt_ofNat_node _ (by omega)

/-- The target word of extended edge `e`, read signed, is its target node. -/
theorem scol_value (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (e : Fin 64000) :
    (Read.val_main_v6 (F := Ideal) a1 (ix1 e)).toInt = ((scol (inputsOf a0 a1 a2 a3 a4 a5 a6 a7 a8 a9) e).val : ℤ) := by
  by_cases h : e.val < 34000
  · rw [v6_edge a1 e h, toInt_eq_nodeOf _ (hr _).1 (hr _).2]
    unfold scol
    rw [dif_pos h]
    rfl
  · rw [v6_loop a1 e (by omega)]
    unfold scol
    rw [dif_neg h]
    exact toInt_ofNat_node _ (by omega)

/-! ## The degree and its inverse square root -/

/-- The pattern of the float one. -/
private theorem one_f32 : Ideal.ofBits .f32 0x3F800000#32 = 1 := by
  simp [Ideal.ofBits, Ideal.ieee, -EReal.coe_mul]; norm_num

/-- Every update of the segment sum is one. -/
private theorem v7_at (e : Fin 64000) : Read.val_main_v7 (F := Ideal) (ix1 e) = (1 : EReal) := by
  rw [Read.val_main_v7_apply, Read.val_main_cst_apply]
  exact one_f32

/-- The segment sum starts from zero. -/
private theorem v8_at (n : Fin 30000) : Read.val_main_v8 (F := Ideal) (ix1 n) = (0 : EReal) := by
  rw [Read.val_main_v8_apply, Read.val_main_cst_0_apply]
  exact Ideal.ofBits_zero_f32

/-- The degree is compared with zero. -/
private theorem v11_at (n : Fin 30000) : Read.val_main_v11 (F := Ideal) (ix1 n) = (0 : EReal) := by
  rw [Read.val_main_v11_apply, Read.val_main_cst_1_apply]
  exact Ideal.ofBits_zero_f32

/-- Where the degree is not positive the table holds zero. -/
private theorem call0_v1_at (n : Fin 30000) : Read.val_main_call0_v1 (F := Ideal) (ix1 n) = (0 : EReal) := by
  rw [Read.val_main_call0_v1_apply, Read.val_main_call0_v0_apply, Read.val_main_cst_2_apply]
  exact Ideal.ofBits_zero_f32

/-- The segment sum's index column is the target words. -/
private theorem v9_at (a1 : IVec ⟨2, ![2, 34000]⟩ 32) (e : Fin 64000) :
    Read.val_main_v9 (F := Ideal) a1 (ix2 e (0 : Fin 1)) = Read.val_main_v6 (F := Ideal) a1 (ix1 e) := by
  rw [Read.val_main_v9_apply]
  congr 1
  funext a
  match a with
  | ⟨0, _⟩ => rfl

/-- A select on "greater than zero" is the `if` on the order. -/
private theorem select_gt_zero (x a b : EReal) :
    Scalar.select (Ideal.cmp .ogt x 0) a b = if 0 < x then a else b := by
  by_cases h : 0 < x
  · rw [if_pos h]
    show Scalar.select (BitVec.ofBool (decide (0 < x))) a b = a
    rw [decide_eq_true h]
    exact select_one a b
  · rw [if_neg h]
    show Scalar.select (BitVec.ofBool (decide (0 < x))) a b = b
    rw [decide_eq_false h]
    exact select_zero a b

/-- The segment sum of ones over the targets is the degree. -/
private theorem v10_at (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (n : Fin 30000) :
    Read.val_main_v10 (F := Ideal) a1 (ix1 n) = deg (inputsOf a0 a1 a2 a3 a4 a5 a6 a7 a8 a9) n := by
  have H : Read.val_main_v10 (F := Ideal) a1 (ix1 n)
      = Ideal.hostScatterAdd (LibGS.vecScatterDims 30000 64000 Facts₀.scatter_S30000_S64000x1_S64000_n_0_0_1_wf)
          (Read.val_main_v8 (F := Ideal)) (Read.val_main_v9 (F := Ideal) a1) (Read.val_main_v7 (F := Ideal)) (ix1 n) := rfl
  rw [H, LibGS.scatterAdd_vec_apply, v8_at]
  unfold deg
  refine congrArg (fun s : EReal => (0 : EReal) + s) ?_
  refine Finset.sum_congr (Finset.filter_congr fun e _ => ?_) fun e _ => v7_at e
  rw [v9_at, scol_value a0 a1 a2 a3 a4 a5 a6 a7 a8 a9 hr e]
  constructor
  · intro h
    exact Fin.ext (by exact_mod_cast h)
  · intro h
    rw [h]

/-- The inverse square root of the degree, per node. -/
theorem dinv_value (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (n : Fin 30000) :
    Read.val_main_v14 (F := Ideal) a1 (ix1 n) = dinv (inputsOf a0 a1 a2 a3 a4 a5 a6 a7 a8 a9) n := by
  rw [Read.val_main_v14_apply, Read.val_main_v12_apply, Read.val_main_v13_apply,
    v10_at a0 a1 a2 a3 a4 a5 a6 a7 a8 a9 hr n, v11_at, call0_v1_at]
  unfold dinv
  generalize deg (inputsOf a0 a1 a2 a3 a4 a5 a6 a7 a8 a9) n = x
  exact select_gt_zero x (Ideal.rsqrt x) 0

/-! ## The edge weights: two lookups of the table -/

/-- A word that reads non-negative is not below zero. -/
private theorem slt_zero_of_nonneg (w : BitVec 32) (h : 0 ≤ w.toInt) : IntOp.cmpi .slt w 0#32 = 0#1 := by
  unfold IntOp.cmpi
  show BitVec.ofBool (w.slt 0#32) = 0#1
  have hf : w.slt 0#32 = false := by
    simp only [BitVec.slt, BitVec.toInt_zero, decide_eq_false_iff_not]
    omega
  rw [hf]
  rfl

/-- The lookup reads the table at the index word, read signed and clipped to the table. -/
private theorem take_at (x : (⟨1, ![30000]⟩ : Shape).Idx → EReal) (idx : IVec ⟨2, ![64000, 1]⟩ 32) (e : Fin 64000) :
    Host.gather gather_S30000_S64000x1_S64000_n_0_n_n_0_1_1 x idx (ix1 e)
      = x (ix1 ⟨min (idx (ix2 e (0 : Fin 1))).toInt.toNat 29999, by omega⟩) := by
  have h := StableHlo.Predicate.gather_take gather_S30000_S64000x1_S64000_n_0_n_n_0_1_1 rfl rfl rfl rfl x idx e
    (by norm_num)
  have e1 : (Shape.Idx.ofFin e : (⟨1, ![64000]⟩ : Shape).Idx) = ix1 e := by
    funext a
    match a with
    | ⟨0, _⟩ => rfl
  have e2 : StableHlo.Predicate.ixP e = ix2 e (0 : Fin 1) := by
    funext a
    match a with
    | ⟨0, _⟩ => rfl
    | ⟨1, _⟩ => rfl
  rw [e1] at h
  refine h.trans (congrArg x ?_)
  funext a
  match a with
  | ⟨0, _⟩ =>
    refine Fin.ext ?_
    show min (idx (StableHlo.Predicate.ixP e)).toInt.toNat (30000 - 1) = min (idx (ix2 e (0 : Fin 1))).toInt.toNat 29999
    rw [e2]

/-- At an index word that reads as node `m`, the lookup is the table's entry `m`. -/
private theorem take_node (x : (⟨1, ![30000]⟩ : Shape).Idx → EReal) (idx : IVec ⟨2, ![64000, 1]⟩ 32) (e : Fin 64000)
    (m : Fin 30000) (h : (idx (ix2 e (0 : Fin 1))).toInt = (m.val : ℤ)) :
    Host.gather gather_S30000_S64000x1_S64000_n_0_n_n_0_1_1 x idx (ix1 e) = x (ix1 m) := by
  refine (take_at x idx e).trans (congrArg x ?_)
  funext a
  match a with
  | ⟨0, _⟩ =>
    refine Fin.ext ?_
    show min (idx (ix2 e (0 : Fin 1))).toInt.toNat 29999 = m.val
    rw [h]
    have := m.isLt
    omega

/-- In range, the normalised source word is the source word. -/
private theorem v20_at (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (e : Fin 64000) :
    Read.val_main_v20 (F := Ideal) a1 (ix2 e (0 : Fin 1)) = Read.val_main_v3 (F := Ideal) a1 (ix1 e) := by
  have hi : Read.idx_main_v20 (ix2 e (0 : Fin 1)) = ix1 e := by
    funext a
    match a with
    | ⟨0, _⟩ => rfl
  rw [Read.val_main_v20_apply, hi, Read.val_main_v19_apply, Read.val_main_v16_apply, Read.val_main_v15_apply,
    Read.val_main_c_apply,
    slt_zero_of_nonneg (Read.val_main_v3 (F := Ideal) a1 (ix1 e))
      (by rw [srow_value a0 a1 a2 a3 a4 a5 a6 a7 a8 a9 hr e]; exact Int.natCast_nonneg _)]
  exact select_zero _ _

/-- In range, the normalised target word is the target word. -/
private theorem v27_at (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (e : Fin 64000) :
    Read.val_main_v27 (F := Ideal) a1 (ix2 e (0 : Fin 1)) = Read.val_main_v6 (F := Ideal) a1 (ix1 e) := by
  have hi : Read.idx_main_v27 (ix2 e (0 : Fin 1)) = ix1 e := by
    funext a
    match a with
    | ⟨0, _⟩ => rfl
  rw [Read.val_main_v27_apply, hi, Read.val_main_v26_apply, Read.val_main_v23_apply, Read.val_main_v22_apply,
    Read.val_main_c_4_apply,
    slt_zero_of_nonneg (Read.val_main_v6 (F := Ideal) a1 (ix1 e))
      (by rw [scol_value a0 a1 a2 a3 a4 a5 a6 a7 a8 a9 hr e]; exact Int.natCast_nonneg _)]
  exact select_zero _ _

/-- The table looked up at the sources. -/
private theorem v21_at (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (e : Fin 64000) :
    Read.val_main_v21 (F := Ideal) a1 (ix1 e)
      = dinv (inputsOf a0 a1 a2 a3 a4 a5 a6 a7 a8 a9) (srow (inputsOf a0 a1 a2 a3 a4 a5 a6 a7 a8 a9) e) := by
  unfold Read.val_main_v21
  rw [take_node _ _ e (srow (inputsOf a0 a1 a2 a3 a4 a5 a6 a7 a8 a9) e)
    (by rw [v20_at a0 a1 a2 a3 a4 a5 a6 a7 a8 a9 hr e]; exact srow_value a0 a1 a2 a3 a4 a5 a6 a7 a8 a9 hr e)]
  exact dinv_value a0 a1 a2 a3 a4 a5 a6 a7 a8 a9 hr _

/-- The table looked up at the targets. -/
private theorem v28_at (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (e : Fin 64000) :
    Read.val_main_v28 (F := Ideal) a1 (ix1 e)
      = dinv (inputsOf a0 a1 a2 a3 a4 a5 a6 a7 a8 a9) (scol (inputsOf a0 a1 a2 a3 a4 a5 a6 a7 a8 a9) e) := by
  unfold Read.val_main_v28
  rw [take_node _ _ e (scol (inputsOf a0 a1 a2 a3 a4 a5 a6 a7 a8 a9) e)
    (by rw [v27_at a0 a1 a2 a3 a4 a5 a6 a7 a8 a9 hr e]; exact scol_value a0 a1 a2 a3 a4 a5 a6 a7 a8 a9 hr e)]
  exact dinv_value a0 a1 a2 a3 a4 a5 a6 a7 a8 a9 hr _

/-- The weight of extended edge `e`. -/
theorem norm_value (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (e : Fin 64000) :
    Read.val_main_v29 (F := Ideal) a1 (ix1 e) = normR (inputsOf a0 a1 a2 a3 a4 a5 a6 a7 a8 a9) e := by
  rw [Read.val_main_v29_apply, v21_at a0 a1 a2 a3 a4 a5 a6 a7 a8 a9 hr e, v28_at a0 a1 a2 a3 a4 a5 a6 a7 a8 a9 hr e]
  rfl

end Cert.Gcn.Ref

end
-- ==== Proof.RefValue.lean ====
/-
  The reference's layers read at an index: features times weights, the rows looked up by source node and scaled
  by the edge weight, summed into the target node's row, bias and tanh — twice — then the dense layer with its
  maximum with zero and the last dense layer.
-/
import proofs.«424383_j28647431864457_3_alg».proof.Proof.RefDinv

noncomputable section

open scoped BigOperators

namespace Cert.Gcn.Ref

open Cert.ReferenceIdeal Idealize.ShloMosaic Idealize.ShloMosaic.TcCoe Idealize.ShloMosaic.ValueIdx Idealize.SL.Sem

variable [Facts]

/-! ## Words, and the two index-driven operations over the extended edge list -/

/-- A word that reads non-negative is not below zero, so the wrap-around of negative indices returns it unchanged. -/
private theorem wrap_nonneg (w : BitVec 32) (h : 0 ≤ w.toInt) :
    Scalar.select (IntOp.cmpi .slt w 0#32) (IntOp.addi w 30000#32) w = w := by
  have h0 : (0#32 : BitVec 32).toInt = 0 := by decide
  have hs : w.slt 0#32 = false := by
    simp only [BitVec.slt, h0, decide_eq_false_iff_not, not_lt]
    exact h
  unfold IntOp.cmpi
  simp only [hs]
  exact select_zero _ _

/-- A row lookup at the source words of the extended edges: row `e` of the result is the table's row of the source
    node of `e`. -/
private theorem lookup_rows {C : Nat}
    (wf : GatherDims.WF ⟨2, ![30000, C]⟩ ⟨2, ![64000, 1]⟩ ⟨2, ![64000, C]⟩ [1] [0] [] [0] [] 1 ![1, C])
    (d : Inputs) (tbl : (⟨2, ![30000, C]⟩ : Shape).Idx → EReal) (src : IVec ⟨2, ![64000, 1]⟩ 32)
    (hsrc : ∀ e : Fin 64000, (src (ix2 e 0)).toInt = ((srow d e).val : ℤ)) (e : Fin 64000) (k : Fin C) :
    Host.gather (LibGS.rowGatherDims 30000 64000 C wf) tbl src (ix2 e k) = tbl (ix2 (srow d e) k) := by
  refine (LibGS.gather_rows_apply (by norm_num) wf tbl src e k).trans ?_
  refine congrArg (fun r : Fin 30000 => tbl (ix2 r k)) (Fin.ext ?_)
  show min (src (ix2 e 0)).toInt.toNat (30000 - 1) = (srow d e).val
  rw [hsrc e]
  have := (srow d e).isLt
  omega

/-- A segment sum into a zero table at the target words of the extended edges: entry `(n, k)` is zero plus the sum,
    over the extended edges into `n`, of the updates' entries `(e, k)`. -/
private theorem segment_rows {C : Nat}
    (wf : ScatterDims.WF ⟨2, ![30000, C]⟩ ⟨2, ![64000, 1]⟩ ⟨2, ![64000, C]⟩ [1] [0] [0] 1)
    (d : Inputs) (zero : (⟨2, ![30000, C]⟩ : Shape).Idx → EReal) (tgt : IVec ⟨2, ![64000, 1]⟩ 32)
    (upd : (⟨2, ![64000, C]⟩ : Shape).Idx → EReal)
    (hzero : ∀ (n : Fin 30000) (k : Fin C), zero (ix2 n k) = 0)
    (htgt : ∀ e : Fin 64000, (tgt (ix2 e 0)).toInt = ((scol d e).val : ℤ)) (n : Fin 30000) (k : Fin C) :
    Ideal.hostScatterAdd (LibGS.rowScatterDims 30000 64000 C wf) zero tgt upd (ix2 n k)
      = 0 + ∑ e ∈ Finset.univ.filter (fun e : Fin 64000 => scol d e = n), upd (ix2 e k) := by
  refine (LibGS.scatterAdd_rows_apply wf zero tgt upd n k).trans ?_
  rw [hzero n k]
  refine congrArg (fun s : Finset (Fin 64000) => (0 : EReal) + ∑ e ∈ s, upd (ix2 e k)) ?_
  refine Finset.filter_congr fun e _ => ?_
  rw [htgt e]
  constructor
  · intro h
    exact Fin.ext (by exact_mod_cast h)
  · intro h
    rw [h]

/-- A table of zeros: the float constant `0.0` is the extended real `0`. -/
private theorem zero_bits : FloatOps.ofBits (F := Ideal) .f32 0x00000000#32 = 0 := Ideal.ofBits_zero_f32

section Layers

variable (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000)
include hr

local notation "dI" => inputsOf a0 a1 a2 a3 a4 a5 a6 a7 a8 a9

/-! ## First graph layer: 8 columns -/

/-- Features times the first weights. -/
private theorem hw1_value (n : Fin 30000) (k : Fin 8) :
    Read.val_main_v31 (F := Ideal) a0 a2 (ix2 n k) = hw1R dI n k := by
  rw [Read.val_main_v31_apply]
  refine Finset.sum_congr rfl fun j _ => ?_
  have hl : Read.lidx_main_v31 (ix2 n k) j = ix2 n j := by
    funext a; match a with | ⟨0, _⟩ => rfl | ⟨1, _⟩ => rfl
  have hq : Read.ridx_main_v31 (ix2 n k) j = ix2 j k := by
    funext a; match a with | ⟨0, _⟩ => rfl | ⟨1, _⟩ => rfl
  rw [hl, hq]
  rfl

/-- The source words as a column, after the wrap-around of negative indices: row `e` reads as the source node. -/
private theorem src1_value (e : Fin 64000) :
    (Read.val_main_v37 (F := Ideal) a1 (ix2 e 0)).toInt = ((srow dI e).val : ℤ) := by
  have hi : Read.idx_main_v37 (ix2 e (0 : Fin 1)) = ix1 e := by
    funext a; match a with | ⟨0, _⟩ => rfl
  have h := srow_value a0 a1 a2 a3 a4 a5 a6 a7 a8 a9 hr e
  rw [Read.val_main_v37_apply, hi, Read.val_main_v36_apply, Read.val_main_v33_apply, Read.val_main_v35_apply,
    Read.val_main_v32_apply, Read.val_main_v34_apply, Read.val_main_c_6_apply, Read.val_main_c_7_apply,
    wrap_nonneg _ (by rw [h]; exact Int.natCast_nonneg _)]
  exact h

/-- The target words as a column: row `e` reads as the target node. -/
private theorem tgt1_value (e : Fin 64000) :
    (Read.val_main_v42 (F := Ideal) a1 (ix2 e 0)).toInt = ((scol dI e).val : ℤ) := by
  have hi : Read.idx_main_v42 (ix2 e (0 : Fin 1)) = ix1 e := by
    funext a; match a with | ⟨0, _⟩ => rfl
  rw [Read.val_main_v42_apply, hi]
  exact scol_value a0 a1 a2 a3 a4 a5 a6 a7 a8 a9 hr e

/-- The edge weights repeated along the 8 columns. -/
private theorem nrm1_value (e : Fin 64000) (k : Fin 8) :
    Read.val_main_v39 (F := Ideal) a1 (ix2 e k) = normR dI e := by
  have hi : Read.idx_main_v30 (Read.idx_main_v39 (ix2 e k)) = ix1 e := by
    funext a; match a with | ⟨0, _⟩ => rfl
  rw [Read.val_main_v39_apply, Read.val_main_v30_apply, hi]
  exact norm_value a0 a1 a2 a3 a4 a5 a6 a7 a8 a9 hr e

/-- The looked-up rows scaled by the edge weights. -/
private theorem msg1_value (e : Fin 64000) (k : Fin 8) :
    Read.val_main_v40 (F := Ideal) a0 a1 a2 (ix2 e k) = hw1R dI (srow dI e) k * normR dI e := by
  rw [Read.val_main_v40_apply, nrm1_value a0 a1 a2 a3 a4 a5 a6 a7 a8 a9 hr e k]
  refine congrArg (fun x : EReal => x * normR dI e) ?_
  unfold Read.val_main_v38 gather_S30000x8_S64000x1_S64000x8_1_0_n_n_0_1_18
  refine (lookup_rows _ dI _ _ (src1_value a0 a1 a2 a3 a4 a5 a6 a7 a8 a9 hr) e k).trans ?_
  exact hw1_value a0 a1 a2 a3 a4 a5 a6 a7 a8 a9 hr (srow dI e) k

/-- The first aggregation. -/
private theorem agg1_value (n : Fin 30000) (k : Fin 8) :
    Read.val_main_v43 (F := Ideal) a0 a1 a2 (ix2 n k) = aggR dI (fun a => hw1R dI a k) n := by
  have hz : ∀ (n : Fin 30000) (k : Fin 8), Read.val_main_v41 (F := Ideal) (ix2 n k) = 0 := fun n k => by
    rw [Read.val_main_v41_apply, Read.val_main_cst_8_apply]; exact zero_bits
  unfold Read.val_main_v43 Host.scatterAdd scatter_S30000x8_S64000x1_S64000x8_1_0_0_1
  refine (segment_rows _ dI _ _ _ hz (tgt1_value a0 a1 a2 a3 a4 a5 a6 a7 a8 a9 hr) n k).trans ?_
  unfold aggR
  refine congrArg (fun x : EReal => 0 + x) (Finset.sum_congr rfl fun e _ => ?_)
  exact msg1_value a0 a1 a2 a3 a4 a5 a6 a7 a8 a9 hr e k

/-- Bias and tanh: the first hidden layer. -/
private theorem h1_value (n : Fin 30000) (k : Fin 8) :
    Read.val_main_v47 (F := Ideal) a0 a1 a2 a3 (ix2 n k) = h1R dI n k := by
  have hi : Read.idx_main_v44 (Read.idx_main_v45 (ix2 n k)) = ix1 k := by
    funext a; match a with | ⟨0, _⟩ => rfl
  rw [Read.val_main_v47_apply, Read.val_main_v46_apply, agg1_value a0 a1 a2 a3 a4 a5 a6 a7 a8 a9 hr n k,
    Read.val_main_v45_apply, Read.val_main_v44_apply, hi, Ideal.hostUnary_tanh_def, Ideal.addf_def]
  unfold h1R
  rfl

/-! ## Second graph layer: 3000 columns -/

/-- The first hidden layer times the second weights. -/
private theorem hw2_value (n : Fin 30000) (c : Fin 3000) :
    Read.val_main_v48 (F := Ideal) a0 a1 a2 a3 a4 (ix2 n c) = hw2R dI n c := by
  rw [Read.val_main_v48_apply]
  refine Finset.sum_congr rfl fun k _ => ?_
  have hl : Read.lidx_main_v48 (ix2 n c) k = ix2 n k := by
    funext a; match a with | ⟨0, _⟩ => rfl | ⟨1, _⟩ => rfl
  have hq : Read.ridx_main_v48 (ix2 n c) k = ix2 k c := by
    funext a; match a with | ⟨0, _⟩ => rfl | ⟨1, _⟩ => rfl
  rw [hl, hq, h1_value a0 a1 a2 a3 a4 a5 a6 a7 a8 a9 hr n k]
  rfl

/-- The source words as a column, second use. -/
private theorem src2_value (e : Fin 64000) :
    (Read.val_main_v54 (F := Ideal) a1 (ix2 e 0)).toInt = ((srow dI e).val : ℤ) := by
  have hi : Read.idx_main_v54 (ix2 e (0 : Fin 1)) = ix1 e := by
    funext a; match a with | ⟨0, _⟩ => rfl
  have h := srow_value a0 a1 a2 a3 a4 a5 a6 a7 a8 a9 hr e
  rw [Read.val_main_v54_apply, hi, Read.val_main_v53_apply, Read.val_main_v50_apply, Read.val_main_v52_apply,
    Read.val_main_v49_apply, Read.val_main_v51_apply, Read.val_main_c_9_apply, Read.val_main_c_10_apply,
    wrap_nonneg _ (by rw [h]; exact Int.natCast_nonneg _)]
  exact h

/-- The target words as a column, second use. -/
private theorem tgt2_value (e : Fin 64000) :
    (Read.val_main_v59 (F := Ideal) a1 (ix2 e 0)).toInt = ((scol dI e).val : ℤ) := by
  have hi : Read.idx_main_v59 (ix2 e (0 : Fin 1)) = ix1 e := by
    funext a; match a with | ⟨0, _⟩ => rfl
  rw [Read.val_main_v59_apply, hi]
  exact scol_value a0 a1 a2 a3 a4 a5 a6 a7 a8 a9 hr e

/-- The edge weights repeated along the 3000 columns. -/
private theorem nrm2_value (e : Fin 64000) (c : Fin 3000) :
    Read.val_main_v56 (F := Ideal) a1 (ix2 e c) = normR dI e := by
  have hi : Read.idx_main_v30 (Read.idx_main_v56 (ix2 e c)) = ix1 e := by
    funext a; match a with | ⟨0, _⟩ => rfl
  rw [Read.val_main_v56_apply, Read.val_main_v30_apply, hi]
  exact norm_value a0 a1 a2 a3 a4 a5 a6 a7 a8 a9 hr e

/-- The looked-up rows scaled by the edge weights. -/
private theorem msg2_value (e : Fin 64000) (c : Fin 3000) :
    Read.val_main_v57 (F := Ideal) a0 a1 a2 a3 a4 (ix2 e c) = hw2R dI (srow dI e) c * normR dI e := by
  rw [Read.val_main_v57_apply, nrm2_value a0 a1 a2 a3 a4 a5 a6 a7 a8 a9 hr e c]
  refine congrArg (fun x : EReal => x * normR dI e) ?_
  unfold Read.val_main_v55 gather_S30000x3000_S64000x1_S64000x3000_1_0_n_n_0_1_13000
  refine (lookup_rows _ dI _ _ (src2_value a0 a1 a2 a3 a4 a5 a6 a7 a8 a9 hr) e c).trans ?_
  exact hw2_value a0 a1 a2 a3 a4 a5 a6 a7 a8 a9 hr (srow dI e) c

/-- The second aggregation. -/
private theorem agg2_value (n : Fin 30000) (c : Fin 3000) :
    Read.val_main_v60 (F := Ideal) a0 a1 a2 a3 a4 (ix2 n c) = aggR dI (fun a => hw2R dI a c) n := by
  have hz : ∀ (n : Fin 30000) (c : Fin 3000), Read.val_main_v58 (F := Ideal) (ix2 n c) = 0 := fun n c => by
    rw [Read.val_main_v58_apply, Read.val_main_cst_11_apply]; exact zero_bits
  unfold Read.val_main_v60 Host.scatterAdd scatter_S30000x3000_S64000x1_S64000x3000_1_0_0_1
  refine (segment_rows _ dI _ _ _ hz (tgt2_value a0 a1 a2 a3 a4 a5 a6 a7 a8 a9 hr) n c).trans ?_
  unfold aggR
  refine congrArg (fun x : EReal => 0 + x) (Finset.sum_congr rfl fun e _ => ?_)
  exact msg2_value a0 a1 a2 a3 a4 a5 a6 a7 a8 a9 hr e c

/-- Bias and tanh: the second hidden layer. -/
private theorem h2_value (n : Fin 30000) (c : Fin 3000) :
    Read.val_main_v64 (F := Ideal) a0 a1 a2 a3 a4 a5 (ix2 n c) = h2R dI n c := by
  have hi : Read.idx_main_v61 (Read.idx_main_v62 (ix2 n c)) = ix1 c := by
    funext a; match a with | ⟨0, _⟩ => rfl
  rw [Read.val_main_v64_apply, Read.val_main_v63_apply, agg2_value a0 a1 a2 a3 a4 a5 a6 a7 a8 a9 hr n c,
    Read.val_main_v62_apply, Read.val_main_v61_apply, hi, Ideal.hostUnary_tanh_def, Ideal.addf_def]
  unfold h2R
  rfl

/-! ## The two dense layers -/

/-- The dense layer with its bias and its maximum with zero. -/
private theorem h3_value (n : Fin 30000) (q : Fin 30) :
    Read.val_main_v69 (F := Ideal) a0 a1 a2 a3 a4 a5 a6 a7 (ix2 n q) = h3R dI n q := by
  have hi : Read.idx_main_v66 (Read.idx_main_v67 (ix2 n q)) = ix1 q := by
    funext a; match a with | ⟨0, _⟩ => rfl
  have hs : Read.val_main_v65 (F := Ideal) a0 a1 a2 a3 a4 a5 a6 (ix2 n q)
      = ∑ c : Fin 3000, h2R dI n c * (dI).Wl1 c q := by
    rw [Read.val_main_v65_apply]
    refine Finset.sum_congr rfl fun c _ => ?_
    have hl : Read.lidx_main_v65 (ix2 n q) c = ix2 n c := by
      funext a; match a with | ⟨0, _⟩ => rfl | ⟨1, _⟩ => rfl
    have hq : Read.ridx_main_v65 (ix2 n q) c = ix2 c q := by
      funext a; match a with | ⟨0, _⟩ => rfl | ⟨1, _⟩ => rfl
    rw [hl, hq, h2_value a0 a1 a2 a3 a4 a5 a6 a7 a8 a9 hr n c]
    rfl
  rw [Read.val_main_v69_apply, Read.val_main_v68_apply, hs, Read.val_main_v67_apply, Read.val_main_v66_apply, hi,
    Read.val_main_call1_v0_apply, Read.val_main_call1_cst_apply, zero_bits, Ideal.maximumf_def, Ideal.addf_def]
  unfold h3R
  rfl

/-- The last dense layer with its bias. -/
private theorem out_value (n : Fin 30000) (z : Fin 60) :
    Read.val_main_v73 (F := Ideal) a0 a1 a2 a3 a4 a5 a6 a7 a8 a9 (ix2 n z) = outR dI n z := by
  have hi : Read.idx_main_v71 (Read.idx_main_v72 (ix2 n z)) = ix1 z := by
    funext a; match a with | ⟨0, _⟩ => rfl
  have hs : Read.val_main_v70 (F := Ideal) a0 a1 a2 a3 a4 a5 a6 a7 a8 (ix2 n z)
      = ∑ q : Fin 30, h3R dI n q * (dI).Wl2 q z := by
    rw [Read.val_main_v70_apply]
    refine Finset.sum_congr rfl fun q _ => ?_
    have hl : Read.lidx_main_v70 (ix2 n z) q = ix2 n q := by
      funext a; match a with | ⟨0, _⟩ => rfl | ⟨1, _⟩ => rfl
    have hq : Read.ridx_main_v70 (ix2 n z) q = ix2 q z := by
      funext a; match a with | ⟨0, _⟩ => rfl | ⟨1, _⟩ => rfl
    rw [hl, hq, h3_value a0 a1 a2 a3 a4 a5 a6 a7 a8 a9 hr n q]
    rfl
  rw [Read.val_main_v73_apply, hs, Read.val_main_v72_apply, Read.val_main_v71_apply, hi, Ideal.addf_def]
  unfold outR
  rfl

end Layers

/-- The reference's 30000 × 60 result, entry `(n, z)`. -/
theorem ref_value (a0 : (⟨2, ![30000, 4]⟩ : Shape).Idx → EReal) (a1 : IVec ⟨2, ![2, 34000]⟩ 32)
    (a2 : (⟨2, ![4, 8]⟩ : Shape).Idx → EReal) (a3 : (⟨1, ![8]⟩ : Shape).Idx → EReal)
    (a4 : (⟨2, ![8, 3000]⟩ : Shape).Idx → EReal) (a5 : (⟨1, ![3000]⟩ : Shape).Idx → EReal)
    (a6 : (⟨2, ![3000, 30]⟩ : Shape).Idx → EReal) (a7 : (⟨1, ![30]⟩ : Shape).Idx → EReal)
    (a8 : (⟨2, ![30, 60]⟩ : Shape).Idx → EReal) (a9 : (⟨1, ![60]⟩ : Shape).Idx → EReal) (hr : ∀ i : (⟨2, ![2, 34000]⟩ : Shape).Idx, 0 ≤ (a1 i).toInt ∧ (a1 i).toInt < 30000) (n : Fin 30000) (z : Fin 60) :
    Read.val_main_v73 (F := Ideal) a0 a1 a2 a3 a4 a5 a6 a7 a8 a9 (ix2 n z) = outR (inputsOf a0 a1 a2 a3 a4 a5 a6 a7 a8 a9) n z :=
  out_value a0 a1 a2 a3 a4 a5 a6 a7 a8 a9 hr n z

end Cert.Gcn.Ref

end
-- ==== Proof.KerDecode.lean ====
/-
  The kernel program's launch memory on one core, decoded: the inputs of `Spec`, the precondition's facts about
  them, and the result array the kernel is shown to end with — the 30000 × 60 table of `outK` laid out as
  600 × 1500 × 2.
-/
import proofs.«424383_j28647431864457_3_alg».proof.KernelIdeal
import proofs.«424383_j28647431864457_3_alg».proof.Proof.Decode

noncomputable section

open scoped BigOperators

namespace Cert.Gcn.Ker

open Cert.KernelIdeal Cert.KernelIdeal.Facts₀ Cert.KernelIdeal.Facts Idealize.ShloMosaic Idealize.ShloMosaic.TcCoe Idealize.ShloMosaic.ValueIdx Idealize.SL.Sem

variable (m : (ℓ : Loc nD τ sig) → Buf (Elt Ideal) ℓ) (c : Dev nD)

/-- The decoded inputs of the launch memory on core `c`. -/
def dOf : Inputs := inputsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The precondition's facts about the launch memory on core `c`. -/
def OkAt : Prop := ArgsOk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The kernel's 30000 × 60 result as a table of `outK`. -/
def table : S30000x60.Idx → EReal := fun i => outK (dOf m c) (i 0) (i 1)

/-- The result array: the table laid out as 600 × 1500 × 2. -/
def result [Facts] : S600x1500x2.Idx → EReal := shapeCast S600x1500x2 (table m c) shapeCasts_S30000x60_S600x1500x2

end Cert.Gcn.Ker

end
-- ==== Proof.KerHostA0.lean ====
/-
  The kernel's host program read at an index, its first stretch: the degree (a segment sum of ones over the
  targets with the self loops appended), its inverse square root where positive, the weight of every edge (two
  lookups of that table at the edge's ends and a product), and the squared inverse square roots that go on the
  block matrices' diagonals.
-/
import proofs.«424383_j28647431864457_3_alg».proof.Proof.Gen.KernelIdeal.Frame
import proofs.«424383_j28647431864457_3_alg».proof.Proof.KerDecode
import proofs.«424383_j28647431864457_3_alg».proof.Proof.LibGS
import Idealize.ShloMosaic.Lib.StableHlo.Predicate
import Idealize.ShloMosaic.Lib.Pipeline.Value
import Idealize.ShloMosaic.PureOps.Ideal.Laws

noncomputable section

open scoped BigOperators

namespace Cert.Gcn.Ker

open Cert.KernelIdeal Cert.KernelIdeal.Facts₀ Cert.KernelIdeal.Facts Cert.KernelIdeal.Gen Idealize.ShloMosaic Idealize.ShloMosaic.TcCoe Idealize.ShloMosaic.ValueIdx Idealize.SL.Sem

variable [Facts]

namespace HostA0

/-! ## The stages as functions of the edge array -/

section Stages

variable {F : FTy → Type} [FloatOps F]

/-- Row 0 of the edge array, flattened: the sources. -/
def kRow0 (a1 : IVec S2x34000 32) : IVec S34000 32 :=
  shapeCast S34000 (extractStridedSlice S1x34000 ![0, 0] a1 Facts₀.slices_S2x34000_S1x34000_0_0) Facts₀.shapeCasts_S1x34000_S34000

/-- Row 1 of the edge array, flattened: the targets. -/
def kRow1 (a1 : IVec S2x34000 32) : IVec S34000 32 :=
  shapeCast S34000 (extractStridedSlice S1x34000 ![1, 0] a1 Facts₀.slices_S2x34000_S1x34000_1_0) Facts₀.shapeCasts_S1x34000_S34000

/-- The targets with the nodes in order appended. -/
def kCol (a1 : IVec S2x34000 32) : IVec S64000 32 :=
  concatenate S64000 0 [⟨S34000, kRow1 a1⟩, ⟨S30000, iotaInDim S30000 32 0⟩] Facts₀.concatenates_S34000_S30000_S64000_d0

/-- The degree: the segment sum of ones over the extended targets. -/
def kDeg (a1 : IVec S2x34000 32) : FVec F S30000 .f32 :=
  Host.scatterAdd (F := F) scatter_S30000_S64000x1_S64000_n_0_0_1
    (broadcastInDim S30000 ![] Facts₀.bcast_S_S30000 (constant (F := F) S_ .f32 0x00000000#32))
    (broadcastInDim S64000x1 ![0] Facts₀.bcast_S64000_S64000x1_0 (kCol a1))
    (broadcastInDim S64000 ![] Facts₀.bcast_S_S64000 (constant (F := F) S_ .f32 0x3F800000#32))

/-- The inverse square root of the degree where it is positive, else zero. -/
def kDinv (a1 : IVec S2x34000 32) : FVec F S30000 .f32 :=
  select (cmpf (F := F) .ogt (kDeg (F := F) a1) (broadcastInDim S30000 ![] Facts₀.bcast_S_S30000 (constant (F := F) S_ .f32 0x00000000#32)))
    (Host.rsqrt (F := F) (kDeg (F := F) a1))
    (broadcastInDim S30000 ![] Facts₀.bcast_S_S30000 (constant (F := F) S_ .f32 0x00000000#32))

/-- An index word as the lookup uses it: a negative word has the node count added. -/
def kWrap (row : IVec S34000 32) : IVec S34000 32 :=
  select (cmpi .slt row (broadcastInDim S34000 ![] Facts₀.bcast_S_S34000 (constantI S_ 32 0#32)))
    (addi row (broadcastInDim S34000 ![] Facts₀.bcast_S_S34000 (constantI S_ 32 30000#32))) row

/-- The table of inverse square roots looked up at a row of index words. -/
def kLook (a1 : IVec S2x34000 32) (row : IVec S34000 32) : FVec F S34000 .f32 :=
  Host.gather gather_S30000_S34000x1_S34000_n_0_n_n_0_1_1 (kDinv (F := F) a1)
    (broadcastInDim S34000x1 ![0] Facts₀.bcast_S34000_S34000x1_0 (kWrap row))

/-- The weight of every edge: the product of the lookups at its two ends. -/
def kNorm0 (a1 : IVec S2x34000 32) : FVec F S34000 .f32 :=
  mulf (kLook (F := F) a1 (kRow0 a1)) (kLook (F := F) a1 (kRow1 a1))

/-- The squared inverse square roots. -/
def kSelf (a1 : IVec S2x34000 32) : FVec F S30000 .f32 :=
  mulf (kDinv (F := F) a1) (kDinv (F := F) a1)

/-- The degree stage is the accumulating scatter at the scalar segment sum's dimension numbers. -/
theorem kDeg_eq (a1 : IVec S2x34000 32) :
    kDeg (F := F) a1 = FloatOps.hostScatterAdd (Cert.LibGS.vecScatterDims 30000 64000 Facts₀.scatter_S30000_S64000x1_S64000_n_0_0_1_wf) .single
      (broadcastInDim S30000 ![] Facts₀.bcast_S_S30000 (constant (F := F) S_ .f32 0x00000000#32))
      (broadcastInDim S64000x1 ![0] Facts₀.bcast_S64000_S64000x1_0 (kCol a1))
      (broadcastInDim S64000 ![] Facts₀.bcast_S_S64000 (constant (F := F) S_ .f32 0x3F800000#32)) := rfl

/-- The inverse-square-root stage at an index: a choice, on the comparison of the degree with zero, between its
    inverse square root and zero. -/
theorem kDinv_at (a1 : IVec S2x34000 32) (i : S30000.Idx) :
    kDinv (F := F) a1 i
      = Scalar.select (FloatOps.cmpf .ogt (kDeg (F := F) a1 i) (broadcastInDim S30000 ![] Facts₀.bcast_S_S30000 (constant (F := F) S_ .f32 0x00000000#32) i))
          (FloatOps.hostUnary .rsqrt (kDeg (F := F) a1 i))
          (broadcastInDim S30000 ![] Facts₀.bcast_S_S30000 (constant (F := F) S_ .f32 0x00000000#32) i) := rfl

variable (m : (ℓ : Loc nD τ sig) → Buf (Elt F) ℓ) (c : Dev nD)

/-! ## The program's buffers are the stages of the launched edge array -/

set_option maxHeartbeats 1000000 in
/-- The buffer of inverse square roots is that stage of the launched edge array. -/
theorem V_v14 : (V m c main_v14 : FVec F S30000 .f32) = kDinv (F := F) (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

set_option maxHeartbeats 1000000 in
/-- The lookups at the sources. -/
theorem V_v25 : (V m c main_v25 : FVec F S34000 .f32) = kLook (F := F) (m ((c.tc : Thread nD τ).loc main_arg1)) (kRow0 (m ((c.tc : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

set_option maxHeartbeats 1000000 in
/-- The lookups at the targets. -/
theorem V_v32 : (V m c main_v32 : FVec F S34000 .f32) = kLook (F := F) (m ((c.tc : Thread nD τ).loc main_arg1)) (kRow1 (m ((c.tc : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

set_option maxHeartbeats 1000000 in
/-- The edge weights are the product of the two lookups. -/
theorem V_v33_mul : (V m c main_v33 : FVec F S34000 .f32) = mulf (V m c main_v25 : FVec F S34000 .f32) (V m c main_v32 : FVec F S34000 .f32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp

set_option maxHeartbeats 1000000 in
/-- The diagonal entries are the table squared. -/
theorem V_v50_mul : (V m c main_v50 : FVec F S30000 .f32) = mulf (V m c main_v14 : FVec F S30000 .f32) (V m c main_v14 : FVec F S30000 .f32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp

/-- The buffer of edge weights is that stage of the launched edge array. -/
theorem V_v33 : (V m c main_v33 : FVec F S34000 .f32) = kNorm0 (F := F) (m ((c.tc : Thread nD τ).loc main_arg1)) :=
  (V_v33_mul m c).trans (congrArg₂ mulf (V_v25 m c) (V_v32 m c))

/-- The buffer of squared inverse square roots is that stage of the launched edge array. -/
theorem V_v50 : (V m c main_v50 : FVec F S30000 .f32) = kSelf (F := F) (m ((c.tc : Thread nD τ).loc main_arg1)) :=
  (V_v50_mul m c).trans (congrArg₂ mulf (V_v14 m c) (V_v14 m c))

end Stages

/-! ## Words and constants -/

/-- The pattern of the float one is one. -/
private theorem ofBits_one_f32 : Ideal.ofBits .f32 0x3F800000#32 = 1 := by
  simp [Ideal.ofBits, Ideal.ieee]
  rw [← EReal.coe_mul]
  norm_num

/-- A splat of an integer constant, read anywhere, is the constant. -/
private theorem bcastI_apply {t : Shape} (h : S_.BroadcastsInDim t ![]) (w : BitVec 32) (j : t.Idx) :
    broadcastInDim t ![] h (constantI S_ 32 w) j = w :=
  broadcastInDim_apply ![] h (constantI S_ 32 w) j ix0 (fun a => a.elim0)

/-- A splat of a float constant, read anywhere, is the number its pattern denotes. -/
private theorem bcastF_apply {t : Shape} (h : S_.BroadcastsInDim t ![]) (b : BitVec 32) (j : t.Idx) :
    broadcastInDim t ![] h (constant (F := Ideal) S_ .f32 b) j = Ideal.ofBits .f32 b :=
  broadcastInDim_apply ![] h (constant (F := Ideal) S_ .f32 b) j ix0 (fun a => a.elim0)

/-- A vector with a unit axis added, read at a row, is the vector there. -/
private theorem col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) :=
  broadcastInDim_apply ![0] h v (ix2 p (0 : Fin 1)) (ix1 p) (fun a => by
    match a with
    | ⟨0, _⟩ =>
      show p.val = if n = 1 then 0 else p.val
      split
      · have := p.isLt; omega
      · rfl)

/-- A word that is not negative is not below zero: the lookup's wrap leaves it as it is. -/
private theorem wrap_word (w : BitVec 32) (h0 : 0 ≤ w.toInt) :
    Scalar.select (IntOp.cmpi .slt w 0#32) (IntOp.addi w 30000#32) w = w := by
  have hs : w.slt 0#32 = false := by
    unfold BitVec.slt
    exact decide_eq_false (by rw [BitVec.toInt_zero]; omega)
  have hc : IntOp.cmpi .slt w 0#32 = 0#1 := by
    show BitVec.ofBool (w.slt 0#32) = 0#1
    rw [hs]
    rfl
  rw [hc]
  exact select_zero _ _

/-! ## The index stages read at an index -/

/-- Row 0 of the edge array, flattened, at `k`. -/
theorem kRow0_apply (a1 : IVec S2x34000 32) (k : Fin 34000) : kRow0 a1 (ix1 k) = a1 (ix2 (0 : Fin 2) k) := by
  unfold kRow0
  refine (shapeCast_apply _ Facts₀.shapeCasts_S1x34000_S34000 (ix1 k) (ix2 (0 : Fin 1) k) ?_).trans ?_
  · rewrite [Shape.rowMajor_val_two, Shape.rowMajor_val_one]
    show 0 * 34000 + k.val = k.val
    omega
  · exact extractStridedSlice_apply ![0, 0] a1 Facts₀.slices_S2x34000_S1x34000_0_0 (ix2 (0 : Fin 1) k) (ix2 (0 : Fin 2) k)
      (fun a => match a with
        | ⟨0, _⟩ => rfl
        | ⟨1, _⟩ => by show k.val = 0 + k.val; omega)

/-- Row 1 of the edge array, flattened, at `k`. -/
theorem kRow1_apply (a1 : IVec S2x34000 32) (k : Fin 34000) : kRow1 a1 (ix1 k) = a1 (ix2 (1 : Fin 2) k) := by
  unfold kRow1
  refine (shapeCast_apply _ Facts₀.shapeCasts_S1x34000_S34000 (ix1 k) (ix2 (0 : Fin 1) k) ?_).trans ?_
  · rewrite [Shape.rowMajor_val_two, Shape.rowMajor_val_one]
    show 0 * 34000 + k.val = k.val
    omega
  · exact extractStridedSlice_apply ![1, 0] a1 Facts₀.slices_S2x34000_S1x34000_1_0 (ix2 (0 : Fin 1) k) (ix2 (1 : Fin 2) k)
      (fun a => match a with
        | ⟨0, _⟩ => rfl
        | ⟨1, _⟩ => by show k.val = 0 + k.val; omega)

/-- The extended targets below the edge count: the edge's target word. -/
theorem kCol_edge (a1 : IVec S2x34000 32) (e : Fin 64000) (h : e.val < 34000) :
    kCol a1 (ix1 e) = a1 (ix2 (1 : Fin 2) ⟨e.val, h⟩) := by
  unfold kCol
  refine (concatenate_pair_apply_left 0 (kRow1 a1) (iotaInDim S30000 32 0) Facts₀.concatenates_S34000_S30000_S64000_d0
    (ix1 e) rfl (ix1 ⟨e.val, h⟩) (fun b => ?_)).trans (kRow1_apply a1 _)
  match b with
  | ⟨0, _⟩ => rfl

/-- The extended targets from the edge count on: the node's own number. -/
theorem kCol_loop (a1 : IVec S2x34000 32) (e : Fin 64000) (h : 34000 ≤ e.val) :
    kCol a1 (ix1 e) = BitVec.ofNat 32 (e.val - 34000) := by
  unfold kCol
  exact concatenate_pair_apply_right 0 (kRow1 a1) (iotaInDim S30000 32 0) Facts₀.concatenates_S34000_S30000_S64000_d0
    (ix1 e) rfl rfl (ix1 ⟨e.val - 34000, by omega⟩)
    (fun b hb => by
      match b with
      | ⟨0, _⟩ => exact absurd rfl hb)
    (by show (e.val - 34000) + 34000 = e.val; omega)

/-- The lookup's wrap leaves a word that is not negative as it is. -/
theorem kWrap_apply (row : IVec S34000 32) (e : Fin 34000) (h0 : 0 ≤ (row (ix1 e)).toInt) :
    kWrap row (ix1 e) = row (ix1 e) := by
  unfold kWrap
  show Scalar.select (IntOp.cmpi .slt (row (ix1 e)) (broadcastInDim S34000 ![] Facts₀.bcast_S_S34000 (constantI S_ 32 0#32) (ix1 e)))
    (IntOp.addi (row (ix1 e)) (broadcastInDim S34000 ![] Facts₀.bcast_S_S34000 (constantI S_ 32 30000#32) (ix1 e))) (row (ix1 e)) = row (ix1 e)
  rw [bcastI_apply, bcastI_apply]
  exact wrap_word _ h0

/-! ## The float stages read at an index, over the decoded inputs -/

section Decoded

variable (a0 : (⟨2, ![30000, 4]⟩ : Shape).Idx → EReal) (a1 : IVec ⟨2, ![2, 34000]⟩ 32)
  (a2 : (⟨2, ![4, 8]⟩ : Shape).Idx → EReal) (a3 : (⟨1, ![8]⟩ : Shape).Idx → EReal)
  (a4 : (⟨2, ![8, 3000]⟩ : Shape).Idx → EReal) (a5 : (⟨1, ![3000]⟩ : Shape).Idx → EReal)
  (a6 : (⟨2, ![3000, 30]⟩ : Shape).Idx → EReal) (a7 : (⟨1, ![30]⟩ : Shape).Idx → EReal)
  (a8 : (⟨2, ![30, 60]⟩ : Shape).Idx → EReal) (a9 : (⟨1, ![60]⟩ : Shape).Idx → EReal)
  (hr : ∀ i : (⟨2, ![2, 34000]⟩ : Shape).Idx, 0 ≤ (a1 i).toInt ∧ (a1 i).toInt < 30000)

include hr

/-- The extended target word of `e`, read signed, is its target node. -/
theorem kCol_toInt (e : Fin 64000) :
    (kCol a1 (ix1 e)).toInt = ((scol (inputsOf a0 a1 a2 a3 a4 a5 a6 a7 a8 a9) e).val : ℤ) := by
  by_cases h : e.val < 34000
  · rw [kCol_edge a1 e h, toInt_eq_nodeOf _ (hr _).1 (hr _).2]
    unfold scol
    rw [dif_pos h]
    rfl
  · rw [kCol_loop a1 e (by omega)]
    unfold scol
    rw [dif_neg h]
    exact StableHlo.Predicate.toInt_ofNat_small _ (by omega)

/-- The segment sum of ones over the extended targets is the degree. -/
theorem kDeg_apply (n : Fin 30000) :
    kDeg (F := Ideal) a1 (ix1 n) = deg (inputsOf a0 a1 a2 a3 a4 a5 a6 a7 a8 a9) n := by
  rw [kDeg_eq, Ideal.hostScatterAdd_def, Cert.LibGS.scatterAdd_vec_apply]
  unfold deg
  refine congrArg₂ (· + ·) ?_ ?_
  · exact (bcastF_apply _ _ _).trans Ideal.ofBits_zero_f32
  · refine Finset.sum_congr (Finset.filter_congr fun e _ => ?_) (fun e _ => ?_)
    · rw [col_apply, kCol_toInt a0 a1 a2 a3 a4 a5 a6 a7 a8 a9 hr e]
      constructor
      · intro h
        exact Fin.ext (by exact_mod_cast h)
      · intro h
        rw [h]
    · exact (bcastF_apply _ _ _).trans ofBits_one_f32

/-- The inverse square root of the degree where positive, else zero. -/
theorem kDinv_apply (n : Fin 30000) :
    kDinv (F := Ideal) a1 (ix1 n) = dinv (inputsOf a0 a1 a2 a3 a4 a5 a6 a7 a8 a9) n := by
  rw [kDinv_at, Ideal.cmpf_def, Ideal.hostUnary_rsqrt_def, bcastF_apply, Ideal.ofBits_zero_f32,
    kDeg_apply a0 a1 a2 a3 a4 a5 a6 a7 a8 a9 hr n]
  unfold dinv
  by_cases h : 0 < deg (inputsOf a0 a1 a2 a3 a4 a5 a6 a7 a8 a9) n
  · rw [if_pos h]
    have hc : Ideal.cmp .ogt (deg (inputsOf a0 a1 a2 a3 a4 a5 a6 a7 a8 a9) n) 0 = 1#1 := by
      show BitVec.ofBool (decide (0 < deg (inputsOf a0 a1 a2 a3 a4 a5 a6 a7 a8 a9) n)) = 1#1
      rw [decide_eq_true h]
      rfl
    rw [hc]
    exact select_one _ _
  · rw [if_neg h]
    have hc : Ideal.cmp .ogt (deg (inputsOf a0 a1 a2 a3 a4 a5 a6 a7 a8 a9) n) 0 = 0#1 := by
      show BitVec.ofBool (decide (0 < deg (inputsOf a0 a1 a2 a3 a4 a5 a6 a7 a8 a9) n)) = 0#1
      rw [decide_eq_false h]
      rfl
    rw [hc]
    exact select_zero _ _

/-- A lookup of the table at a word that is a node reads the node's entry. -/
theorem kLook_apply (row : IVec S34000 32) (e : Fin 34000) (h0 : 0 ≤ (row (ix1 e)).toInt) :
    kLook (F := Ideal) a1 row (ix1 e) = dinv (inputsOf a0 a1 a2 a3 a4 a5 a6 a7 a8 a9) (nodeOf (row (ix1 e))) := by
  unfold kLook
  have e1 : ∀ {n : ℕ} (p : Fin n), (Shape.Idx.ofFin p : (⟨1, ![n]⟩ : Shape).Idx) = ix1 p := fun p => by
    funext a
    match a with
    | ⟨0, _⟩ => rfl
  have hP : (StableHlo.Predicate.ixP e : S34000x1.Idx) = ix2 e (0 : Fin 1) := by
    funext b
    match b with
    | ⟨0, _⟩ => rfl
    | ⟨1, _⟩ => rfl
  have hidx : broadcastInDim S34000x1 ![0] Facts₀.bcast_S34000_S34000x1_0 (kWrap row) (StableHlo.Predicate.ixP e) = row (ix1 e) := by
    rw [hP]
    exact (col_apply Facts₀.bcast_S34000_S34000x1_0 (kWrap row) e).trans (kWrap_apply row e h0)
  have hg := StableHlo.Predicate.gather_take gather_S30000_S34000x1_S34000_n_0_n_n_0_1_1 rfl rfl rfl rfl (kDinv (F := Ideal) a1)
    (broadcastInDim S34000x1 ![0] Facts₀.bcast_S34000_S34000x1_0 (kWrap row)) e (by norm_num)
  rw [e1 e] at hg
  refine hg.trans ?_
  rw [← kDinv_apply a0 a1 a2 a3 a4 a5 a6 a7 a8 a9 hr]
  refine congrArg _ ?_
  funext a
  match a with
  | ⟨0, _⟩ =>
    refine Fin.ext ?_
    show min (broadcastInDim S34000x1 ![0] Facts₀.bcast_S34000_S34000x1_0 (kWrap row) (StableHlo.Predicate.ixP e)).toInt.toNat (30000 - 1) = min (row (ix1 e)).toInt.toNat 29999
    rw [hidx]

/-- The weight of an edge: the product of the inverse square roots at its two ends. -/
theorem kNorm0_apply (e : Fin 34000) :
    kNorm0 (F := Ideal) a1 (ix1 e)
      = dinv (inputsOf a0 a1 a2 a3 a4 a5 a6 a7 a8 a9) ((inputsOf a0 a1 a2 a3 a4 a5 a6 a7 a8 a9).s e)
        * dinv (inputsOf a0 a1 a2 a3 a4 a5 a6 a7 a8 a9) ((inputsOf a0 a1 a2 a3 a4 a5 a6 a7 a8 a9).t e) := by
  unfold kNorm0
  rw [mulf_apply,
    kLook_apply a0 a1 a2 a3 a4 a5 a6 a7 a8 a9 hr (kRow0 a1) e (by rw [kRow0_apply]; exact (hr _).1),
    kLook_apply a0 a1 a2 a3 a4 a5 a6 a7 a8 a9 hr (kRow1 a1) e (by rw [kRow1_apply]; exact (hr _).1),
    kRow0_apply, kRow1_apply]
  rfl

/-- The squared inverse square root of the degree. -/
theorem kSelf_apply (n : Fin 30000) :
    kSelf (F := Ideal) a1 (ix1 n)
      = dinv (inputsOf a0 a1 a2 a3 a4 a5 a6 a7 a8 a9) n * dinv (inputsOf a0 a1 a2 a3 a4 a5 a6 a7 a8 a9) n := by
  unfold kSelf
  rw [mulf_apply, kDinv_apply a0 a1 a2 a3 a4 a5 a6 a7 a8 a9 hr n]

end Decoded

end HostA0

open HostA0

/-! ## The three stages over the decoded launch memory -/

variable (m : (ℓ : Loc nD τ sig) → Buf (Elt Ideal) ℓ) (c : Dev nD)

/-- The inverse square root of the degree, per node. -/
theorem dinvK_value (hok : OkAt m c) (n : Fin 30000) :
    (V m c main_v14 : S30000.Idx → EReal) (ix1 n) = dinv (dOf m c) n :=
  (congrFun (V_v14 (F := Ideal) m c) (ix1 n)).trans (kDinv_apply _ _ _ _ _ _ _ _ _ _ (ArgsOk.range hok) n)

/-- The weight of edge `e` before cross-block edges are dropped. -/
theorem norm0_value (hok : OkAt m c) (e : Fin 34000) :
    (V m c main_v33 : S34000.Idx → EReal) (ix1 e) = dinv (dOf m c) ((dOf m c).s e) * dinv (dOf m c) ((dOf m c).t e) :=
  (congrFun (V_v33 (F := Ideal) m c) (ix1 e)).trans (kNorm0_apply _ _ _ _ _ _ _ _ _ _ (ArgsOk.range hok) e)

/-- The squared inverse square root of the degree, per node. -/
theorem selfnorm_value (hok : OkAt m c) (n : Fin 30000) :
    (V m c main_v50 : S30000.Idx → EReal) (ix1 n) = dinv (dOf m c) n * dinv (dOf m c) n :=
  (congrFun (V_v50 (F := Ideal) m c) (ix1 n)).trans (kSelf_apply _ _ _ _ _ _ _ _ _ _ (ArgsOk.range hok) n)

end Cert.Gcn.Ker

end
-- ==== Proof.KerHostA.lean ====
/-
  The kernel's host program read at an index, its second stretch: cross-block edges have their weight dropped
  (the floor quotients by 30 of an edge's two ends are compared), every edge gets its flat position
  `(t / 30) · 900 + (t % 30) · 30 + s % 30` in the 1000 × 30 × 30 table, and the table before the diagonal is added
  is the segment sum of the kept weights over those positions.
-/
import proofs.«424383_j28647431864457_3_alg».proof.Proof.Gen.KernelIdeal.Frame
import proofs.«424383_j28647431864457_3_alg».proof.Proof.KerDecode
import proofs.«424383_j28647431864457_3_alg».proof.Proof.LibGS
import proofs.«424383_j28647431864457_3_alg».proof.Proof.KerHostA0
import Idealize.ShloMosaic.Lib.WordArith
import Idealize.ShloMosaic.Lib.Pipeline.Value
import Idealize.ShloMosaic.PureOps.Ideal.Laws

noncomputable section

open scoped BigOperators

namespace Cert.Gcn.Ker

open Cert.KernelIdeal Cert.KernelIdeal.Facts₀ Cert.KernelIdeal.Facts Cert.KernelIdeal.Gen Idealize.ShloMosaic Idealize.ShloMosaic.TcCoe Idealize.ShloMosaic.ValueIdx Idealize.SL.Sem

namespace Flat

/-! ## The floor quotient and remainder by 30 on one word, as the program computes them -/

/-- The sign of a word: zero, minus one or one. -/
def sgnW (x : BitVec 32) : BitVec 32 := if x = 0 then 0 else if x.msb then -1 else 1

/-- The floor quotient by 30 on one word: the truncated quotient, less one where the signs differ and the remainder is not zero. -/
def fdW (x : BitVec 32) : BitVec 32 :=
  Scalar.select (IntOp.andi (IntOp.cmpi .ne (sgnW x) (sgnW 30#32)) (IntOp.cmpi .ne (IntOp.remsi .host x 30#32) 0#32))
    (IntOp.subi (IntOp.divsi .host x 30#32) 1#32) (IntOp.divsi .host x 30#32)

/-- The divisor the remainder uses: one where the divisor is zero, the divisor otherwise. -/
def d30W : BitVec 32 := Scalar.select (IntOp.cmpi .eq (30#32 : BitVec 32) 0#32) 1#32 30#32

/-- The floor remainder by 30 on one word: the truncated remainder, plus the divisor where it is not zero and its sign differs from the divisor's. -/
def rmW (x : BitVec 32) : BitVec 32 :=
  Scalar.select (IntOp.andi (IntOp.cmpi .ne (IntOp.cmpi .slt (IntOp.remsi .host x d30W) 0#32) (IntOp.cmpi .slt d30W 0#32))
      (IntOp.cmpi .ne (IntOp.remsi .host x d30W) 0#32))
    (IntOp.addi (IntOp.remsi .host x d30W) d30W) (IntOp.remsi .host x d30W)

/-- The flat position from the target's quotient and remainder and the source's remainder. -/
def segW (q r r' : BitVec 32) : BitVec 32 := IntOp.addi (IntOp.addi (IntOp.muli q 900#32) (IntOp.muli r 30#32)) r'

theorem d30W_eq : d30W = 30#32 := by decide

theorem toInt_30 : (30#32 : BitVec 32).toInt = 30 := by decide

/-- Dividing by 30 is no corner of the signed division. -/
theorem not_corner_30 (x : BitVec 32) : ¬ IntOp.SDivCorner x 30#32 := by
  rintro (h | ⟨_, h⟩)
  · exact absurd h (by decide)
  · exact absurd h (by decide)

theorem divsi_30 (x : BitVec 32) : IntOp.divsi .host x 30#32 = x.sdiv 30#32 := by
  unfold IntOp.divsi; rw [if_neg (not_corner_30 x)]

theorem remsi_30 (x : BitVec 32) : IntOp.remsi .host x 30#32 = x.srem 30#32 := by
  unfold IntOp.remsi; rw [if_neg (not_corner_30 x)]

/-- The truncated quotient of a nonnegative word by 30 reads as the floor quotient. -/
theorem toInt_sdiv_30 (x : BitVec 32) (h0 : 0 ≤ x.toInt) : (x.sdiv 30#32).toInt = x.toInt / 30 := by
  rw [BitVec.toInt_sdiv_of_ne_or_ne x 30#32 (Or.inr (by decide)), toInt_30]
  exact Int.tdiv_eq_ediv_of_nonneg h0

/-- The truncated remainder of a nonnegative word by 30 reads as the floor remainder. -/
theorem toInt_srem_30 (x : BitVec 32) (h0 : 0 ≤ x.toInt) : (x.srem 30#32).toInt = x.toInt % 30 := by
  rw [BitVec.toInt_srem, toInt_30]
  exact Int.tmod_eq_emod_of_nonneg h0

/-- On a nonnegative word the quotient's correction never fires: the word reads as the quotient. -/
theorem fdW_toInt (x : BitVec 32) (h0 : 0 ≤ x.toInt) : (fdW x).toInt = x.toInt / 30 := by
  have hsel : IntOp.andi (IntOp.cmpi .ne (sgnW x) (sgnW 30#32)) (IntOp.cmpi .ne (x.srem 30#32) 0#32) = 0#1 := by
    by_cases hx : x = 0
    · subst hx; decide
    · have hm : x.msb = false := by
        rw [BitVec.msb_eq_toInt]
        exact decide_eq_false (by omega)
      have hs : sgnW x = sgnW 30#32 := by
        unfold sgnW; rw [if_neg hx, hm]; decide
      rw [hs]
      unfold IntOp.andi IntOp.cmpi
      simp
  unfold fdW
  rw [remsi_30, divsi_30, hsel]
  unfold Scalar.select
  rw [if_neg (by decide)]
  exact toInt_sdiv_30 x h0

/-- On a nonnegative word the remainder's correction never fires: the word reads as the remainder. -/
theorem rmW_toInt (x : BitVec 32) (h0 : 0 ≤ x.toInt) : (rmW x).toInt = x.toInt % 30 := by
  have hr := toInt_srem_30 x h0
  have hlt : IntOp.cmpi .slt (x.srem 30#32) 0#32 = 0#1 := by
    unfold IntOp.cmpi
    have : (x.srem 30#32).slt 0#32 = false := by
      rw [BitVec.slt_eq_decide, BitVec.toInt_zero]
      exact decide_eq_false (by omega)
    simp only [this]
    rfl
  unfold rmW
  rw [d30W_eq, remsi_30, hlt]
  have h2 : IntOp.andi (IntOp.cmpi .ne (0#1 : BitVec 1) (IntOp.cmpi .slt (30#32 : BitVec 32) 0#32)) (IntOp.cmpi .ne (x.srem 30#32) 0#32) = 0#1 := by
    have : IntOp.cmpi .ne (0#1 : BitVec 1) (IntOp.cmpi .slt (30#32 : BitVec 32) 0#32) = 0#1 := by decide
    rw [this]; unfold IntOp.andi; simp
  rw [h2]
  unfold Scalar.select
  rw [if_neg (by decide)]
  exact hr

/-- The compare of two words is one exactly when their signed readings agree. -/
theorem cmpi_eq_one_iff (a b : BitVec 32) : IntOp.cmpi .eq a b = 1 ↔ a.toInt = b.toInt := by
  unfold IntOp.cmpi
  rw [BitVec.toInt_inj]
  show BitVec.ofBool (a == b) = 1 ↔ a = b
  rw [Idealize.ShloMosaic.WordArith.ofBool_eq_numeral_one_iff]
  exact beq_iff_eq

/-- The flat position does not overflow: it reads as the integers' combination. -/
theorem segW_toInt (q r r' : BitVec 32) (hq0 : 0 ≤ q.toInt) (hq1 : q.toInt < 1000) (hr0 : 0 ≤ r.toInt) (hr1 : r.toInt < 30)
    (hs0 : 0 ≤ r'.toInt) (hs1 : r'.toInt < 30) : (segW q r r').toInt = q.toInt * 900 + r.toInt * 30 + r'.toInt := by
  have e900 : (900#32 : BitVec 32).toInt = 900 := by decide
  have h1 : (q * 900#32).toInt = q.toInt * 900 := by
    rw [Idealize.ShloMosaic.WordArith.toInt_mul_of_bounds q 900#32 (by rw [e900]; omega) (by rw [e900]; omega), e900]
  have h2 : (r * 30#32).toInt = r.toInt * 30 := by
    rw [Idealize.ShloMosaic.WordArith.toInt_mul_of_bounds r 30#32 (by rw [toInt_30]; omega) (by rw [toInt_30]; omega), toInt_30]
  have h3 : (q * 900#32 + r * 30#32).toInt = q.toInt * 900 + r.toInt * 30 := by
    rw [Idealize.ShloMosaic.WordArith.toInt_add_of_bounds _ _ (by rw [h1, h2]; omega) (by rw [h1, h2]; omega), h1, h2]
  show (q * 900#32 + r * 30#32 + r').toInt = _
  rw [Idealize.ShloMosaic.WordArith.toInt_add_of_bounds _ _ (by rw [h3]; omega) (by rw [h3]; omega), h3]

/-! ## The words of two nodes: block test and flat position -/

/-- The two quotients agree as words exactly when the two nodes lie in one block of 30. -/
theorem keep_iff (ws wt : BitVec 32) (hs0 : 0 ≤ ws.toInt) (hs1 : ws.toInt < 30000) (ht0 : 0 ≤ wt.toInt) (ht1 : wt.toInt < 30000) :
    IntOp.cmpi .eq (fdW ws) (fdW wt) = 1 ↔ (nodeOf ws).val / 30 = (nodeOf wt).val / 30 := by
  have es := toInt_eq_nodeOf ws hs0 hs1
  have et := toInt_eq_nodeOf wt ht0 ht1
  rw [cmpi_eq_one_iff, fdW_toInt ws hs0, fdW_toInt wt ht0]
  omega

/-- The flat position word of an edge reads as the position of its two nodes. -/
theorem seg_toInt (ws wt : BitVec 32) (hs0 : 0 ≤ ws.toInt) (hs1 : ws.toInt < 30000) (ht0 : 0 ≤ wt.toInt) (ht1 : wt.toInt < 30000) :
    (segW (fdW wt) (rmW wt) (rmW ws)).toInt
      = (((nodeOf wt).val / 30 * 900 + (nodeOf wt).val % 30 * 30 + (nodeOf ws).val % 30 : ℕ) : ℤ) := by
  have es := toInt_eq_nodeOf ws hs0 hs1
  have et := toInt_eq_nodeOf wt ht0 ht1
  have hq := fdW_toInt wt ht0
  have hr := rmW_toInt wt ht0
  have hr' := rmW_toInt ws hs0
  rw [segW_toInt _ _ _ (by omega) (by omega) (by omega) (by omega) (by omega) (by omega), hq, hr, hr']
  omega

variable [Facts]

/-! ## The stretch as functions of the edge list and of the weights before the drop -/

/-- A scalar spread over the 34000 edges. -/
def kB {α : Type} (v : S_.Idx → α) : S34000.Idx → α := broadcastInDim S34000 ![] Facts₀.bcast_S_S34000 v

/-- The divisor 30. -/
def kC30 : IVec S_ 32 := constantI S_ 32 30#32

/-- The divisor the remainder uses: one where the divisor is zero, the divisor otherwise. -/
def kD30 : IVec S_ 32 := select (cmpi .eq kC30 (constantI S_ 32 0#32)) (constantI S_ 32 1#32) kC30

/-- The sources of the edges: row 0 of the edge list. -/
def kS (a1 : IVec S2x34000 32) : IVec S34000 32 :=
  shapeCast S34000 (extractStridedSlice S1x34000 ![0, 0] a1 Facts₀.slices_S2x34000_S1x34000_0_0) Facts₀.shapeCasts_S1x34000_S34000

/-- The targets of the edges: row 1 of the edge list. -/
def kT (a1 : IVec S2x34000 32) : IVec S34000 32 :=
  shapeCast S34000 (extractStridedSlice S1x34000 ![1, 0] a1 Facts₀.slices_S2x34000_S1x34000_1_0) Facts₀.shapeCasts_S1x34000_S34000

/-- The floor quotient by 30 of every entry: the truncated quotient, less one where the signs differ and the remainder is not zero. -/
def kFd (x : IVec S34000 32) : IVec S34000 32 :=
  select (andi (cmpi .ne (signi x) (kB (signi kC30))) (cmpi .ne (Host.remsi x (kB kC30)) (kB (constantI S_ 32 0#32))))
    (subi (Host.divsi x (kB kC30)) (kB (constantI S_ 32 1#32))) (Host.divsi x (kB kC30))

/-- The floor remainder by 30 of every entry: the truncated remainder, plus the divisor where it is not zero and its sign differs from the divisor's. -/
def kRm (x : IVec S34000 32) : IVec S34000 32 :=
  select (andi (cmpi .ne (cmpi .slt (Host.remsi x (kB kD30)) (kB (constantI S_ 32 0#32))) (kB (cmpi .slt kD30 (constantI S_ 32 0#32))))
      (cmpi .ne (Host.remsi x (kB kD30)) (kB (constantI S_ 32 0#32))))
    (addi (Host.remsi x (kB kD30)) (kB kD30)) (Host.remsi x (kB kD30))

/-- Whether an edge stays in its block: the two ends' quotients agree. -/
def kKeep (a1 : IVec S2x34000 32) : IVec S34000 1 := cmpi .eq (kFd (kS a1)) (kFd (kT a1))

/-- The flat position of an edge. -/
def kSeg (a1 : IVec S2x34000 32) : IVec S34000 32 :=
  addi (addi (muli (kFd (kT a1)) (kB (constantI S_ 32 900#32))) (muli (kRm (kT a1)) (kB (constantI S_ 32 30#32)))) (kRm (kS a1))

/-- The kept weights. -/
def kNorm (a1 : IVec S2x34000 32) (w : Vec Ideal S34000 .f32) : Vec Ideal S34000 .f32 :=
  select (kKeep a1) w (kB (constant (F := Ideal) S_ .f32 0x00000000#32))

/-- The flat table: the segment sum of the kept weights over the flat positions. -/
def kFlat (a1 : IVec S2x34000 32) (w : Vec Ideal S34000 .f32) : Vec Ideal S900000 .f32 :=
  Host.scatterAdd (F := Ideal) scatter_S900000_S34000x1_S34000_n_0_0_1
    (broadcastInDim S900000 ![] Facts₀.bcast_S_S900000 (constant (F := Ideal) S_ .f32 0x00000000#32))
    (broadcastInDim S34000x1 ![0] Facts₀.bcast_S34000_S34000x1_0 (kSeg a1))
    (kNorm a1 w)

/-! ## The stretch read at an edge -/

theorem kS_apply (a1 : IVec S2x34000 32) (e : Fin 34000) : kS a1 (ix1 e) = a1 (ix2 (0 : Fin 2) e) := by
  unfold kS
  refine (shapeCast_apply _ Facts₀.shapeCasts_S1x34000_S34000 (ix1 e) (ix2 (0 : Fin 1) e) ?_).trans ?_
  · rewrite [Shape.rowMajor_val_two, Shape.rowMajor_val_one]
    show 0 * 34000 + e.val = e.val
    omega
  · exact extractStridedSlice_apply ![0, 0] a1 Facts₀.slices_S2x34000_S1x34000_0_0 (ix2 (0 : Fin 1) e) (ix2 (0 : Fin 2) e)
      (fun a => match a with
        | ⟨0, _⟩ => by show (0 : ℕ) = 0 + 0; omega
        | ⟨1, _⟩ => by show e.val = 0 + e.val; omega)

theorem kT_apply (a1 : IVec S2x34000 32) (e : Fin 34000) : kT a1 (ix1 e) = a1 (ix2 (1 : Fin 2) e) := by
  unfold kT
  refine (shapeCast_apply _ Facts₀.shapeCasts_S1x34000_S34000 (ix1 e) (ix2 (0 : Fin 1) e) ?_).trans ?_
  · rewrite [Shape.rowMajor_val_two, Shape.rowMajor_val_one]
    show 0 * 34000 + e.val = e.val
    omega
  · exact extractStridedSlice_apply ![1, 0] a1 Facts₀.slices_S2x34000_S1x34000_1_0 (ix2 (0 : Fin 1) e) (ix2 (1 : Fin 2) e)
      (fun a => match a with
        | ⟨0, _⟩ => by show (1 : ℕ) = 1 + 0; omega
        | ⟨1, _⟩ => by show e.val = 0 + e.val; omega)

/-- Every stage acts entry by entry. -/
theorem kFd_apply (x : IVec S34000 32) (j : S34000.Idx) : kFd x j = fdW (x j) := rfl
theorem kRm_apply (x : IVec S34000 32) (j : S34000.Idx) : kRm x j = rmW (x j) := rfl
theorem kKeep_apply (a1 : IVec S2x34000 32) (j : S34000.Idx) :
    kKeep a1 j = IntOp.cmpi .eq (fdW (kS a1 j)) (fdW (kT a1 j)) := rfl
theorem kSeg_apply (a1 : IVec S2x34000 32) (j : S34000.Idx) :
    kSeg a1 j = segW (fdW (kT a1 j)) (rmW (kT a1 j)) (rmW (kS a1 j)) := rfl
theorem kNorm_apply (a1 : IVec S2x34000 32) (w : Vec Ideal S34000 .f32) (j : S34000.Idx) :
    kNorm a1 w j = if kKeep a1 j = 1 then w j else Ideal.ofBits .f32 0x00000000#32 := rfl

/-- The flat table at `i`, for an edge list of node words and any weights that are products over the two ends. -/
theorem kFlat_apply (a1 : IVec S2x34000 32) (w : Vec Ideal S34000 .f32)
    (hr : ∀ i : (⟨2, ![2, 34000]⟩ : Shape).Idx, 0 ≤ (a1 i).toInt ∧ (a1 i).toInt < 30000)
    (s t : Fin 34000 → Fin 30000) (hs : ∀ e, s e = nodeOf (a1 (ix2 (0 : Fin 2) e))) (ht : ∀ e, t e = nodeOf (a1 (ix2 (1 : Fin 2) e)))
    (dv : Fin 30000 → EReal) (hw : ∀ e, w (ix1 e) = dv (s e) * dv (t e)) (i : Fin 900000) :
    kFlat a1 w (ix1 i)
      = 0 + ∑ e ∈ Finset.univ.filter (fun e : Fin 34000 => (t e).val / 30 * 900 + (t e).val % 30 * 30 + (s e).val % 30 = i.val),
          (if (s e).val / 30 = (t e).val / 30 then dv (s e) * dv (t e) else 0) := by
  unfold kFlat
  show Ideal.hostScatterAdd (Cert.LibGS.vecScatterDims 900000 34000 Facts₀.scatter_S900000_S34000x1_S34000_n_0_0_1_wf) _ _ _ (ix1 i) = _
  rw [Cert.LibGS.scatterAdd_vec_apply]
  refine congrArg₂ (· + ·) ?_ ?_
  · show Ideal.ofBits .f32 0x00000000#32 = 0
    exact Ideal.ofBits_zero_f32
  · refine Finset.sum_congr (Finset.filter_congr fun e _ => ?_) fun e _ => ?_
    · have hb : broadcastInDim S34000x1 ![0] Facts₀.bcast_S34000_S34000x1_0 (kSeg a1) (ix2 e (0 : Fin 1)) = kSeg a1 (ix1 e) :=
        broadcastInDim_apply _ _ _ _ _ (fun a => by
          obtain rfl : a = 0 := Subsingleton.elim _ _
          show e.val = if (34000 : ℕ) = 1 then 0 else e.val
          rw [if_neg (by decide)])
      rw [hb, kSeg_apply, kT_apply, kS_apply,
        seg_toInt _ _ (hr (ix2 (0 : Fin 2) e)).1 (hr (ix2 (0 : Fin 2) e)).2 (hr (ix2 (1 : Fin 2) e)).1 (hr (ix2 (1 : Fin 2) e)).2,
        ← hs e, ← ht e]
      exact Int.natCast_inj
    · rw [kNorm_apply, kKeep_apply, kT_apply, kS_apply, hw e]
      refine if_congr ?_ rfl Ideal.ofBits_zero_f32
      rw [keep_iff _ _ (hr (ix2 (0 : Fin 2) e)).1 (hr (ix2 (0 : Fin 2) e)).2 (hr (ix2 (1 : Fin 2) e)).1 (hr (ix2 (1 : Fin 2) e)).2, ← hs e, ← ht e]

variable (m : (ℓ : Loc nD τ sig) → Buf (Elt Ideal) ℓ) (c : Dev nD)

/-! ## The table the region finds -/

set_option maxHeartbeats 1000000 in
/-- The flat table as the stretch's function of the edge list and of the weights before the drop. -/
theorem v48_eq : (V m c main_v48 : S900000.Idx → EReal) = kFlat (m ((c.tc : Thread nD τ).loc main_arg1)) (V m c main_v33) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rfl

end Flat

variable [Facts] (m : (ℓ : Loc nD τ sig) → Buf (Elt Ideal) ℓ) (c : Dev nD)

/-- Entry `i` of the flat table the region's block matrices are cut from, before the diagonal is added. -/
theorem flat_value (hok : OkAt m c) (i : Fin 900000) :
    (V m c main_v48 : S900000.Idx → EReal) (ix1 i) = flatK (dOf m c) i := by
  refine (congrFun (Flat.v48_eq m c) (ix1 i)).trans ?_
  exact Flat.kFlat_apply _ _ hok.range (dOf m c).s (dOf m c).t (fun e => rfl) (fun e => rfl) (dinv (dOf m c)) (norm0_value m c hok) i

end Cert.Gcn.Ker

end
-- ==== Proof.LibScatterSet.lean ====
/-
  A host scatter whose body keeps the update (`operand.at[window].set(update)`), read at an element, when no two
  updates land on the same element: an element some update lands on holds that update, every other element keeps
  the operand's entry.
-/
import Idealize.ShloMosaic.PureOps

noncomputable section

namespace Cert.LibScatterSet

open Idealize.ShloMosaic

variable {α : Type} {s si u : Shape} {w : Nat}

/-- One step of the scatter's fold: the update at row-major position `n` replaces the element it lands on, and is
    dropped when it lands outside the operand. -/
private def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter keeping the update is the left fold of `step` over the update positions in row-major order. -/
private theorem scatter_eq_foldl (d : ScatterDims s si u) (x : s.Idx → α) (idx : IVec si w) (upd : u.Idx → α) :
    Host.scatter d (fun _ b => b) x idx upd = (List.finRange u.numel).foldl (step d idx upd) x := rfl

/-- A step whose update lands on `k`, read at an element. -/
private theorem step_some (d : ScatterDims s si u) (idx : IVec si w) (upd : u.Idx → α) (r : s.Idx → α)
    (n : Fin u.numel) (k : s.Idx) (h : d.resultIdx? (u.rowMajor.symm n) idx = some k) (i' : s.Idx) :
    step d idx upd r n i' = if i' = k then upd (u.rowMajor.symm n) else r i' := by
  simp only [step, h]

/-- A step whose update lands outside the operand changes nothing. -/
private theorem step_none (d : ScatterDims s si u) (idx : IVec si w) (upd : u.Idx → α) (r : s.Idx → α)
    (n : Fin u.numel) (h : d.resultIdx? (u.rowMajor.symm n) idx = none) :
    step d idx upd r n = r := by
  simp only [step, h]

/-- A step whose update does not land on `i` keeps the entry at `i`. -/
private theorem step_miss (d : ScatterDims s si u) (idx : IVec si w) (upd : u.Idx → α) (r : s.Idx → α)
    (n : Fin u.numel) (i : s.Idx) (h : d.resultIdx? (u.rowMajor.symm n) idx ≠ some i) :
    step d idx upd r n i = r i := by
  cases hk : d.resultIdx? (u.rowMajor.symm n) idx with
  | none => rw [step_none d idx upd r n hk]
  | some k =>
    rw [step_some d idx upd r n k hk]
    have hne : i ≠ k := fun e => h (by rw [hk, e])
    exact if_neg hne

/-- A step whose update lands on `i` puts the update at `i`. -/
private theorem step_hit (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  rw [step_some d idx upd r n i h]
  exact if_pos rfl

/-- A partial fold none of whose updates lands on `i` keeps the starting entry at `i`. -/
private theorem foldl_miss (d : ScatterDims s si u) (idx : IVec si w) (upd : u.Idx → α) (i : s.Idx)
    (L : List (Fin u.numel)) (x : s.Idx → α)
    (hno : ∀ n ∈ L, d.resultIdx? (u.rowMajor.symm n) idx ≠ some i) :
    L.foldl (step d idx upd) x i = x i := by
  induction L generalizing x with
  | nil => rfl
  | cons m L ih =>
    rw [List.foldl_cons, ih _ (fun n hn => hno n (List.mem_cons_of_mem _ hn))]
    exact step_miss d idx upd x m i (hno m (List.mem_cons_self ..))

/-- A partial fold in which update position `n` lands on `i`, and is the only one that does, holds that update
    at `i`: the steps before it are overwritten, the steps after it miss `i`. -/
private theorem foldl_hit (d : ScatterDims s si u) (idx : IVec si w) (upd : u.Idx → α) (i : s.Idx)
    (n : Fin u.numel) (hn : d.resultIdx? (u.rowMajor.symm n) idx = some i)
    (L : List (Fin u.numel)) (x : s.Idx → α) (hmem : n ∈ L)
    (huniq : ∀ n' ∈ L, d.resultIdx? (u.rowMajor.symm n') idx = some i → n' = n) :
    L.foldl (step d idx upd) x i = upd (u.rowMajor.symm n) := by
  induction L generalizing x with
  | nil => exact absurd hmem (List.not_mem_nil)
  | cons m L ih =>
    rw [List.foldl_cons]
    by_cases hL : n ∈ L
    · exact ih _ hL (fun n' hn' => huniq n' (List.mem_cons_of_mem _ hn'))
    · have hm : n = m := by
        rcases List.mem_cons.mp hmem with e | e
        · exact e
        · exact absurd e hL
      subst hm
      rw [foldl_miss d idx upd i L _ (fun n' hn' e => hL (huniq n' (List.mem_cons_of_mem _ hn') e ▸ hn'))]
      exact step_hit d idx upd x n i hn

/-- An element that update `j` lands on, and no other update does, holds `upd j`. -/
theorem scatter_set_hit (d : ScatterDims s si u) (x : s.Idx → α) (idx : IVec si w) (upd : u.Idx → α) (i : s.Idx)
    (j : u.Idx) (hj : d.resultIdx? j idx = some i)
    (huniq : ∀ j', d.resultIdx? j' idx = some i → j' = j) :
    Host.scatter d (fun _ b => b) x idx upd i = upd j := by
  rw [scatter_eq_foldl]
  have hsymm : u.rowMajor.symm (u.rowMajor j) = j := Equiv.symm_apply_apply _ j
  have h := foldl_hit d idx upd i (u.rowMajor j) (by rw [hsymm]; exact hj) (List.finRange u.numel) x
    (List.mem_finRange _)
    (fun n' _ e => by
      have := huniq _ e
      rw [← this]
      exact (Equiv.apply_symm_apply _ n').symm)
  rw [h, hsymm]

/-- An element no update lands on keeps the operand's entry. -/
theorem scatter_set_miss (d : ScatterDims s si u) (x : s.Idx → α) (idx : IVec si w) (upd : u.Idx → α) (i : s.Idx)
    (hno : ∀ j, d.resultIdx? j idx ≠ some i) :
    Host.scatter d (fun _ b => b) x idx upd i = x i := by
  rw [scatter_eq_foldl]
  exact foldl_miss d idx upd i (List.finRange u.numel) x (fun n _ => hno _)

end Cert.LibScatterSet

end
-- ==== Proof.KerHostB.lean ====
/-
  The kernel's host program read at an index, second half: the block matrices (the flat table reshaped, the self
  loops added on each block's diagonal) and the three zero-padded weight arrays, as the region finds them.
-/
import proofs.«424383_j28647431864457_3_alg».proof.Proof.Gen.KernelIdeal.Frame
import proofs.«424383_j28647431864457_3_alg».proof.Proof.KerDecode
import proofs.«424383_j28647431864457_3_alg».proof.Proof.KerHostA
import proofs.«424383_j28647431864457_3_alg».proof.Proof.LibScatterSet
import Idealize.ShloMosaic.PureOps.Ideal.Laws
import Idealize.ShloMosaic.Lib.ValueIdx
import Idealize.ShloMosaic.Lib.Pipeline.Value
import Idealize.ShloMosaic.Lib.StableHlo.Run

noncomputable section

open scoped BigOperators

namespace Cert.Gcn.Ker

open Cert.KernelIdeal Cert.KernelIdeal.Facts₀ Cert.KernelIdeal.Facts Cert.KernelIdeal.Gen Idealize.ShloMosaic Idealize.ShloMosaic.TcCoe Idealize.ShloMosaic.ValueIdx Idealize.SL.Sem

variable [Facts] (m : (ℓ : Loc nD τ sig) → Buf (Elt Ideal) ℓ) (c : Dev nD)

/-! ## Scatters whose start words are all zero -/

/-- When every start word is zero, every window starts at the origin. -/
private theorem start_zero {s si u : Shape} (d : ScatterDims s si u) (idx : IVec si 32) (hidx : ∀ i, idx i = 0#32)
    (j : u.Idx) (a : Fin s.rank) : d.start j idx a = 0 := by
  unfold ScatterDims.start
  split
  · rw [hidx]; rfl
  · rfl

/-- The one start word of the three pads is zero. -/
private theorem padIdx_apply (i : S1.Idx) :
    (broadcastInDim S1 ![] Facts₀.bcast_S_S1 (constantI S_ 32 0#32) : IVec S1 32) i = 0#32 := rfl

/-- The pads' operand is zero everywhere. -/
private theorem zeros_apply {t : Shape} (h : S_.BroadcastsInDim t (![] : Fin 0 → Fin t.rank)) (i : t.Idx) :
    (broadcastInDim t ![] h (constant (F := Ideal) S_ .f32 0x00000000#32) : t.Idx → EReal) i = 0 :=
  Ideal.ofBits_zero_f32

/-! ## The layer-2 weights' pad: [8, 3000] set into [8, 3072] at column 0 -/

private theorem w2_window0 (j : S8x3000.Idx) :
    scatter_S8x3072_S1_S8x3000_01_n_1_0.window j 0 = (j 0).val := by
  unfold ScatterDims.window
  have hm : (0 : Fin S8x3072.rank) ∈ scatter_S8x3072_S1_S8x3000_01_n_1_0.sKept := by
    show (0 : Fin 2) ∈ (List.finRange 2).filter (fun a => a ∉ ([] : List (Fin 2)))
    decide
  rw [dif_pos hm]
  rfl

private theorem w2_window1 (j : S8x3000.Idx) :
    scatter_S8x3072_S1_S8x3000_01_n_1_0.window j 1 = (j 1).val := by
  unfold ScatterDims.window
  have hm : (1 : Fin S8x3072.rank) ∈ scatter_S8x3072_S1_S8x3000_01_n_1_0.sKept := by
    show (1 : Fin 2) ∈ (List.finRange 2).filter (fun a => a ∉ ([] : List (Fin 2)))
    decide
  rw [dif_pos hm]
  rfl

/-- Update (k', c') lands on element (k, cc) exactly when k' = k and c' = cc. -/
private theorem w2_lands (idx : IVec S1 32) (hidx : ∀ i, idx i = 0#32) (j : S8x3000.Idx) (k : Fin 8) (cc : Fin 3072) :
    scatter_S8x3072_S1_S8x3000_01_n_1_0.resultIdx? j idx = some (ix2 k cc)
      ↔ (j 0).val = k.val ∧ (j 1).val = cc.val := by
  rw [Cert.LibGS.resultIdx?_eq_some_iff]
  constructor
  · intro h
    have h0 : scatter_S8x3072_S1_S8x3000_01_n_1_0.start j idx 0
        + ((scatter_S8x3072_S1_S8x3000_01_n_1_0.window j 0 : ℕ) : ℤ) = (k.val : ℤ) := h 0
    have h1 : scatter_S8x3072_S1_S8x3000_01_n_1_0.start j idx 1
        + ((scatter_S8x3072_S1_S8x3000_01_n_1_0.window j 1 : ℕ) : ℤ) = (cc.val : ℤ) := h 1
    rw [start_zero _ idx hidx, w2_window0] at h0
    rw [start_zero _ idx hidx, w2_window1] at h1
    constructor <;> omega
  · rintro ⟨h0, h1⟩ a
    match a with
    | ⟨0, _⟩ =>
      show scatter_S8x3072_S1_S8x3000_01_n_1_0.start j idx 0
        + ((scatter_S8x3072_S1_S8x3000_01_n_1_0.window j 0 : ℕ) : ℤ) = (k.val : ℤ)
      rw [start_zero _ idx hidx, w2_window0]
      omega
    | ⟨1, _⟩ =>
      show scatter_S8x3072_S1_S8x3000_01_n_1_0.start j idx 1
        + ((scatter_S8x3072_S1_S8x3000_01_n_1_0.window j 1 : ℕ) : ℤ) = (cc.val : ℤ)
      rw [start_zero _ idx hidx, w2_window1]
      omega

/-- The pad read at (k, cc): the array's entry below column 3000, the operand's entry from there on. -/
private theorem w2_pad (x : S8x3072.Idx → EReal) (idx : IVec S1 32) (hidx : ∀ i, idx i = 0#32) (upd : S8x3000.Idx → EReal)
    (k : Fin 8) (cc : Fin 3072) :
    Host.scatter scatter_S8x3072_S1_S8x3000_01_n_1_0 (fun _ b => b) x idx upd (ix2 k cc)
      = if h : cc.val < 3000 then upd (ix2 k ⟨cc.val, h⟩) else x (ix2 k cc) := by
  by_cases h : cc.val < 3000
  · rw [dif_pos h]
    refine Cert.LibScatterSet.scatter_set_hit _ x idx upd (ix2 k cc) (ix2 k ⟨cc.val, h⟩) ?_ ?_
    · exact (w2_lands idx hidx _ k cc).2 ⟨rfl, rfl⟩
    · intro j' hj'
      obtain ⟨h0, h1⟩ := (w2_lands idx hidx j' k cc).1 hj'
      funext a
      match a with
      | ⟨0, _⟩ => exact Fin.ext h0
      | ⟨1, _⟩ => exact Fin.ext h1
  · rw [dif_neg h]
    refine Cert.LibScatterSet.scatter_set_miss _ x idx upd (ix2 k cc) ?_
    intro j hj
    obtain ⟨_, h1⟩ := (w2_lands idx hidx j k cc).1 hj
    have hlt : (j 1).val < 3000 := (j 1).isLt
    omega

/-! ## The layer-2 bias's pad: [3000] set into [3072] at position 0 -/

private theorem b2_window0 (j : S3000.Idx) : scatter_S3072_S1_S3000_0_n_0_0.window j 0 = (j 0).val := by
  unfold ScatterDims.window
  have hm : (0 : Fin S3072.rank) ∈ scatter_S3072_S1_S3000_0_n_0_0.sKept := by
    show (0 : Fin 1) ∈ (List.finRange 1).filter (fun a => a ∉ ([] : List (Fin 1)))
    decide
  rw [dif_pos hm]
  rfl

/-- Update c' lands on element cc exactly when c' = cc. -/
private theorem b2_lands (idx : IVec S1 32) (hidx : ∀ i, idx i = 0#32) (j : S3000.Idx) (cc : Fin 3072) :
    scatter_S3072_S1_S3000_0_n_0_0.resultIdx? j idx = some (ix1 cc) ↔ (j 0).val = cc.val := by
  rw [Cert.LibGS.resultIdx?_eq_some_iff]
  constructor
  · intro h
    have h0 : scatter_S3072_S1_S3000_0_n_0_0.start j idx 0
        + ((scatter_S3072_S1_S3000_0_n_0_0.window j 0 : ℕ) : ℤ) = (cc.val : ℤ) := h 0
    rw [start_zero _ idx hidx, b2_window0] at h0
    omega
  · intro h0 a
    match a with
    | ⟨0, _⟩ =>
      show scatter_S3072_S1_S3000_0_n_0_0.start j idx 0
        + ((scatter_S3072_S1_S3000_0_n_0_0.window j 0 : ℕ) : ℤ) = (cc.val : ℤ)
      rw [start_zero _ idx hidx, b2_window0]
      omega

/-- The pad read at cc: the array's entry below 3000, the operand's entry from there on. -/
private theorem b2_pad (x : S3072.Idx → EReal) (idx : IVec S1 32) (hidx : ∀ i, idx i = 0#32) (upd : S3000.Idx → EReal)
    (cc : Fin 3072) :
    Host.scatter scatter_S3072_S1_S3000_0_n_0_0 (fun _ b => b) x idx upd (ix1 cc)
      = if h : cc.val < 3000 then upd (ix1 ⟨cc.val, h⟩) else x (ix1 cc) := by
  by_cases h : cc.val < 3000
  · rw [dif_pos h]
    refine Cert.LibScatterSet.scatter_set_hit _ x idx upd (ix1 cc) (ix1 ⟨cc.val, h⟩) ?_ ?_
    · exact (b2_lands idx hidx _ cc).2 rfl
    · intro j' hj'
      have h0 := (b2_lands idx hidx j' cc).1 hj'
      funext a
      match a with
      | ⟨0, _⟩ => exact Fin.ext h0
  · rw [dif_neg h]
    refine Cert.LibScatterSet.scatter_set_miss _ x idx upd (ix1 cc) ?_
    intro j hj
    have h0 := (b2_lands idx hidx j cc).1 hj
    have hlt : (j 0).val < 3000 := (j 0).isLt
    omega

/-! ## The dense weights' pad: [3000, 30] set into [3072, 30] at row 0 -/

private theorem wl1_window0 (j : S3000x30.Idx) :
    scatter_S3072x30_S1_S3000x30_01_n_0_0.window j 0 = (j 0).val := by
  unfold ScatterDims.window
  have hm : (0 : Fin S3072x30.rank) ∈ scatter_S3072x30_S1_S3000x30_01_n_0_0.sKept := by
    show (0 : Fin 2) ∈ (List.finRange 2).filter (fun a => a ∉ ([] : List (Fin 2)))
    decide
  rw [dif_pos hm]
  rfl

private theorem wl1_window1 (j : S3000x30.Idx) :
    scatter_S3072x30_S1_S3000x30_01_n_0_0.window j 1 = (j 1).val := by
  unfold ScatterDims.window
  have hm : (1 : Fin S3072x30.rank) ∈ scatter_S3072x30_S1_S3000x30_01_n_0_0.sKept := by
    show (1 : Fin 2) ∈ (List.finRange 2).filter (fun a => a ∉ ([] : List (Fin 2)))
    decide
  rw [dif_pos hm]
  rfl

/-- Update (c', q') lands on element (cc, q) exactly when c' = cc and q' = q. -/
private theorem wl1_lands (idx : IVec S1 32) (hidx : ∀ i, idx i = 0#32) (j : S3000x30.Idx) (cc : Fin 3072) (q : Fin 30) :
    scatter_S3072x30_S1_S3000x30_01_n_0_0.resultIdx? j idx = some (ix2 cc q)
      ↔ (j 0).val = cc.val ∧ (j 1).val = q.val := by
  rw [Cert.LibGS.resultIdx?_eq_some_iff]
  constructor
  · intro h
    have h0 : scatter_S3072x30_S1_S3000x30_01_n_0_0.start j idx 0
        + ((scatter_S3072x30_S1_S3000x30_01_n_0_0.window j 0 : ℕ) : ℤ) = (cc.val : ℤ) := h 0
    have h1 : scatter_S3072x30_S1_S3000x30_01_n_0_0.start j idx 1
        + ((scatter_S3072x30_S1_S3000x30_01_n_0_0.window j 1 : ℕ) : ℤ) = (q.val : ℤ) := h 1
    rw [start_zero _ idx hidx, wl1_window0] at h0
    rw [start_zero _ idx hidx, wl1_window1] at h1
    constructor <;> omega
  · rintro ⟨h0, h1⟩ a
    match a with
    | ⟨0, _⟩ =>
      show scatter_S3072x30_S1_S3000x30_01_n_0_0.start j idx 0
        + ((scatter_S3072x30_S1_S3000x30_01_n_0_0.window j 0 : ℕ) : ℤ) = (cc.val : ℤ)
      rw [start_zero _ idx hidx, wl1_window0]
      omega
    | ⟨1, _⟩ =>
      show scatter_S3072x30_S1_S3000x30_01_n_0_0.start j idx 1
        + ((scatter_S3072x30_S1_S3000x30_01_n_0_0.window j 1 : ℕ) : ℤ) = (q.val : ℤ)
      rw [start_zero _ idx hidx, wl1_window1]
      omega

/-- The pad read at (cc, q): the array's entry below row 3000, the operand's entry from there on. -/
private theorem wl1_pad (x : S3072x30.Idx → EReal) (idx : IVec S1 32) (hidx : ∀ i, idx i = 0#32)
    (upd : S3000x30.Idx → EReal) (cc : Fin 3072) (q : Fin 30) :
    Host.scatter scatter_S3072x30_S1_S3000x30_01_n_0_0 (fun _ b => b) x idx upd (ix2 cc q)
      = if h : cc.val < 3000 then upd (ix2 ⟨cc.val, h⟩ q) else x (ix2 cc q) := by
  by_cases h : cc.val < 3000
  · rw [dif_pos h]
    refine Cert.LibScatterSet.scatter_set_hit _ x idx upd (ix2 cc q) (ix2 ⟨cc.val, h⟩ q) ?_ ?_
    · exact (wl1_lands idx hidx _ cc q).2 ⟨rfl, rfl⟩
    · intro j' hj'
      obtain ⟨h0, h1⟩ := (wl1_lands idx hidx j' cc q).1 hj'
      funext a
      match a with
      | ⟨0, _⟩ => exact Fin.ext h0
      | ⟨1, _⟩ => exact Fin.ext h1
  · rw [dif_neg h]
    refine Cert.LibScatterSet.scatter_set_miss _ x idx upd (ix2 cc q) ?_
    intro j hj
    obtain ⟨h0, _⟩ := (wl1_lands idx hidx j cc q).1 hj
    have hlt : (j 0).val < 3000 := (j 0).isLt
    omega

/-! ## The diagonal: row j of the index array is (j, j), and update (b', j) is added at (b', j, j) -/

/-- A position below 30 as an index word, normalised as indexing does (a negative word would have 30 added): itself. -/
private theorem norm_word : ∀ jj : Fin 30,
    Scalar.select (IntOp.cmpi .slt (BitVec.ofNat 32 jj.val) 0#32) (IntOp.addi (BitVec.ofNat 32 jj.val) 30#32)
      (BitVec.ofNat 32 jj.val) = BitVec.ofNat 32 jj.val := by decide

/-- A position below 30 as an index word reads signed as itself. -/
private theorem word_toInt : ∀ jj : Fin 30, (BitVec.ofNat 32 jj.val).toInt = (jj.val : ℤ) := by decide

/-- The positions 0 … 29 as index words, normalised. -/
private def iotaN : IVec S30 32 :=
  select (cmpi .slt (iotaInDim S30 32 0) (broadcastInDim S30 ![] Facts₀.bcast_S_S30 (constantI S_ 32 0#32)))
    (addi (iotaInDim S30 32 0) (broadcastInDim S30 ![] Facts₀.bcast_S_S30 (constantI S_ 32 30#32)))
    (iotaInDim S30 32 0)

private theorem iotaN_apply (jj : Fin 30) : iotaN (ix1 jj) = BitVec.ofNat 32 jj.val := norm_word jj

/-- The index array: two copies of the positions side by side. -/
private def diagIdx : IVec S30x2 32 :=
  concatenate S30x2 1 [⟨S30x1, broadcastInDim S30x1 ![0] Facts₀.bcast_S30_S30x1_0 iotaN⟩,
    ⟨S30x1, broadcastInDim S30x1 ![0] Facts₀.bcast_S30_S30x1_0 iotaN⟩] Facts₀.concatenates_S30x1_S30x1_S30x2_d1

/-- A vector broadcast to a one-column matrix, read at (jj, 0). -/
private theorem col_apply (x : IVec S30 32) (jj : Fin 30) :
    (broadcastInDim S30x1 ![0] Facts₀.bcast_S30_S30x1_0 x : IVec S30x1 32) (ix2 jj (0 : Fin 1)) = x (ix1 jj) := by
  refine broadcastInDim_apply (s := S30) (t := S30x1) _ Facts₀.bcast_S30_S30x1_0 x (ix2 jj (0 : Fin 1)) (ix1 jj) ?_
  intro a
  match a with
  | ⟨0, _⟩ => rfl

/-- Two one-column matrices side by side, read at (jj, col): the column's own entry (jj, 0). -/
private theorem pair_apply (x₁ x₂ : IVec S30x1 32) (jj : Fin 30) :
    (concatenate S30x2 1 [⟨S30x1, x₁⟩, ⟨S30x1, x₂⟩] Facts₀.concatenates_S30x1_S30x1_S30x2_d1 : IVec S30x2 32) (ix2 jj (0 : Fin 2))
        = x₁ (ix2 jj (0 : Fin 1))
      ∧ (concatenate S30x2 1 [⟨S30x1, x₁⟩, ⟨S30x1, x₂⟩] Facts₀.concatenates_S30x1_S30x1_S30x2_d1 : IVec S30x2 32) (ix2 jj (1 : Fin 2))
        = x₂ (ix2 jj (0 : Fin 1)) := by
  constructor
  · refine concatenate_pair_apply_left (t := S30x2) (s₁ := S30x1) (s₂ := S30x1) 1 x₁ x₂ Facts₀.concatenates_S30x1_S30x1_S30x2_d1
      (ix2 jj (0 : Fin 2)) rfl (ix2 jj (0 : Fin 1)) ?_
    intro b
    match b with
    | ⟨0, _⟩ => rfl
    | ⟨1, _⟩ => rfl
  · refine concatenate_pair_apply_right (t := S30x2) (s₁ := S30x1) (s₂ := S30x1) 1 x₁ x₂ Facts₀.concatenates_S30x1_S30x1_S30x2_d1
      (ix2 jj (1 : Fin 2)) rfl rfl (ix2 jj (0 : Fin 1)) ?_ ?_
    · intro b hb
      match b with
      | ⟨0, _⟩ => rfl
      | ⟨1, _⟩ => exact absurd rfl hb
    · rfl

/-- Row jj of the index array is (jj, jj). -/
private theorem diagIdx_apply (jj : Fin 30) (col : Fin 2) : diagIdx (ix2 jj col) = BitVec.ofNat 32 jj.val := by
  unfold diagIdx
  match col with
  | ⟨0, _⟩ => exact ((pair_apply _ _ jj).1.trans (col_apply iotaN jj)).trans (iotaN_apply jj)
  | ⟨1, _⟩ => exact ((pair_apply _ _ jj).2.trans (col_apply iotaN jj)).trans (iotaN_apply jj)

private theorem diagIdx_toInt (jj : Fin 30) (col : Fin 2) : (diagIdx (ix2 jj col)).toInt = (jj.val : ℤ) := by
  rw [diagIdx_apply]; exact word_toInt jj

section Diag
variable (idx : IVec S30x2 32) (hidx : ∀ (jj : Fin 30) (col : Fin 2), (idx (ix2 jj col)).toInt = (jj.val : ℤ))
include hidx

/-- The block axis is a window axis: no start there … -/
private theorem dg_start0 (j : S1000x30.Idx) : scatter_S1000x30x30_S30x2_S1000x30_0_12_12_1.start j idx 0 = 0 := by
  unfold ScatterDims.start
  rw [dif_neg]
  show (0 : Fin 3) ∉ [(1 : Fin 3), 2]
  decide

/-- … the row axis starts at the first word of the update's index row … -/
private theorem dg_start1 (j : S1000x30.Idx) :
    scatter_S1000x30x30_S30x2_S1000x30_0_12_12_1.start j idx 1 = ((j 1).val : ℤ) := by
  unfold ScatterDims.start
  have hm : (1 : Fin S1000x30x30.rank) ∈ scatter_S1000x30x30_S30x2_S1000x30_0_12_12_1.scatterDimsToOperandDims := by
    show (1 : Fin 3) ∈ [(1 : Fin 3), 2]
    decide
  rw [dif_pos hm]
  have hsi : scatter_S1000x30x30_S30x2_S1000x30_0_12_12_1.siIdx j
      ⟨List.idxOf (1 : Fin S1000x30x30.rank) scatter_S1000x30x30_S30x2_S1000x30_0_12_12_1.scatterDimsToOperandDims,
        List.idxOf_lt_length_iff.2 hm⟩ = ix2 (j 1) 0 := by
    funext b; refine Fin.ext ?_
    match b with
    | ⟨0, _⟩ => rfl
    | ⟨1, _⟩ => rfl
  exact (congrArg (fun i => (idx i).toInt) hsi).trans (hidx (j 1) 0)

/-- … and the column axis at the second. -/
private theorem dg_start2 (j : S1000x30.Idx) :
    scatter_S1000x30x30_S30x2_S1000x30_0_12_12_1.start j idx 2 = ((j 1).val : ℤ) := by
  unfold ScatterDims.start
  have hm : (2 : Fin S1000x30x30.rank) ∈ scatter_S1000x30x30_S30x2_S1000x30_0_12_12_1.scatterDimsToOperandDims := by
    show (2 : Fin 3) ∈ [(1 : Fin 3), 2]
    decide
  rw [dif_pos hm]
  have hsi : scatter_S1000x30x30_S30x2_S1000x30_0_12_12_1.siIdx j
      ⟨List.idxOf (2 : Fin S1000x30x30.rank) scatter_S1000x30x30_S30x2_S1000x30_0_12_12_1.scatterDimsToOperandDims,
        List.idxOf_lt_length_iff.2 hm⟩ = ix2 (j 1) 1 := by
    funext b; refine Fin.ext ?_
    match b with
    | ⟨0, _⟩ => rfl
    | ⟨1, _⟩ => rfl
  exact (congrArg (fun i => (idx i).toInt) hsi).trans (hidx (j 1) 1)

omit hidx in
/-- The block axis carries the update's block … -/
private theorem dg_window0 (j : S1000x30.Idx) :
    scatter_S1000x30x30_S30x2_S1000x30_0_12_12_1.window j 0 = (j 0).val := by
  unfold ScatterDims.window
  have hm : (0 : Fin S1000x30x30.rank) ∈ scatter_S1000x30x30_S30x2_S1000x30_0_12_12_1.sKept := by
    show (0 : Fin 3) ∈ (List.finRange 3).filter (fun a => a ∉ [(1 : Fin 3), 2])
    decide
  rw [dif_pos hm]
  rfl

omit hidx in
/-- … the row and column axes are inserted: no window coordinate. -/
private theorem dg_window1 (j : S1000x30.Idx) : scatter_S1000x30x30_S30x2_S1000x30_0_12_12_1.window j 1 = 0 := by
  unfold ScatterDims.window
  rw [dif_neg]
  show (1 : Fin 3) ∉ (List.finRange 3).filter (fun a => a ∉ [(1 : Fin 3), 2])
  decide

omit hidx in
private theorem dg_window2 (j : S1000x30.Idx) : scatter_S1000x30x30_S30x2_S1000x30_0_12_12_1.window j 2 = 0 := by
  unfold ScatterDims.window
  rw [dif_neg]
  show (2 : Fin 3) ∉ (List.finRange 3).filter (fun a => a ∉ [(1 : Fin 3), 2])
  decide

/-- Update (b', jj) lands on element (b, u, v) exactly when b' = b and jj = u = v. -/
private theorem dg_lands (j : S1000x30.Idx) (b : Fin 1000) (u v : Fin 30) :
    scatter_S1000x30x30_S30x2_S1000x30_0_12_12_1.resultIdx? j idx = some (ix3 b u v)
      ↔ (j 0).val = b.val ∧ (j 1).val = u.val ∧ (j 1).val = v.val := by
  rw [Cert.LibGS.resultIdx?_eq_some_iff]
  constructor
  · intro h
    have h0 : scatter_S1000x30x30_S30x2_S1000x30_0_12_12_1.start j idx 0
        + ((scatter_S1000x30x30_S30x2_S1000x30_0_12_12_1.window j 0 : ℕ) : ℤ) = (b.val : ℤ) := h 0
    have h1 : scatter_S1000x30x30_S30x2_S1000x30_0_12_12_1.start j idx 1
        + ((scatter_S1000x30x30_S30x2_S1000x30_0_12_12_1.window j 1 : ℕ) : ℤ) = (u.val : ℤ) := h 1
    have h2 : scatter_S1000x30x30_S30x2_S1000x30_0_12_12_1.start j idx 2
        + ((scatter_S1000x30x30_S30x2_S1000x30_0_12_12_1.window j 2 : ℕ) : ℤ) = (v.val : ℤ) := h 2
    rw [dg_start0 idx hidx, dg_window0] at h0
    rw [dg_start1 idx hidx, dg_window1] at h1
    rw [dg_start2 idx hidx, dg_window2] at h2
    refine ⟨?_, ?_, ?_⟩ <;> omega
  · rintro ⟨h0, h1, h2⟩ a
    match a with
    | ⟨0, _⟩ =>
      show scatter_S1000x30x30_S30x2_S1000x30_0_12_12_1.start j idx 0
        + ((scatter_S1000x30x30_S30x2_S1000x30_0_12_12_1.window j 0 : ℕ) : ℤ) = (b.val : ℤ)
      rw [dg_start0 idx hidx, dg_window0]
      omega
    | ⟨1, _⟩ =>
      show scatter_S1000x30x30_S30x2_S1000x30_0_12_12_1.start j idx 1
        + ((scatter_S1000x30x30_S30x2_S1000x30_0_12_12_1.window j 1 : ℕ) : ℤ) = (u.val : ℤ)
      rw [dg_start1 idx hidx, dg_window1]
      omega
    | ⟨2, _⟩ =>
      show scatter_S1000x30x30_S30x2_S1000x30_0_12_12_1.start j idx 2
        + ((scatter_S1000x30x30_S30x2_S1000x30_0_12_12_1.window j 2 : ℕ) : ℤ) = (v.val : ℤ)
      rw [dg_start2 idx hidx, dg_window2]
      omega

/-- The accumulating scatter read at (b, u, v): the operand's entry, plus update (b, u) on the diagonal. -/
private theorem dg_add (x : S1000x30x30.Idx → EReal) (upd : S1000x30.Idx → EReal) (b : Fin 1000) (u v : Fin 30) :
    Ideal.hostScatterAdd scatter_S1000x30x30_S30x2_S1000x30_0_12_12_1 x idx upd (ix3 b u v)
      = x (ix3 b u v) + (if u = v then upd (ix2 b u) else 0) := by
  unfold Ideal.hostScatterAdd
  refine congrArg (fun t => x (ix3 b u v) + t) ?_
  by_cases huv : u = v
  · subst huv
    rw [if_pos rfl]
    refine Finset.sum_eq_single_of_mem (ix2 b u)
      (Finset.mem_filter.2 ⟨Finset.mem_univ _, (dg_lands idx hidx (ix2 b u) b u u).2 ⟨rfl, rfl, rfl⟩⟩) ?_
    intro j hj hne
    exfalso
    apply hne
    obtain ⟨h0, h1, _⟩ := (dg_lands idx hidx j b u u).1 (Finset.mem_filter.1 hj).2
    funext a
    match a with
    | ⟨0, _⟩ => exact Fin.ext h0
    | ⟨1, _⟩ => exact Fin.ext h1
  · rw [if_neg huv]
    refine Finset.sum_eq_zero fun j hj => ?_
    obtain ⟨_, h1, h2⟩ := (dg_lands idx hidx j b u v).1 (Finset.mem_filter.1 hj).2
    exact absurd (Fin.ext (h1.symm.trans h2)) huv

end Diag

/-! ## The arrays as the region finds them, each as one operation of the arrays before it -/

set_option maxHeartbeats 4000000 in
/-- The block matrices: the squared inverse square roots added on the diagonals of the reshaped flat table. -/
private theorem v66_eq : (V m c main_v66 : S1000x30x30.Idx → EReal)
    = (Host.scatterAdd (F := Ideal) (φ := .f32) scatter_S1000x30x30_S30x2_S1000x30_0_12_12_1
        (V m c main_v49) (V m c main_v65) (V m c main_v51) : S1000x30x30.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp <;> rfl

set_option maxHeartbeats 4000000 in
/-- The flat table as 1000 blocks of 30 × 30. -/
private theorem v49_eq : (V m c main_v49 : S1000x30x30.Idx → EReal)
    = shapeCast S1000x30x30 (V m c main_v48 : S900000.Idx → EReal) Facts₀.shapeCasts_S900000_S1000x30x30 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp <;> rfl

set_option maxHeartbeats 4000000 in
/-- The diagonal terms as 1000 rows of 30. -/
private theorem v51_eq : (V m c main_v51 : S1000x30.Idx → EReal)
    = shapeCast S1000x30 (V m c main_v50 : S30000.Idx → EReal) Facts₀.shapeCasts_S30000_S1000x30 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp <;> rfl

set_option maxHeartbeats 4000000 in
/-- The index array of the diagonal. -/
private theorem v65_eq : (V m c main_v65 : IVec S30x2 32) = diagIdx := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp <;> rfl

set_option maxHeartbeats 4000000 in
private theorem v69_eq : (V m c main_v69 : S8x3072.Idx → EReal)
    = Host.scatter scatter_S8x3072_S1_S8x3000_01_n_1_0 (fun _ b => b)
        (broadcastInDim S8x3072 ![] Facts₀.bcast_S_S8x3072 (constant (F := Ideal) S_ .f32 0x00000000#32))
        (broadcastInDim S1 ![] Facts₀.bcast_S_S1 (constantI S_ 32 0#32))
        (m ((c.tc : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp <;> rfl

set_option maxHeartbeats 4000000 in
private theorem v72_eq : (V m c main_v72 : S3072.Idx → EReal)
    = Host.scatter scatter_S3072_S1_S3000_0_n_0_0 (fun _ b => b)
        (broadcastInDim S3072 ![] Facts₀.bcast_S_S3072 (constant (F := Ideal) S_ .f32 0x00000000#32))
        (broadcastInDim S1 ![] Facts₀.bcast_S_S1 (constantI S_ 32 0#32))
        (m ((c.tc : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp <;> rfl

set_option maxHeartbeats 4000000 in
private theorem v75_eq : (V m c main_v75 : S3072x30.Idx → EReal)
    = Host.scatter scatter_S3072x30_S1_S3000x30_01_n_0_0 (fun _ b => b)
        (broadcastInDim S3072x30 ![] Facts₀.bcast_S_S3072x30 (constant (F := Ideal) S_ .f32 0x00000000#32))
        (broadcastInDim S1 ![] Facts₀.bcast_S_S1 (constantI S_ 32 0#32))
        (m ((c.tc : Thread nD τ).loc main_arg6)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp <;> rfl

/-! ## The four arrays read at an index -/

/-- Entry `(u, v)` of block `b`'s matrix. -/
theorem blocks_value (hok : OkAt m c) (b : Fin 1000) (u v : Fin 30) :
    (V m c main_v66 : S1000x30x30.Idx → EReal) (ix3 b u v) = blkK (dOf m c) b u v := by
  -- the reshaped flat table at (b, u, v) is the flat table at b · 900 + u · 30 + v
  have hx : (V m c main_v49 : S1000x30x30.Idx → EReal) (ix3 b u v)
      = flatK (dOf m c) ⟨b.val * 900 + u.val * 30 + v.val, by omega⟩ := by
    refine (congrFun (v49_eq m c) (ix3 b u v)).trans ?_
    refine (shapeCast_apply _ _ (ix3 b u v) (ix1 ⟨b.val * 900 + u.val * 30 + v.val, by omega⟩) ?_).trans
      (flat_value m c hok _)
    rw [Shape.rowMajor_val_one, Shape.rowMajor_val_three]
    show b.val * 900 + u.val * 30 + v.val = (b.val * 30 + u.val) * 30 + v.val
    omega
  -- the reshaped diagonal terms at (b, u) are the term of node b · 30 + u
  have hu : (V m c main_v51 : S1000x30.Idx → EReal) (ix2 b u)
      = dinv (dOf m c) (nodeAt b u) * dinv (dOf m c) (nodeAt b u) := by
    refine (congrFun (v51_eq m c) (ix2 b u)).trans ?_
    refine (shapeCast_apply _ _ (ix2 b u) (ix1 (nodeAt b u)) ?_).trans (selfnorm_value m c hok _)
    rw [Shape.rowMajor_val_one, Shape.rowMajor_val_two]
    rfl
  refine (congrFun (v66_eq m c) (ix3 b u v)).trans ?_
  show Ideal.hostScatterAdd scatter_S1000x30x30_S30x2_S1000x30_0_12_12_1 _ _ _ (ix3 b u v) = _
  refine (dg_add (V m c main_v65) ?_ _ _ b u v).trans ?_
  · intro jj col
    rw [v65_eq]
    exact diagIdx_toInt jj col
  · rw [hx, hu]
    rfl

/-- The layer-2 weights, 72 zero columns appended. -/
theorem w2p_value (k : Fin 8) (cc : Fin 3072) :
    (V m c main_v69 : S8x3072.Idx → EReal) (ix2 k cc) = W2p (dOf m c) k cc := by
  refine (congrFun (v69_eq m c) (ix2 k cc)).trans ?_
  refine (w2_pad _ _ padIdx_apply _ k cc).trans ?_
  unfold W2p
  by_cases h : cc.val < 3000
  · rw [dif_pos h, dif_pos h]
    rfl
  · rw [dif_neg h, dif_neg h]
    exact zeros_apply _ _

/-- The layer-2 bias, 72 zeros appended. -/
theorem b2p_value (cc : Fin 3072) :
    (V m c main_v72 : S3072.Idx → EReal) (ix1 cc) = b2p (dOf m c) cc := by
  refine (congrFun (v72_eq m c) (ix1 cc)).trans ?_
  refine (b2_pad _ _ padIdx_apply _ cc).trans ?_
  unfold b2p
  by_cases h : cc.val < 3000
  · rw [dif_pos h, dif_pos h]
    rfl
  · rw [dif_neg h, dif_neg h]
    exact zeros_apply _ _

/-- The dense weights, 72 zero rows appended. -/
theorem wl1p_value (cc : Fin 3072) (q : Fin 30) :
    (V m c main_v75 : S3072x30.Idx → EReal) (ix2 cc q) = Wl1p (dOf m c) cc q := by
  refine (congrFun (v75_eq m c) (ix2 cc q)).trans ?_
  refine (wl1_pad _ _ padIdx_apply _ cc q).trans ?_
  unfold Wl1p
  by_cases h : cc.val < 3000
  · rw [dif_pos h, dif_pos h]
    rfl
  · rw [dif_neg h, dif_neg h]
    exact zeros_apply _ _

end Cert.Gcn.Ker

end
-- ==== Proof.KerBodyA.lean ====
/-
  The kernel body's first payload read at an index: both aggregations and the first layer — the tile's rows
  regrouped as 20 blocks of 30, each block's matrix applied, the 4 → 8 weights, bias and tanh, and the blocks'
  matrices applied again.
-/
import proofs.«424383_j28647431864457_3_alg».proof.Proof.Gen.KernelIdeal.Skeleton
import proofs.«424383_j28647431864457_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gcn.Ker

open Cert.KernelIdeal Cert.KernelIdeal.Facts₀ Cert.KernelIdeal.Facts Cert.KernelIdeal.Gen Idealize.ShloMosaic Idealize.ShloMosaic.TcCoe Idealize.ShloMosaic.ValueIdx Idealize.SL.Sem

variable [Facts]

/-! ## The batched product of the blocks' matrices with 4 feature columns: its operand indices, axis by axis -/

private theorem lhsB4_0 (i : S20x30x4.Idx) (q : dot_S20x30x30_S20x30x4_S20x30x4_2_1_1_2_0_0.contr.Idx) :
    (dot_S20x30x30_S20x30x4_S20x30x4_2_1_1_2_0_0.lhsIdx i q 0).val = (i 0).val := by
  unfold DotDims.lhsIdx
  rw [dif_pos (show (0 : Fin S20x30x30.rank) ∈ dot_S20x30x30_S20x30x4_S20x30x4_2_1_1_2_0_0.lhsBatch by decide)]
  rfl
private theorem lhsB4_1 (i : S20x30x4.Idx) (q : dot_S20x30x30_S20x30x4_S20x30x4_2_1_1_2_0_0.contr.Idx) :
    (dot_S20x30x30_S20x30x4_S20x30x4_2_1_1_2_0_0.lhsIdx i q 1).val = (i 1).val := by
  unfold DotDims.lhsIdx
  rw [dif_neg (show ¬(1 : Fin S20x30x30.rank) ∈ dot_S20x30x30_S20x30x4_S20x30x4_2_1_1_2_0_0.lhsBatch by decide), dif_pos (show (1 : Fin S20x30x30.rank) ∈ dot_S20x30x30_S20x30x4_S20x30x4_2_1_1_2_0_0.lhsNonContracting by decide)]
  rfl
private theorem lhsB4_2 (i : S20x30x4.Idx) (q : dot_S20x30x30_S20x30x4_S20x30x4_2_1_1_2_0_0.contr.Idx) :
    (dot_S20x30x30_S20x30x4_S20x30x4_2_1_1_2_0_0.lhsIdx i q 2).val = (q ⟨0, by decide⟩).val :=
  dot_S20x30x30_S20x30x4_S20x30x4_2_1_1_2_0_0.lhsIdx_val_of_single rfl i q
private theorem rhsB4_0 (i : S20x30x4.Idx) (q : dot_S20x30x30_S20x30x4_S20x30x4_2_1_1_2_0_0.contr.Idx) :
    (dot_S20x30x30_S20x30x4_S20x30x4_2_1_1_2_0_0.rhsIdx i q 0).val = (i 0).val := by
  unfold DotDims.rhsIdx
  rw [dif_pos (show (0 : Fin S20x30x4.rank) ∈ dot_S20x30x30_S20x30x4_S20x30x4_2_1_1_2_0_0.rhsBatch by decide)]
  rfl
private theorem rhsB4_1 (i : S20x30x4.Idx) (q : dot_S20x30x30_S20x30x4_S20x30x4_2_1_1_2_0_0.contr.Idx) :
    (dot_S20x30x30_S20x30x4_S20x30x4_2_1_1_2_0_0.rhsIdx i q 1).val = (q ⟨0, by decide⟩).val :=
  dot_S20x30x30_S20x30x4_S20x30x4_2_1_1_2_0_0.rhsIdx_val_of_single rfl i q
private theorem rhsB4_2 (i : S20x30x4.Idx) (q : dot_S20x30x30_S20x30x4_S20x30x4_2_1_1_2_0_0.contr.Idx) :
    (dot_S20x30x30_S20x30x4_S20x30x4_2_1_1_2_0_0.rhsIdx i q 2).val = (i 2).val := by
  unfold DotDims.rhsIdx
  rw [dif_neg (show ¬(2 : Fin S20x30x4.rank) ∈ dot_S20x30x30_S20x30x4_S20x30x4_2_1_1_2_0_0.rhsBatch by decide), dif_pos (show (2 : Fin S20x30x4.rank) ∈ dot_S20x30x30_S20x30x4_S20x30x4_2_1_1_2_0_0.rhsNonContracting by decide)]
  rfl

/-- Entry `(g, u, f)` of the batched product: block `g`'s row `u` against column `f` of the block's 4 feature columns. -/
private theorem bmm4_apply (B : FVec Ideal S20x30x30 .bf16) (H : FVec Ideal S20x30x4 .bf16) (g : Fin 20) (u : Fin 30) (f : Fin 4) :
    matmul dot_S20x30x30_S20x30x4_S20x30x4_2_1_1_2_0_0 none B H (constant (F := Ideal) S20x30x4 .f32 0x00000000#32) (ix3 g u f)
      = ∑ v : Fin 30, B (ix3 g u v) * H (ix3 g v f) := by
  refine (Ideal.matmul_constant_zero_apply dot_S20x30x30_S20x30x4_S20x30x4_2_1_1_2_0_0 none B H (ix3 g u f)).trans ?_
  rw [← Equiv.sum_comp (contrEquiv1 dot_S20x30x30_S20x30x4_S20x30x4_2_1_1_2_0_0 30 rfl rfl).symm]
  refine Finset.sum_congr rfl fun v _ => ?_
  have hv := contrEquiv1_symm_val dot_S20x30x30_S20x30x4_S20x30x4_2_1_1_2_0_0 30 rfl rfl v
  have el : dot_S20x30x30_S20x30x4_S20x30x4_2_1_1_2_0_0.lhsIdx (ix3 g u f) ((contrEquiv1 dot_S20x30x30_S20x30x4_S20x30x4_2_1_1_2_0_0 30 rfl rfl).symm v) = ix3 g u v := funext fun a => Fin.ext (by
    match a with
    | ⟨0, _⟩ => exact lhsB4_0 _ _
    | ⟨1, _⟩ => exact lhsB4_1 _ _
    | ⟨2, _⟩ => exact (lhsB4_2 _ _).trans hv)
  have er : dot_S20x30x30_S20x30x4_S20x30x4_2_1_1_2_0_0.rhsIdx (ix3 g u f) ((contrEquiv1 dot_S20x30x30_S20x30x4_S20x30x4_2_1_1_2_0_0 30 rfl rfl).symm v) = ix3 g v f := funext fun a => Fin.ext (by
    match a with
    | ⟨0, _⟩ => exact rhsB4_0 _ _
    | ⟨1, _⟩ => exact (rhsB4_1 _ _).trans hv
    | ⟨2, _⟩ => exact rhsB4_2 _ _)
  rw [el, er]

/-! ## The batched product of the blocks' matrices with 8 feature columns: its operand indices, axis by axis -/

private theorem lhsB8_0 (i : S20x30x8.Idx) (q : dot_S20x30x30_S20x30x8_S20x30x8_2_1_1_2_0_0.contr.Idx) :
    (dot_S20x30x30_S20x30x8_S20x30x8_2_1_1_2_0_0.lhsIdx i q 0).val = (i 0).val := by
  unfold DotDims.lhsIdx
  rw [dif_pos (show (0 : Fin S20x30x30.rank) ∈ dot_S20x30x30_S20x30x8_S20x30x8_2_1_1_2_0_0.lhsBatch by decide)]
  rfl
private theorem lhsB8_1 (i : S20x30x8.Idx) (q : dot_S20x30x30_S20x30x8_S20x30x8_2_1_1_2_0_0.contr.Idx) :
    (dot_S20x30x30_S20x30x8_S20x30x8_2_1_1_2_0_0.lhsIdx i q 1).val = (i 1).val := by
  unfold DotDims.lhsIdx
  rw [dif_neg (show ¬(1 : Fin S20x30x30.rank) ∈ dot_S20x30x30_S20x30x8_S20x30x8_2_1_1_2_0_0.lhsBatch by decide), dif_pos (show (1 : Fin S20x30x30.rank) ∈ dot_S20x30x30_S20x30x8_S20x30x8_2_1_1_2_0_0.lhsNonContracting by decide)]
  rfl
private theorem lhsB8_2 (i : S20x30x8.Idx) (q : dot_S20x30x30_S20x30x8_S20x30x8_2_1_1_2_0_0.contr.Idx) :
    (dot_S20x30x30_S20x30x8_S20x30x8_2_1_1_2_0_0.lhsIdx i q 2).val = (q ⟨0, by decide⟩).val :=
  dot_S20x30x30_S20x30x8_S20x30x8_2_1_1_2_0_0.lhsIdx_val_of_single rfl i q
private theorem rhsB8_0 (i : S20x30x8.Idx) (q : dot_S20x30x30_S20x30x8_S20x30x8_2_1_1_2_0_0.contr.Idx) :
    (dot_S20x30x30_S20x30x8_S20x30x8_2_1_1_2_0_0.rhsIdx i q 0).val = (i 0).val := by
  unfold DotDims.rhsIdx
  rw [dif_pos (show (0 : Fin S20x30x8.rank) ∈ dot_S20x30x30_S20x30x8_S20x30x8_2_1_1_2_0_0.rhsBatch by decide)]
  rfl
private theorem rhsB8_1 (i : S20x30x8.Idx) (q : dot_S20x30x30_S20x30x8_S20x30x8_2_1_1_2_0_0.contr.Idx) :
    (dot_S20x30x30_S20x30x8_S20x30x8_2_1_1_2_0_0.rhsIdx i q 1).val = (q ⟨0, by decide⟩).val :=
  dot_S20x30x30_S20x30x8_S20x30x8_2_1_1_2_0_0.rhsIdx_val_of_single rfl i q
private theorem rhsB8_2 (i : S20x30x8.Idx) (q : dot_S20x30x30_S20x30x8_S20x30x8_2_1_1_2_0_0.contr.Idx) :
    (dot_S20x30x30_S20x30x8_S20x30x8_2_1_1_2_0_0.rhsIdx i q 2).val = (i 2).val := by
  unfold DotDims.rhsIdx
  rw [dif_neg (show ¬(2 : Fin S20x30x8.rank) ∈ dot_S20x30x30_S20x30x8_S20x30x8_2_1_1_2_0_0.rhsBatch by decide), dif_pos (show (2 : Fin S20x30x8.rank) ∈ dot_S20x30x30_S20x30x8_S20x30x8_2_1_1_2_0_0.rhsNonContracting by decide)]
  rfl

/-- Entry `(g, u, f)` of the batched product: block `g`'s row `u` against column `f` of the block's 8 feature columns. -/
private theorem bmm8_apply (B : FVec Ideal S20x30x30 .bf16) (H : FVec Ideal S20x30x8 .bf16) (g : Fin 20) (u : Fin 30) (f : Fin 8) :
    matmul dot_S20x30x30_S20x30x8_S20x30x8_2_1_1_2_0_0 none B H (constant (F := Ideal) S20x30x8 .f32 0x00000000#32) (ix3 g u f)
      = ∑ v : Fin 30, B (ix3 g u v) * H (ix3 g v f) := by
  refine (Ideal.matmul_constant_zero_apply dot_S20x30x30_S20x30x8_S20x30x8_2_1_1_2_0_0 none B H (ix3 g u f)).trans ?_
  rw [← Equiv.sum_comp (contrEquiv1 dot_S20x30x30_S20x30x8_S20x30x8_2_1_1_2_0_0 30 rfl rfl).symm]
  refine Finset.sum_congr rfl fun v _ => ?_
  have hv := contrEquiv1_symm_val dot_S20x30x30_S20x30x8_S20x30x8_2_1_1_2_0_0 30 rfl rfl v
  have el : dot_S20x30x30_S20x30x8_S20x30x8_2_1_1_2_0_0.lhsIdx (ix3 g u f) ((contrEquiv1 dot_S20x30x30_S20x30x8_S20x30x8_2_1_1_2_0_0 30 rfl rfl).symm v) = ix3 g u v := funext fun a => Fin.ext (by
    match a with
    | ⟨0, _⟩ => exact lhsB8_0 _ _
    | ⟨1, _⟩ => exact lhsB8_1 _ _
    | ⟨2, _⟩ => exact (lhsB8_2 _ _).trans hv)
  have er : dot_S20x30x30_S20x30x8_S20x30x8_2_1_1_2_0_0.rhsIdx (ix3 g u f) ((contrEquiv1 dot_S20x30x30_S20x30x8_S20x30x8_2_1_1_2_0_0 30 rfl rfl).symm v) = ix3 g v f := funext fun a => Fin.ext (by
    match a with
    | ⟨0, _⟩ => exact rhsB8_0 _ _
    | ⟨1, _⟩ => exact (rhsB8_1 _ _).trans hv
    | ⟨2, _⟩ => exact rhsB8_2 _ _)
  rw [el, er]

/-! ## The tile's 600 rows as 20 blocks of 30, and back -/

/-- Rows regrouped as blocks: entry `(g, v, f)` is row `30 g + v`, column `f` (the same row-major position). -/
private theorem toBlocks_apply {α : Type} {C : ℕ} (x : (⟨2, ![600, C]⟩ : Shape).Idx → α)
    (h : (⟨2, ![600, C]⟩ : Shape).ShapeCasts ⟨3, ![20, 30, C]⟩) (g : Fin 20) (v : Fin 30) (f : Fin C) :
    shapeCast ⟨3, ![20, 30, C]⟩ x h (ix3 g v f) = x (ix2 (Tile.rowAt g v) f) :=
  shapeCast_apply x h _ _ (by
    rw [Shape.rowMajor_val_two, Shape.rowMajor_val_three]
    rfl)

/-- Blocks flattened to rows: row `r` is block `r / 30`, position `r % 30`. -/
private theorem fromBlocks_apply {α : Type} {C : ℕ} (x : (⟨3, ![20, 30, C]⟩ : Shape).Idx → α)
    (h : (⟨3, ![20, 30, C]⟩ : Shape).ShapeCasts ⟨2, ![600, C]⟩) (r : Fin 600) (f : Fin C) :
    shapeCast ⟨2, ![600, C]⟩ x h (ix2 r f)
      = x (ix3 (⟨r.val / 30, by omega⟩ : Fin 20) (⟨r.val % 30, Nat.mod_lt _ (by norm_num)⟩ : Fin 30) f) :=
  shapeCast_apply x h _ _ (by
    rw [Shape.rowMajor_val_two, Shape.rowMajor_val_three]
    show (r.val / 30 * 30 + r.val % 30) * C + f.val = r.val * C + f.val
    rw [Nat.div_add_mod' r.val 30])

/-- One aggregation of the tile at 4 feature columns: rows to blocks, each block's matrix applied, blocks back to rows. -/
private theorem agg4_apply (v0 : Vec Ideal S20x30x30 .f32) (x : FVec Ideal S600x4 .bf16)
    (h0 : S20x30x30.ShapeCasts S20x30x30) (hb : FTy.bits .bf16 < FTy.bits .f32)
    (h1 : S600x4.ShapeCasts S20x30x4) (h2 : S20x30x4.ShapeCasts S600x4) (r : Fin 600) (f : Fin 4) :
    shapeCast S600x4
        (matmul dot_S20x30x30_S20x30x4_S20x30x4_2_1_1_2_0_0 none (truncf .bf16 (shapeCast S20x30x30 v0 h0) hb) (shapeCast S20x30x4 x h1)
          (constant (F := Ideal) S20x30x4 .f32 0x00000000#32)) h2 (ix2 r f)
      = Tile.agg (fun g u v => v0 (ix3 g u v)) (fun a => x (ix2 a f)) r := by
  refine (fromBlocks_apply _ h2 r f).trans ?_
  refine (bmm4_apply _ _ _ _ f).trans ?_
  unfold Tile.agg
  refine Finset.sum_congr rfl fun v _ => ?_
  rw [toBlocks_apply x h1, shapeCast_self v0 h0]
  rfl

/-- One aggregation of the tile at 8 feature columns: rows to blocks, each block's matrix applied, blocks back to rows. -/
private theorem agg8_apply (v0 : Vec Ideal S20x30x30 .f32) (x : FVec Ideal S600x8 .bf16)
    (h0 : S20x30x30.ShapeCasts S20x30x30) (hb : FTy.bits .bf16 < FTy.bits .f32)
    (h1 : S600x8.ShapeCasts S20x30x8) (h2 : S20x30x8.ShapeCasts S600x8) (r : Fin 600) (f : Fin 8) :
    shapeCast S600x8
        (matmul dot_S20x30x30_S20x30x8_S20x30x8_2_1_1_2_0_0 none (truncf .bf16 (shapeCast S20x30x30 v0 h0) hb) (shapeCast S20x30x8 x h1)
          (constant (F := Ideal) S20x30x8 .f32 0x00000000#32)) h2 (ix2 r f)
      = Tile.agg (fun g u v => v0 (ix3 g u v)) (fun a => x (ix2 a f)) r := by
  refine (fromBlocks_apply _ h2 r f).trans ?_
  refine (bmm8_apply _ _ _ _ f).trans ?_
  unfold Tile.agg
  refine Finset.sum_congr rfl fun v _ => ?_
  rw [toBlocks_apply x h1, shapeCast_self v0 h0]
  rfl

/-! ## The first layer: the 4 → 8 weights, the bias row, tanh -/

private theorem lhsW1_0 (i : S600x8.Idx) (q : dot_S600x4_S4x8_S600x8_1_0_0_1_n_n.contr.Idx) :
    (dot_S600x4_S4x8_S600x8_1_0_0_1_n_n.lhsIdx i q 0).val = (i 0).val := by
  unfold DotDims.lhsIdx
  rw [dif_neg (show ¬(0 : Fin S600x4.rank) ∈ dot_S600x4_S4x8_S600x8_1_0_0_1_n_n.lhsBatch by decide), dif_pos (show (0 : Fin S600x4.rank) ∈ dot_S600x4_S4x8_S600x8_1_0_0_1_n_n.lhsNonContracting by decide)]
  rfl
private theorem lhsW1_1 (i : S600x8.Idx) (q : dot_S600x4_S4x8_S600x8_1_0_0_1_n_n.contr.Idx) :
    (dot_S600x4_S4x8_S600x8_1_0_0_1_n_n.lhsIdx i q 1).val = (q ⟨0, by decide⟩).val :=
  dot_S600x4_S4x8_S600x8_1_0_0_1_n_n.lhsIdx_val_of_single rfl i q
private theorem rhsW1_0 (i : S600x8.Idx) (q : dot_S600x4_S4x8_S600x8_1_0_0_1_n_n.contr.Idx) :
    (dot_S600x4_S4x8_S600x8_1_0_0_1_n_n.rhsIdx i q 0).val = (q ⟨0, by decide⟩).val :=
  dot_S600x4_S4x8_S600x8_1_0_0_1_n_n.rhsIdx_val_of_single rfl i q
private theorem rhsW1_1 (i : S600x8.Idx) (q : dot_S600x4_S4x8_S600x8_1_0_0_1_n_n.contr.Idx) :
    (dot_S600x4_S4x8_S600x8_1_0_0_1_n_n.rhsIdx i q 1).val = (i 1).val := by
  unfold DotDims.rhsIdx
  rw [dif_neg (show ¬(1 : Fin S4x8.rank) ∈ dot_S600x4_S4x8_S600x8_1_0_0_1_n_n.rhsBatch by decide), dif_pos (show (1 : Fin S4x8.rank) ∈ dot_S600x4_S4x8_S600x8_1_0_0_1_n_n.rhsNonContracting by decide)]
  rfl

/-- Entry `(a, k)` of rows times weights: the sum over the 4 feature columns. -/
private theorem mmW1_apply (x : FVec Ideal S600x4 .bf16) (w : FVec Ideal S4x8 .bf16) (a : Fin 600) (k : Fin 8) :
    matmul dot_S600x4_S4x8_S600x8_1_0_0_1_n_n none x w (constant (F := Ideal) S600x8 .f32 0x00000000#32) (ix2 a k)
      = ∑ j : Fin 4, x (ix2 a j) * w (ix2 j k) := by
  refine (Ideal.matmul_constant_zero_apply dot_S600x4_S4x8_S600x8_1_0_0_1_n_n none x w (ix2 a k)).trans ?_
  rw [← Equiv.sum_comp (contrEquiv1 dot_S600x4_S4x8_S600x8_1_0_0_1_n_n 4 rfl rfl).symm]
  refine Finset.sum_congr rfl fun j _ => ?_
  have hj := contrEquiv1_symm_val dot_S600x4_S4x8_S600x8_1_0_0_1_n_n 4 rfl rfl j
  have el : dot_S600x4_S4x8_S600x8_1_0_0_1_n_n.lhsIdx (ix2 a k) ((contrEquiv1 dot_S600x4_S4x8_S600x8_1_0_0_1_n_n 4 rfl rfl).symm j) = ix2 a j := funext fun c => Fin.ext (by
    match c with
    | ⟨0, _⟩ => exact lhsW1_0 _ _
    | ⟨1, _⟩ => exact (lhsW1_1 _ _).trans hj)
  have er : dot_S600x4_S4x8_S600x8_1_0_0_1_n_n.rhsIdx (ix2 a k) ((contrEquiv1 dot_S600x4_S4x8_S600x8_1_0_0_1_n_n 4 rfl rfl).symm j) = ix2 j k := funext fun c => Fin.ext (by
    match c with
    | ⟨0, _⟩ => exact (rhsW1_0 _ _).trans hj
    | ⟨1, _⟩ => exact rhsW1_1 _ _)
  rw [el, er]

/-- The bias as one row repeated over the 600 rows: entry `(a, k)` is `b k`. -/
private theorem bias_apply (b : Vec Ideal S8 .f32) (h1 : S8.ShapeCasts S1x8) (h2 : S1x8.Broadcasts S600x8) (a : Fin 600) (k : Fin 8) :
    broadcastTo S600x8 (shapeCast S1x8 b h1) h2 (ix2 a k) = b (ix1 k) :=
  (broadcastTo_1b_ab_apply (shapeCast S1x8 b h1) h2 a k).trans (shapeCast_a_1a_apply b h1 0 k)

/-- The first layer's activation at `(a, k)` from rows `x`: tanh of rows times weights plus bias. -/
private theorem layer1_apply (x : FVec Ideal S600x4 .f32) (v8 : Vec Ideal S4x8 .f32) (v12 : Vec Ideal S8 .f32)
    (hb : FTy.bits .bf16 < FTy.bits .f32) (h1 : S8.ShapeCasts S1x8) (h2 : S1x8.Broadcasts S600x8) (a : Fin 600) (k : Fin 8) :
    truncf .bf16 (tanh (addf
        (matmul dot_S600x4_S4x8_S600x8_1_0_0_1_n_n none (truncf .bf16 x hb) (truncf .bf16 v8 hb) (constant (F := Ideal) S600x8 .f32 0x00000000#32))
        (broadcastTo S600x8 (shapeCast S1x8 v12 h1) h2))) hb (ix2 a k)
      = Ideal.tanh ((∑ j : Fin 4, x (ix2 a j) * v8 (ix2 j k)) + v12 (ix1 k)) := by
  show Ideal.tanh (matmul dot_S600x4_S4x8_S600x8_1_0_0_1_n_n none (truncf .bf16 x hb) (truncf .bf16 v8 hb) (constant (F := Ideal) S600x8 .f32 0x00000000#32) (ix2 a k)
      + broadcastTo S600x8 (shapeCast S1x8 v12 h1) h2 (ix2 a k)) = _
  rw [mmW1_apply, bias_apply]
  rfl

/-- The aggregated first-layer activations of the tile, entry `(r, k)`. -/
theorem ah1_value (v0 : Vec Ideal S20x30x30 .f32) (v3 : Vec Ideal S600x4 .f32) (v8 : Vec Ideal S4x8 .f32)
    (v12 : Vec Ideal S8 .f32) (r : Fin 600) (k : Fin 8) :
    k0_pay2 (F := Ideal) v0 v3 v8 v12 (ix2 r k)
      = Tile.ah1 (fun r j => v3 (ix2 r j)) (fun g u v => v0 (ix3 g u v)) (fun j k => v8 (ix2 j k)) (fun k => v12 (ix1 k)) r k := by
  unfold k0_pay2
  refine (agg8_apply v0 _ _ _ _ _ r k).trans ?_
  unfold Tile.ah1 Tile.agg
  refine Finset.sum_congr rfl fun v _ => ?_
  refine congrArg (_ * ·) ?_
  refine (layer1_apply _ v8 v12 _ _ _ _ k).trans ?_
  unfold Tile.h1
  refine congrArg (fun z => Ideal.tanh (z + _)) ?_
  refine Finset.sum_congr rfl fun j _ => ?_
  refine congrArg (· * _) ?_
  exact agg4_apply v0 _ _ _ _ _ _ j

end Cert.Gcn.Ker

end
-- ==== Proof.KerBodyB.lean ====
/-
  What one grid point leaves in the output block, read at an index: the second layer over three chunks of 1024
  hidden columns, each contracted with its rows of the dense weights as soon as it is made, the bias and the
  maximum with zero, and the last dense layer.
-/
import proofs.«424383_j28647431864457_3_alg».proof.Proof.Gen.KernelIdeal.Frame
import proofs.«424383_j28647431864457_3_alg».proof.Proof.KerBodyA

noncomputable section

open scoped BigOperators

namespace Cert.Gcn.Ker

open Cert.KernelIdeal Cert.KernelIdeal.Facts₀ Cert.KernelIdeal.Facts Cert.KernelIdeal.Gen Idealize.ShloMosaic Idealize.ShloMosaic.TcCoe Idealize.ShloMosaic.ValueIdx Idealize.SL.Sem

variable [Facts]

/-! ### The 8 → 1024 product of one chunk of the second layer -/

/-- Row axis of the left operand: the output's row. -/
private theorem lhs_mmH_0 (i : S600x1024.Idx) (q : dot_S600x8_S8x1024_S600x1024_1_0_0_1_n_n.contr.Idx) :
    (dot_S600x8_S8x1024_S600x1024_1_0_0_1_n_n.lhsIdx i q 0).val = (i 0).val := by
  unfold DotDims.lhsIdx
  rw [dif_neg (show ¬(0 : Fin S600x8.rank) ∈ dot_S600x8_S8x1024_S600x1024_1_0_0_1_n_n.lhsBatch by decide), dif_pos (show (0 : Fin S600x8.rank) ∈ dot_S600x8_S8x1024_S600x1024_1_0_0_1_n_n.lhsNonContracting by decide)]
  rfl
/-- Column axis of the left operand: the contraction coordinate. -/
private theorem lhs_mmH_1 (i : S600x1024.Idx) (q : dot_S600x8_S8x1024_S600x1024_1_0_0_1_n_n.contr.Idx) :
    (dot_S600x8_S8x1024_S600x1024_1_0_0_1_n_n.lhsIdx i q 1).val = (q ⟨0, by decide⟩).val :=
  dot_S600x8_S8x1024_S600x1024_1_0_0_1_n_n.lhsIdx_val_of_single rfl i q
/-- Row axis of the right operand: the contraction coordinate. -/
private theorem rhs_mmH_0 (i : S600x1024.Idx) (q : dot_S600x8_S8x1024_S600x1024_1_0_0_1_n_n.contr.Idx) :
    (dot_S600x8_S8x1024_S600x1024_1_0_0_1_n_n.rhsIdx i q 0).val = (q ⟨0, by decide⟩).val :=
  dot_S600x8_S8x1024_S600x1024_1_0_0_1_n_n.rhsIdx_val_of_single rfl i q
/-- Column axis of the right operand: the output's column. -/
private theorem rhs_mmH_1 (i : S600x1024.Idx) (q : dot_S600x8_S8x1024_S600x1024_1_0_0_1_n_n.contr.Idx) :
    (dot_S600x8_S8x1024_S600x1024_1_0_0_1_n_n.rhsIdx i q 1).val = (i 1).val := by
  unfold DotDims.rhsIdx
  rw [dif_neg (show ¬(1 : Fin S8x1024.rank) ∈ dot_S600x8_S8x1024_S600x1024_1_0_0_1_n_n.rhsBatch by decide), dif_pos (show (1 : Fin S8x1024.rank) ∈ dot_S600x8_S8x1024_S600x1024_1_0_0_1_n_n.rhsNonContracting by decide)]
  rfl
/-- The product into the zero accumulator at `(r, c)`: the sum over the 8 contraction positions of row `r` of
    the left operand times column `c` of the right. -/
private theorem mmH_apply {φ₁ φ₂ : FTy} (a : FVec Ideal S600x8 φ₁) (w : FVec Ideal S8x1024 φ₂) (r : Fin 600) (c : Fin 1024) :
    matmul dot_S600x8_S8x1024_S600x1024_1_0_0_1_n_n none a w (constant (F := Ideal) S600x1024 .f32 0x00000000#32) (ix2 r c)
      = ∑ k : Fin 8, a (ix2 r k) * w (ix2 k c) := by
  refine (Ideal.matmul_constant_zero_apply dot_S600x8_S8x1024_S600x1024_1_0_0_1_n_n none a w (ix2 r c)).trans ?_
  rw [← Equiv.sum_comp (contrEquiv1 dot_S600x8_S8x1024_S600x1024_1_0_0_1_n_n 8 rfl rfl).symm]
  refine Finset.sum_congr rfl fun k _ => ?_
  have hk := contrEquiv1_symm_val dot_S600x8_S8x1024_S600x1024_1_0_0_1_n_n 8 rfl rfl k
  have el : dot_S600x8_S8x1024_S600x1024_1_0_0_1_n_n.lhsIdx (ix2 r c) ((contrEquiv1 dot_S600x8_S8x1024_S600x1024_1_0_0_1_n_n 8 rfl rfl).symm k) = ix2 r k := funext fun ax => Fin.ext (by
    match ax with
    | ⟨0, _⟩ => exact lhs_mmH_0 _ _
    | ⟨1, _⟩ => exact (lhs_mmH_1 _ _).trans hk)
  have er : dot_S600x8_S8x1024_S600x1024_1_0_0_1_n_n.rhsIdx (ix2 r c) ((contrEquiv1 dot_S600x8_S8x1024_S600x1024_1_0_0_1_n_n 8 rfl rfl).symm k) = ix2 k c := funext fun ax => Fin.ext (by
    match ax with
    | ⟨0, _⟩ => exact (rhs_mmH_0 _ _).trans hk
    | ⟨1, _⟩ => exact rhs_mmH_1 _ _)
  rw [el, er]

/-! ### The 1024 → 30 contraction of one chunk with its rows of the dense weights -/

/-- Row axis of the left operand: the output's row. -/
private theorem lhs_mmD_0 (i : S600x30.Idx) (q : dot_S600x1024_S1024x30_S600x30_1_0_0_1_n_n.contr.Idx) :
    (dot_S600x1024_S1024x30_S600x30_1_0_0_1_n_n.lhsIdx i q 0).val = (i 0).val := by
  unfold DotDims.lhsIdx
  rw [dif_neg (show ¬(0 : Fin S600x1024.rank) ∈ dot_S600x1024_S1024x30_S600x30_1_0_0_1_n_n.lhsBatch by decide), dif_pos (show (0 : Fin S600x1024.rank) ∈ dot_S600x1024_S1024x30_S600x30_1_0_0_1_n_n.lhsNonContracting by decide)]
  rfl
/-- Column axis of the left operand: the contraction coordinate. -/
private theorem lhs_mmD_1 (i : S600x30.Idx) (q : dot_S600x1024_S1024x30_S600x30_1_0_0_1_n_n.contr.Idx) :
    (dot_S600x1024_S1024x30_S600x30_1_0_0_1_n_n.lhsIdx i q 1).val = (q ⟨0, by decide⟩).val :=
  dot_S600x1024_S1024x30_S600x30_1_0_0_1_n_n.lhsIdx_val_of_single rfl i q
/-- Row axis of the right operand: the contraction coordinate. -/
private theorem rhs_mmD_0 (i : S600x30.Idx) (q : dot_S600x1024_S1024x30_S600x30_1_0_0_1_n_n.contr.Idx) :
    (dot_S600x1024_S1024x30_S600x30_1_0_0_1_n_n.rhsIdx i q 0).val = (q ⟨0, by decide⟩).val :=
  dot_S600x1024_S1024x30_S600x30_1_0_0_1_n_n.rhsIdx_val_of_single rfl i q
/-- Column axis of the right operand: the output's column. -/
private theorem rhs_mmD_1 (i : S600x30.Idx) (q : dot_S600x1024_S1024x30_S600x30_1_0_0_1_n_n.contr.Idx) :
    (dot_S600x1024_S1024x30_S600x30_1_0_0_1_n_n.rhsIdx i q 1).val = (i 1).val := by
  unfold DotDims.rhsIdx
  rw [dif_neg (show ¬(1 : Fin S1024x30.rank) ∈ dot_S600x1024_S1024x30_S600x30_1_0_0_1_n_n.rhsBatch by decide), dif_pos (show (1 : Fin S1024x30.rank) ∈ dot_S600x1024_S1024x30_S600x30_1_0_0_1_n_n.rhsNonContracting by decide)]
  rfl
/-- The product into the zero accumulator at `(r, c)`: the sum over the 1024 contraction positions of row `r` of
    the left operand times column `c` of the right. -/
private theorem mmD_apply {φ₁ φ₂ : FTy} (a : FVec Ideal S600x1024 φ₁) (w : FVec Ideal S1024x30 φ₂) (r : Fin 600) (c : Fin 30) :
    matmul dot_S600x1024_S1024x30_S600x30_1_0_0_1_n_n none a w (constant (F := Ideal) S600x30 .f32 0x00000000#32) (ix2 r c)
      = ∑ k : Fin 1024, a (ix2 r k) * w (ix2 k c) := by
  refine (Ideal.matmul_constant_zero_apply dot_S600x1024_S1024x30_S600x30_1_0_0_1_n_n none a w (ix2 r c)).trans ?_
  rw [← Equiv.sum_comp (contrEquiv1 dot_S600x1024_S1024x30_S600x30_1_0_0_1_n_n 1024 rfl rfl).symm]
  refine Finset.sum_congr rfl fun k _ => ?_
  have hk := contrEquiv1_symm_val dot_S600x1024_S1024x30_S600x30_1_0_0_1_n_n 1024 rfl rfl k
  have el : dot_S600x1024_S1024x30_S600x30_1_0_0_1_n_n.lhsIdx (ix2 r c) ((contrEquiv1 dot_S600x1024_S1024x30_S600x30_1_0_0_1_n_n 1024 rfl rfl).symm k) = ix2 r k := funext fun ax => Fin.ext (by
    match ax with
    | ⟨0, _⟩ => exact lhs_mmD_0 _ _
    | ⟨1, _⟩ => exact (lhs_mmD_1 _ _).trans hk)
  have er : dot_S600x1024_S1024x30_S600x30_1_0_0_1_n_n.rhsIdx (ix2 r c) ((contrEquiv1 dot_S600x1024_S1024x30_S600x30_1_0_0_1_n_n 1024 rfl rfl).symm k) = ix2 k c := funext fun ax => Fin.ext (by
    match ax with
    | ⟨0, _⟩ => exact (rhs_mmD_0 _ _).trans hk
    | ⟨1, _⟩ => exact rhs_mmD_1 _ _)
  rw [el, er]

/-! ### The last dense layer, 30 → 60 -/

/-- Row axis of the left operand: the output's row. -/
private theorem lhs_mmO_0 (i : S600x60.Idx) (q : dot_S600x30_S30x60_S600x60_1_0_0_1_n_n.contr.Idx) :
    (dot_S600x30_S30x60_S600x60_1_0_0_1_n_n.lhsIdx i q 0).val = (i 0).val := by
  unfold DotDims.lhsIdx
  rw [dif_neg (show ¬(0 : Fin S600x30.rank) ∈ dot_S600x30_S30x60_S600x60_1_0_0_1_n_n.lhsBatch by decide), dif_pos (show (0 : Fin S600x30.rank) ∈ dot_S600x30_S30x60_S600x60_1_0_0_1_n_n.lhsNonContracting by decide)]
  rfl
/-- Column axis of the left operand: the contraction coordinate. -/
private theorem lhs_mmO_1 (i : S600x60.Idx) (q : dot_S600x30_S30x60_S600x60_1_0_0_1_n_n.contr.Idx) :
    (dot_S600x30_S30x60_S600x60_1_0_0_1_n_n.lhsIdx i q 1).val = (q ⟨0, by decide⟩).val :=
  dot_S600x30_S30x60_S600x60_1_0_0_1_n_n.lhsIdx_val_of_single rfl i q
/-- Row axis of the right operand: the contraction coordinate. -/
private theorem rhs_mmO_0 (i : S600x60.Idx) (q : dot_S600x30_S30x60_S600x60_1_0_0_1_n_n.contr.Idx) :
    (dot_S600x30_S30x60_S600x60_1_0_0_1_n_n.rhsIdx i q 0).val = (q ⟨0, by decide⟩).val :=
  dot_S600x30_S30x60_S600x60_1_0_0_1_n_n.rhsIdx_val_of_single rfl i q
/-- Column axis of the right operand: the output's column. -/
private theorem rhs_mmO_1 (i : S600x60.Idx) (q : dot_S600x30_S30x60_S600x60_1_0_0_1_n_n.contr.Idx) :
    (dot_S600x30_S30x60_S600x60_1_0_0_1_n_n.rhsIdx i q 1).val = (i 1).val := by
  unfold DotDims.rhsIdx
  rw [dif_neg (show ¬(1 : Fin S30x60.rank) ∈ dot_S600x30_S30x60_S600x60_1_0_0_1_n_n.rhsBatch by decide), dif_pos (show (1 : Fin S30x60.rank) ∈ dot_S600x30_S30x60_S600x60_1_0_0_1_n_n.rhsNonContracting by decide)]
  rfl
/-- The product into the zero accumulator at `(r, c)`: the sum over the 30 contraction positions of row `r` of
    the left operand times column `c` of the right. -/
private theorem mmO_apply {φ₁ φ₂ : FTy} (a : FVec Ideal S600x30 φ₁) (w : FVec Ideal S30x60 φ₂) (r : Fin 600) (c : Fin 60) :
    matmul dot_S600x30_S30x60_S600x60_1_0_0_1_n_n none a w (constant (F := Ideal) S600x60 .f32 0x00000000#32) (ix2 r c)
      = ∑ k : Fin 30, a (ix2 r k) * w (ix2 k c) := by
  refine (Ideal.matmul_constant_zero_apply dot_S600x30_S30x60_S600x60_1_0_0_1_n_n none a w (ix2 r c)).trans ?_
  rw [← Equiv.sum_comp (contrEquiv1 dot_S600x30_S30x60_S600x60_1_0_0_1_n_n 30 rfl rfl).symm]
  refine Finset.sum_congr rfl fun k _ => ?_
  have hk := contrEquiv1_symm_val dot_S600x30_S30x60_S600x60_1_0_0_1_n_n 30 rfl rfl k
  have el : dot_S600x30_S30x60_S600x60_1_0_0_1_n_n.lhsIdx (ix2 r c) ((contrEquiv1 dot_S600x30_S30x60_S600x60_1_0_0_1_n_n 30 rfl rfl).symm k) = ix2 r k := funext fun ax => Fin.ext (by
    match ax with
    | ⟨0, _⟩ => exact lhs_mmO_0 _ _
    | ⟨1, _⟩ => exact (lhs_mmO_1 _ _).trans hk)
  have er : dot_S600x30_S30x60_S600x60_1_0_0_1_n_n.rhsIdx (ix2 r c) ((contrEquiv1 dot_S600x30_S30x60_S600x60_1_0_0_1_n_n 30 rfl rfl).symm k) = ix2 k c := funext fun ax => Fin.ext (by
    match ax with
    | ⟨0, _⟩ => exact (rhs_mmO_0 _ _).trans hk
    | ⟨1, _⟩ => exact rhs_mmO_1 _ _)
  rw [el, er]

/-! ### One chunk of the second layer -/

/-- A chunk before its tanh: the aggregated first-layer rows times the chunk's 8 × 1024 weights, plus the chunk's
    bias on every row. -/
private def hidV (a : FVec Ideal S600x8 .bf16) (w : Vec Ideal S8x1024 .f32) (b : Vec Ideal S1024 .f32) :
    FVec Ideal S600x1024 .f32 :=
  addf (matmul dot_S600x8_S8x1024_S600x1024_1_0_0_1_n_n none a
      (truncf .bf16 (shapeCast S8x1024 w Gen.shapeCasts_S8x1024_S8x1024) Gen.bitsLt_bf16_f32) (constant S600x1024 .f32 0x00000000#32))
    (broadcastTo S600x1024 (shapeCast S1x1024 (shapeCast S1024 b Gen.shapeCasts_S1024_S1024) Gen.shapeCasts_S1024_S1x1024)
      Gen.broadcasts_S1x1024_S600x1024)

/-- Entry `(r, l)` of it. -/
private theorem hidV_apply (a : FVec Ideal S600x8 .bf16) (w : Vec Ideal S8x1024 .f32) (b : Vec Ideal S1024 .f32)
    (r : Fin 600) (l : Fin 1024) :
    hidV a w b (ix2 r l) = (∑ k : Fin 8, a (ix2 r k) * w (ix2 k l)) + b (ix1 l) := by
  unfold hidV
  rw [addf_apply, mmH_apply, broadcastTo_1b_ab_apply, shapeCast_a_1a_apply, shapeCast_self, shapeCast_self]
  rfl

/-- A chunk: the tanh of the above, contracted with the chunk's 1024 × 30 rows of the dense weights. -/
private def chunkV (a : FVec Ideal S600x8 .bf16) (w : Vec Ideal S8x1024 .f32) (b : Vec Ideal S1024 .f32)
    (wl : Vec Ideal S1024x30 .f32) : FVec Ideal S600x30 .f32 :=
  matmul dot_S600x1024_S1024x30_S600x30_1_0_0_1_n_n none
    (truncf .bf16 (tanh (hidV a w b)) Gen.bitsLt_bf16_f32)
    (truncf .bf16 (shapeCast S1024x30 wl Gen.shapeCasts_S1024x30_S1024x30) Gen.bitsLt_bf16_f32)
    (constant S600x30 .f32 0x00000000#32)

/-- Entry `(r, q)` of a chunk. -/
private theorem chunkV_apply (a : FVec Ideal S600x8 .bf16) (w : Vec Ideal S8x1024 .f32) (b : Vec Ideal S1024 .f32)
    (wl : Vec Ideal S1024x30 .f32) (r : Fin 600) (q : Fin 30) :
    chunkV a w b wl (ix2 r q)
      = ∑ l : Fin 1024, Ideal.tanh ((∑ k : Fin 8, a (ix2 r k) * w (ix2 k l)) + b (ix1 l)) * wl (ix2 l q) := by
  unfold chunkV
  rw [mmD_apply, shapeCast_self]
  refine Finset.sum_congr rfl fun l _ => ?_
  show Ideal.tanh (hidV a w b (ix2 r l)) * wl (ix2 l q) = _
  rw [hidV_apply]

/-! ### The bias, the maximum with zero and the last dense layer -/

/-- What follows the three chunks: the bias on every row, the maximum with zero, and the 30 × 60 weights. -/
private def tailV (acc : FVec Ideal S600x30 .f32) (bl : Vec Ideal S30 .f32) (wo : Vec Ideal S30x60 .f32) :
    FVec Ideal S600x60 .f32 :=
  matmul dot_S600x30_S30x60_S600x60_1_0_0_1_n_n none
    (truncf .bf16 (maximumf (addf acc (broadcastTo S600x30 (shapeCast S1x30 bl Gen.shapeCasts_S30_S1x30) Gen.broadcasts_S1x30_S600x30))
      (broadcast S600x30 (Scalar.ofBits .f32 0x00000000#32))) Gen.bitsLt_bf16_f32)
    (truncf .bf16 wo Gen.bitsLt_bf16_f32)
    (constant S600x60 .f32 0x00000000#32)

/-- Entry `(r, z)` of it. -/
private theorem tailV_apply (acc : FVec Ideal S600x30 .f32) (bl : Vec Ideal S30 .f32) (wo : Vec Ideal S30x60 .f32)
    (r : Fin 600) (z : Fin 60) :
    tailV acc bl wo (ix2 r z) = ∑ q : Fin 30, max (acc (ix2 r q) + bl (ix1 q)) 0 * wo (ix2 q z) := by
  unfold tailV
  rw [mmO_apply]
  refine Finset.sum_congr rfl fun q _ => ?_
  show max (acc (ix2 r q) + (broadcastTo S600x30 (shapeCast S1x30 bl Gen.shapeCasts_S30_S1x30) Gen.broadcasts_S1x30_S600x30) (ix2 r q))
      (Ideal.ofBits .f32 0x00000000#32) * wo (ix2 q z) = _
  rw [broadcastTo_1b_ab_apply, shapeCast_a_1a_apply, Ideal.ofBits_zero_f32]

/-! ### The payloads over the chunks -/

/-- The accumulator after the first chunk: zero plus the chunk. -/
private theorem pay3_eq (v0 : Vec Ideal S20x30x30 .f32) (v3 : Vec Ideal S600x4 .f32) (v8 : Vec Ideal S4x8 .f32)
    (v12 : Vec Ideal S8 .f32) (v23 : Vec Ideal S8x1024 .f32) (v26 : Vec Ideal S1024 .f32) (v34 : Vec Ideal S1024x30 .f32) :
    k0_pay3 (F := Ideal) v0 v3 v8 v12 v23 v26 v34
      = addf (broadcast S600x30 (Scalar.ofBits .f32 0x00000000#32)) (chunkV (k0_pay2 v0 v3 v8 v12) v23 v26 v34) := rfl

/-- The other two chunks added, then the tail. -/
private theorem pay4_eq (v21 : FVec Ideal S600x8 .bf16) (v38 : FVec Ideal S600x30 .f32) (v39 : Vec Ideal S8x1024 .f32)
    (v42 : Vec Ideal S1024 .f32) (v50 : Vec Ideal S1024x30 .f32) (v55 : Vec Ideal S8x1024 .f32) (v58 : Vec Ideal S1024 .f32)
    (v66 : Vec Ideal S1024x30 .f32) (v71 : Vec Ideal S30 .f32) (v77 : Vec Ideal S30x60 .f32) :
    k0_pay4 (F := Ideal) v21 v38 v39 v42 v50 v55 v58 v66 v71 v77
      = tailV (addf (addf v38 (chunkV v21 v39 v42 v50)) (chunkV v21 v55 v58 v66)) v71 v77 := rfl

/-- The last bias on every row. -/
private theorem pay1_apply (v80 : FVec Ideal S600x60 .f32) (v81 : Vec Ideal S60 .f32) (r : Fin 600) (z : Fin 60) :
    k0_pay1 (F := Ideal) v80 v81 (ix2 r z) = v80 (ix2 r z) + v81 (ix1 z) := by
  unfold k0_pay1
  show v80 (ix2 r z) + (broadcastTo S600x60 (shapeCast S1x60 v81 Gen.shapeCasts_S60_S1x60) Gen.broadcasts_S1x60_S600x60) (ix2 r z) = _
  rw [broadcastTo_1b_ab_apply, shapeCast_a_1a_apply]

/-! ### The loads -/

private theorem off1_zero : (![0] : Fin 1 → Nat) = fun _ => 0 :=
  funext fun a => by match a with | ⟨0, _⟩ => rfl
private theorem off2_zero : (![0, 0] : Fin 2 → Nat) = fun _ => 0 :=
  funext fun a => by match a with | ⟨0, _⟩ => rfl | ⟨1, _⟩ => rfl
private theorem off3_zero : (![0, 0, 0] : Fin 3 → Nat) = fun _ => 0 :=
  funext fun a => by match a with | ⟨0, _⟩ => rfl | ⟨1, _⟩ => rfl | ⟨2, _⟩ => rfl

/-- 1024 columns of the padded 8 × 3072 weights from column `o`: entry `(k, l)` is the array's `(k, o + l)`. -/
private theorem ld_cols (x : Vec Ideal S8x3072 .f32) (o : Nat)
    (inb : ∀ a, (![0, o] : Fin 2 → Nat) a + S8x1024.size a ≤ S8x3072.size a) (k : Fin 8) (l : Fin 1024) (h : o + l.val < 3072) :
    View.ld x (Rect.unit (s := S8x3072) ![0, o] S8x1024.size inb) (ix2 k l) = x (ix2 k ⟨o + l.val, h⟩) := by
  refine congrArg x (funext fun a => Fin.ext ?_)
  match a with
  | ⟨0, _⟩ => show 0 + 1 * k.val = k.val; omega
  | ⟨1, _⟩ => show o + 1 * l.val = o + l.val; omega

/-- 1024 entries of the padded bias from `o`. -/
private theorem ld_vec (x : Vec Ideal S3072 .f32) (o : Nat)
    (inb : ∀ a, (![o] : Fin 1 → Nat) a + S1024.size a ≤ S3072.size a) (l : Fin 1024) (h : o + l.val < 3072) :
    View.ld x (Rect.unit (s := S3072) ![o] S1024.size inb) (ix1 l) = x (ix1 ⟨o + l.val, h⟩) := by
  refine congrArg x (funext fun a => Fin.ext ?_)
  match a with
  | ⟨0, _⟩ => show o + 1 * l.val = o + l.val; omega

/-- 1024 rows of the padded 3072 × 30 dense weights from row `o`. -/
private theorem ld_rows (x : Vec Ideal S3072x30 .f32) (o : Nat)
    (inb : ∀ a, (![o, 0] : Fin 2 → Nat) a + S1024x30.size a ≤ S3072x30.size a) (l : Fin 1024) (q : Fin 30) (h : o + l.val < 3072) :
    View.ld x (Rect.unit (s := S3072x30) ![o, 0] S1024x30.size inb) (ix2 l q) = x (ix2 ⟨o + l.val, h⟩ q) := by
  refine congrArg x (funext fun a => Fin.ext ?_)
  match a with
  | ⟨0, _⟩ => show o + 1 * l.val = o + l.val; omega
  | ⟨1, _⟩ => show 0 + 1 * q.val = q.val; omega

/-! ### A chunk of the body is a chunk of the tile function -/

/-- The chunk the body computes from the slices at offset `o` is the tile function's chunk at `o`. -/
private theorem chunk_bridge (x0 : Vec Ideal S600x4 .f32) (x1 : Vec Ideal S20x30x30 .f32) (x2 : Vec Ideal S4x8 .f32)
    (x3 : Vec Ideal S8 .f32) (x4 : Vec Ideal S8x3072 .f32) (x5 : Vec Ideal S3072 .f32) (x6 : Vec Ideal S3072x30 .f32)
    (o : Nat) (ho : o + 1024 ≤ 3072)
    (inb4 : ∀ a, (![0, o] : Fin 2 → Nat) a + S8x1024.size a ≤ S8x3072.size a)
    (inb5 : ∀ a, (![o] : Fin 1 → Nat) a + S1024.size a ≤ S3072.size a)
    (inb6 : ∀ a, (![o, 0] : Fin 2 → Nat) a + S1024x30.size a ≤ S3072x30.size a) (r : Fin 600) (q : Fin 30) :
    chunkV (k0_pay2 (F := Ideal) x1 x0 x2 x3) (View.ld x4 (Rect.unit (s := S8x3072) ![0, o] S8x1024.size inb4))
        (View.ld x5 (Rect.unit (s := S3072) ![o] S1024.size inb5))
        (View.ld x6 (Rect.unit (s := S3072x30) ![o, 0] S1024x30.size inb6)) (ix2 r q)
      = Tile.chunk (fun r j => x0 (ix2 r j)) (fun g u v => x1 (ix3 g u v)) (fun j k => x2 (ix2 j k)) (fun k => x3 (ix1 k))
          (fun k cc => x4 (ix2 k cc)) (fun cc => x5 (ix1 cc)) (fun cc q => x6 (ix2 cc q)) o ho r q := by
  rw [chunkV_apply]
  unfold Tile.chunk Tile.h2
  refine Finset.sum_congr rfl fun l _ => ?_
  have hl : o + l.val < 3072 := by have := l.isLt; omega
  have hs : (∑ k : Fin 8, k0_pay2 (F := Ideal) x1 x0 x2 x3 (ix2 r k)
        * View.ld x4 (Rect.unit (s := S8x3072) ![0, o] S8x1024.size inb4) (ix2 k l))
      = ∑ k : Fin 8, Tile.ah1 (fun r j => x0 (ix2 r j)) (fun g u v => x1 (ix3 g u v)) (fun j k => x2 (ix2 j k))
          (fun k => x3 (ix1 k)) r k * x4 (ix2 k ⟨o + l.val, hl⟩) :=
    Finset.sum_congr rfl fun k _ => by rw [ah1_value, ld_cols x4 o inb4 k l hl]
  rw [hs, ld_vec x5 o inb5 l hl, ld_rows x6 o inb6 l q hl]

/-- The output block of a grid point is the tile function of the point's input blocks. -/
theorem body_value (x0 : Vec Ideal S600x4 .f32) (x1 : Vec Ideal S20x30x30 .f32) (x2 : Vec Ideal S4x8 .f32)
    (x3 : Vec Ideal S8 .f32) (x4 : Vec Ideal S8x3072 .f32) (x5 : Vec Ideal S3072 .f32) (x6 : Vec Ideal S3072x30 .f32)
    (x7 : Vec Ideal S30 .f32) (x8 : Vec Ideal S30x60 .f32) (x9 : Vec Ideal S60 .f32) (r : Fin 600) (z : Fin 60) :
    out0_10 (F := Ideal) x0 x1 x2 x3 x4 x5 x6 x7 x8 x9 (ix2 r z)
      = Tile.out (fun r j => x0 (ix2 r j)) (fun g u v => x1 (ix3 g u v)) (fun j k => x2 (ix2 j k)) (fun k => x3 (ix1 k))
        (fun k cc => x4 (ix2 k cc)) (fun cc => x5 (ix1 cc)) (fun cc q => x6 (ix2 cc q)) (fun q => x7 (ix1 q))
        (fun q z => x8 (ix2 q z)) (fun z => x9 (ix1 z)) r z := by
  unfold out0_10
  rw [View.canon_unit_zero off2_zero]
  simp only [View.ld_unit_zero (S := S600x4) off2_zero, View.ld_unit_zero (S := S20x30x30) off3_zero,
    View.ld_unit_zero (S := S4x8) off2_zero, View.ld_unit_zero (S := S8) off1_zero,
    View.ld_unit_zero (S := S30) off1_zero, View.ld_unit_zero (S := S30x60) off2_zero,
    View.ld_unit_zero (S := S60) off1_zero]
  rw [pay1_apply, pay4_eq, tailV_apply]
  unfold Tile.out Tile.h3 Tile.acc
  refine congrArg (· + x9 (ix1 z)) (Finset.sum_congr rfl fun q _ => ?_)
  rw [addf_apply, addf_apply, pay3_eq, addf_apply,
    chunk_bridge x0 x1 x2 x3 x4 x5 x6 0 (by norm_num) Gen.inb_S8x3072_S8x1024_0_0 Gen.inb_S3072_S1024_0
      Gen.inb_S3072x30_S1024x30_0_0 r q,
    chunk_bridge x0 x1 x2 x3 x4 x5 x6 1024 (by norm_num) Gen.inb_S8x3072_S8x1024_0_1024 Gen.inb_S3072_S1024_1024
      Gen.inb_S3072x30_S1024x30_1024_0 r q,
    chunk_bridge x0 x1 x2 x3 x4 x5 x6 2048 (by norm_num) Gen.inb_S8x3072_S8x1024_0_2048 Gen.inb_S3072_S1024_2048
      Gen.inb_S3072x30_S1024x30_2048_0 r q]
  show max ((((Ideal.ofBits .f32 0x00000000#32 + _) + _) + _) + _) 0 * _ = _
  rw [Ideal.ofBits_zero_f32]

end Cert.Gcn.Ker

end
-- ==== Proof.KerArray.lean ====
/-
  From grid points to the whole array, and the run: point `t` writes rows `600 t … 600 t + 599` of the output,
  each row the tile function of that tile's rows of the features and blocks of the matrices, so the array after
  the run is the table of `outK`; the program's last line lays it out as 600 × 1500 × 2.
-/
import proofs.«424383_j28647431864457_3_alg».proof.Proof.Gen.KernelIdeal.Frame
import proofs.«424383_j28647431864457_3_alg».proof.Proof.KerDecode
import proofs.«424383_j28647431864457_3_alg».proof.Proof.KerHostB
import proofs.«424383_j28647431864457_3_alg».proof.Proof.KerBodyB
import Idealize.ShloMosaic.Lib.Pipeline.Value

noncomputable section

open scoped BigOperators

namespace Cert.Gcn.Ker

open Cert.KernelIdeal Cert.KernelIdeal.Facts₀ Cert.KernelIdeal.Facts Cert.KernelIdeal.Gen Idealize.ShloMosaic Idealize.ShloMosaic.TcCoe Idealize.ShloMosaic.ValueIdx Idealize.SL.Sem

section Blocks

variable (m : (ℓ : Loc nD τ sig) → Buf (Elt Ideal) ℓ) (c : Dev nD)

/-- The block index of every window at every grid point: the three tiled windows (features, block matrices, result)
    are at block `t` on their leading axis, every other window is its whole array. -/
private theorem block_index : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-- Row `r` of the feature block at point `t` is row `600 t + r` of the features. -/
private theorem features_block (t : Fin cfg0.N) (r : Fin 600) (j : Fin 4) (n : Fin 30000) (hn : n.val = 600 * t.val + r.val) :
    (iblk m c 0 t : Vec Ideal S600x4 .f32) (ix2 r j) = (dOf m c).X n j := by
  obtain ⟨e0, e1, -⟩ := block_index t
  unfold iblk
  rw [View.read_apply]
  show V m c main_arg0 _ = m ((c.tc : Thread nD τ).loc main_arg0) (ix2 n j)
  rw [V_main_arg0]
  congr 1
  funext a
  apply Fin.ext
  match a with
  | ⟨0, _⟩ => show win0_0.index t (0 : Fin 2) * 600 + 1 * r.val = n.val; omega
  | ⟨1, _⟩ => show win0_0.index t (1 : Fin 2) * 4 + 1 * j.val = j.val; omega

/-- Entry `(u, v)` of block `g` of the tile at point `t` is that entry of block `20 t + g`'s matrix. -/
private theorem matrices_block (hok : OkAt m c) (t : Fin cfg0.N) (g : Fin 20) (u v : Fin 30) (b : Fin 1000) (hb : b.val = 20 * t.val + g.val) :
    (iblk m c 1 t : Vec Ideal S20x30x30 .f32) (ix3 g u v) = blkK (dOf m c) b u v := by
  obtain ⟨-, -, e0, e1, e2, -⟩ := block_index t
  refine Eq.trans ?_ (blocks_value m c hok b u v)
  unfold iblk
  rw [View.read_apply]
  show V m c main_v66 _ = V m c main_v66 (ix3 b u v)
  congr 1
  funext a
  apply Fin.ext
  match a with
  | ⟨0, _⟩ => show win0_1.index t (0 : Fin 3) * 20 + 1 * g.val = b.val; omega
  | ⟨1, _⟩ => show win0_1.index t (1 : Fin 3) * 30 + 1 * u.val = u.val; omega
  | ⟨2, _⟩ => show win0_1.index t (2 : Fin 3) * 30 + 1 * v.val = v.val; omega

/-- The first layer's weights are staged whole. -/
private theorem w1_block (t : Fin cfg0.N) (j : Fin 4) (k : Fin 8) :
    (iblk m c 2 t : Vec Ideal S4x8 .f32) (ix2 j k) = (dOf m c).W1 j k := by
  obtain ⟨-, -, -, -, -, e0, e1, -⟩ := block_index t
  unfold iblk
  rw [View.read_apply]
  show V m c main_arg2 _ = m ((c.tc : Thread nD τ).loc main_arg2) (ix2 j k)
  rw [V_main_arg2]
  congr 1
  funext a
  apply Fin.ext
  match a with
  | ⟨0, _⟩ => show win0_2.index t (0 : Fin 2) * 4 + 1 * j.val = j.val; omega
  | ⟨1, _⟩ => show win0_2.index t (1 : Fin 2) * 8 + 1 * k.val = k.val; omega

/-- The first layer's bias is staged whole. -/
private theorem b1_block (t : Fin cfg0.N) (k : Fin 8) :
    (iblk m c 3 t : Vec Ideal S8 .f32) (ix1 k) = (dOf m c).b1 k := by
  obtain ⟨-, -, -, -, -, -, -, e0, -⟩ := block_index t
  unfold iblk
  rw [View.read_apply]
  show V m c main_arg3 _ = m ((c.tc : Thread nD τ).loc main_arg3) (ix1 k)
  rw [V_main_arg3]
  congr 1
  funext a
  apply Fin.ext
  match a with
  | ⟨0, _⟩ => show win0_3.index t (0 : Fin 1) * 8 + 1 * k.val = k.val; omega

/-- The padded second-layer weights are staged whole. -/
private theorem w2p_block (t : Fin cfg0.N) (k : Fin 8) (cc : Fin 3072) :
    (iblk m c 4 t : Vec Ideal S8x3072 .f32) (ix2 k cc) = W2p (dOf m c) k cc := by
  obtain ⟨-, -, -, -, -, -, -, -, e0, e1, -⟩ := block_index t
  refine Eq.trans ?_ (w2p_value m c k cc)
  unfold iblk
  rw [View.read_apply]
  show V m c main_v69 _ = V m c main_v69 (ix2 k cc)
  congr 1
  funext a
  apply Fin.ext
  match a with
  | ⟨0, _⟩ => show win0_4.index t (0 : Fin 2) * 8 + 1 * k.val = k.val; omega
  | ⟨1, _⟩ => show win0_4.index t (1 : Fin 2) * 3072 + 1 * cc.val = cc.val; omega

/-- The padded second-layer bias is staged whole. -/
private theorem b2p_block (t : Fin cfg0.N) (cc : Fin 3072) :
    (iblk m c 5 t : Vec Ideal S3072 .f32) (ix1 cc) = b2p (dOf m c) cc := by
  obtain ⟨-, -, -, -, -, -, -, -, -, -, e0, -⟩ := block_index t
  refine Eq.trans ?_ (b2p_value m c cc)
  unfold iblk
  rw [View.read_apply]
  show V m c main_v72 _ = V m c main_v72 (ix1 cc)
  congr 1
  funext a
  apply Fin.ext
  match a with
  | ⟨0, _⟩ => show win0_5.index t (0 : Fin 1) * 3072 + 1 * cc.val = cc.val; omega

/-- The padded dense weights are staged whole. -/
private theorem wl1p_block (t : Fin cfg0.N) (cc : Fin 3072) (q : Fin 30) :
    (iblk m c 6 t : Vec Ideal S3072x30 .f32) (ix2 cc q) = Wl1p (dOf m c) cc q := by
  obtain ⟨-, -, -, -, -, -, -, -, -, -, -, e0, e1, -⟩ := block_index t
  refine Eq.trans ?_ (wl1p_value m c cc q)
  unfold iblk
  rw [View.read_apply]
  show V m c main_v75 _ = V m c main_v75 (ix2 cc q)
  congr 1
  funext a
  apply Fin.ext
  match a with
  | ⟨0, _⟩ => show win0_6.index t (0 : Fin 2) * 3072 + 1 * cc.val = cc.val; omega
  | ⟨1, _⟩ => show win0_6.index t (1 : Fin 2) * 30 + 1 * q.val = q.val; omega

/-- The dense bias is staged whole. -/
private theorem bl1_block (t : Fin cfg0.N) (q : Fin 30) :
    (iblk m c 7 t : Vec Ideal S30 .f32) (ix1 q) = (dOf m c).bl1 q := by
  obtain ⟨-, -, -, -, -, -, -, -, -, -, -, -, -, e0, -⟩ := block_index t
  unfold iblk
  rw [View.read_apply]
  show V m c main_arg7 _ = m ((c.tc : Thread nD τ).loc main_arg7) (ix1 q)
  rw [V_main_arg7]
  congr 1
  funext a
  apply Fin.ext
  match a with
  | ⟨0, _⟩ => show win0_7.index t (0 : Fin 1) * 30 + 1 * q.val = q.val; omega

/-- The last layer's weights are staged whole. -/
private theorem wl2_block (t : Fin cfg0.N) (q : Fin 30) (z : Fin 60) :
    (iblk m c 8 t : Vec Ideal S30x60 .f32) (ix2 q z) = (dOf m c).Wl2 q z := by
  obtain ⟨-, -, -, -, -, -, -, -, -, -, -, -, -, -, e0, e1, -⟩ := block_index t
  unfold iblk
  rw [View.read_apply]
  show V m c main_arg8 _ = m ((c.tc : Thread nD τ).loc main_arg8) (ix2 q z)
  rw [V_main_arg8]
  congr 1
  funext a
  apply Fin.ext
  match a with
  | ⟨0, _⟩ => show win0_8.index t (0 : Fin 2) * 30 + 1 * q.val = q.val; omega
  | ⟨1, _⟩ => show win0_8.index t (1 : Fin 2) * 60 + 1 * z.val = z.val; omega

/-- The last layer's bias is staged whole. -/
private theorem bl2_block (t : Fin cfg0.N) (z : Fin 60) :
    (iblk m c 9 t : Vec Ideal S60 .f32) (ix1 z) = (dOf m c).bl2 z := by
  obtain ⟨-, -, -, -, -, -, -, -, -, -, -, -, -, -, -, -, e0, -⟩ := block_index t
  unfold iblk
  rw [View.read_apply]
  show V m c main_arg9 _ = m ((c.tc : Thread nD τ).loc main_arg9) (ix1 z)
  rw [V_main_arg9]
  congr 1
  funext a
  apply Fin.ext
  match a with
  | ⟨0, _⟩ => show win0_9.index t (0 : Fin 1) * 60 + 1 * z.val = z.val; omega

/-- The tile function depends on its ten tables and on the row only through their values. -/
private theorem tile_out_congr {Xt Xt' : Fin 600 → Fin 4 → EReal} {Bt Bt' : Fin 20 → Fin 30 → Fin 30 → EReal}
    {W1 W1' : Fin 4 → Fin 8 → EReal} {b1 b1' : Fin 8 → EReal} {W2p W2p' : Fin 8 → Fin 3072 → EReal}
    {b2p b2p' : Fin 3072 → EReal} {Wl1p Wl1p' : Fin 3072 → Fin 30 → EReal} {bl1 bl1' : Fin 30 → EReal}
    {Wl2 Wl2' : Fin 30 → Fin 60 → EReal} {bl2 bl2' : Fin 60 → EReal} {r r' : Fin 600} (z : Fin 60)
    (h0 : ∀ a j, Xt a j = Xt' a j) (h1 : ∀ g u v, Bt g u v = Bt' g u v) (h2 : ∀ j k, W1 j k = W1' j k)
    (h3 : ∀ k, b1 k = b1' k) (h4 : ∀ k cc, W2p k cc = W2p' k cc) (h5 : ∀ cc, b2p cc = b2p' cc)
    (h6 : ∀ cc q, Wl1p cc q = Wl1p' cc q) (h7 : ∀ q, bl1 q = bl1' q) (h8 : ∀ q y, Wl2 q y = Wl2' q y)
    (h9 : ∀ y, bl2 y = bl2' y) (hr : r = r') :
    Tile.out Xt Bt W1 b1 W2p b2p Wl1p bl1 Wl2 bl2 r z = Tile.out Xt' Bt' W1' b1' W2p' b2p' Wl1p' bl1' Wl2' bl2' r' z := by
  obtain rfl : Xt = Xt' := funext fun a => funext fun j => h0 a j
  obtain rfl : Bt = Bt' := funext fun g => funext fun u => funext fun v => h1 g u v
  obtain rfl : W1 = W1' := funext fun j => funext fun k => h2 j k
  obtain rfl : b1 = b1' := funext h3
  obtain rfl : W2p = W2p' := funext fun k => funext fun cc => h4 k cc
  obtain rfl : b2p = b2p' := funext h5
  obtain rfl : Wl1p = Wl1p' := funext fun cc => funext fun q => h6 cc q
  obtain rfl : bl1 = bl1' := funext h7
  obtain rfl : Wl2 = Wl2' := funext fun q => funext fun y => h8 q y
  obtain rfl : bl2 = bl2' := funext h9
  subst hr
  rfl

/-- Entry `(r, z)` of what point `t` leaves in the result block is the kernel's result at node `600 t + r`. -/
private theorem point_entry (hok : OkAt m c) (t : Fin cfg0.N) (r : Fin 600) (z : Fin 60) (n : Fin 30000)
    (hn : n.val = 600 * t.val + r.val) :
    out0_10 (F := Ideal) (iblk m c 0 t) (iblk m c 1 t) (iblk m c 2 t) (iblk m c 3 t) (iblk m c 4 t) (iblk m c 5 t)
      (iblk m c 6 t) (iblk m c 7 t) (iblk m c 8 t) (iblk m c 9 t) (ix2 r z) = outK (dOf m c) n z := by
  refine (body_value (iblk m c 0 t) (iblk m c 1 t) (iblk m c 2 t) (iblk m c 3 t) (iblk m c 4 t) (iblk m c 5 t)
      (iblk m c 6 t) (iblk m c 7 t) (iblk m c 8 t) (iblk m c 9 t) r z).trans ?_
  have hr : r.val < 600 := r.isLt
  have hq : n.val / 600 = t.val := by omega
  have hm : n.val % 600 = r.val := by omega
  unfold outK
  exact tile_out_congr z
    (fun a j => features_block m c t a j _ (by show n.val / 600 * 600 + a.val = 600 * t.val + a.val; omega))
    (fun g u v => matrices_block m c hok t g u v _ (by show n.val / 600 * 20 + g.val = 20 * t.val + g.val; omega))
    (fun j k => w1_block m c t j k) (fun k => b1_block m c t k) (fun k cc => w2p_block m c t k cc)
    (fun cc => b2p_block m c t cc) (fun cc q => wl1p_block m c t cc q) (fun q => bl1_block m c t q)
    (fun q y => wl2_block m c t q y) (fun y => bl2_block m c t y) (Fin.ext hm.symm)

/-- What point `t` writes back is its block — rows `600 t … 600 t + 599` — of the table of `outK`. -/
private theorem written_block (hok : OkAt m c) (t : Fin cfg0.N) :
    (dats m 0 c).flushed 10 t = ((cfg0.win 10).blk t).view.read (Elt Ideal) (table m c) := by
  show (cfg0.win 10).cut (grid0.coords t) ((dats m 0 c).after 10 t) = _
  rw [after0_10]
  obtain ⟨-, -, -, -, -, -, -, -, -, -, -, -, -, -, -, -, -, e0, e1⟩ := block_index t
  have ht : t.val < 50 := by have h1 := t.isLt; have hN : cfg0.N = 50 := N_0; omega
  funext y
  obtain ⟨r, z, rfl⟩ : ∃ (r : Fin 600) (z : Fin 60), y = ix2 r z := ⟨y 0, y 1, eq_ix2 y⟩
  have hr : r.val < 600 := r.isLt
  refine (point_entry m c hok t r z ⟨600 * t.val + r.val, by omega⟩ rfl).trans ?_
  rw [View.read_apply]
  show outK (dOf m c) _ _ = table m c _
  unfold table
  congr 1
  · apply Fin.ext
    show 600 * t.val + r.val = win0_10.index t (0 : Fin 2) * 600 + 1 * r.val
    omega
  · apply Fin.ext
    show z.val = win0_10.index t (1 : Fin 2) * 60 + 1 * z.val
    omega

/-- An index of the result is in point `t`'s block iff each coordinate is in the block's range on its axis. -/
private theorem mem_result_block (t : Fin cfg0.N) (i : S30000x60.Idx) :
    i ∈ ((cfg0.win 10).blk t).view.set ↔ ∀ a : Fin 2, win0_10.index t a * S600x60.size a ≤ (i a).val ∧ (i a).val < win0_10.index t a * S600x60.size a + S600x60.size a := by
  show i ∈ ((View.whole main_v76).slice (win0_10.rect t)).set ↔ _
  rw [View.set_slice_whole, Rect.mem_set_unit]
  exact Iff.rfl

/-- Row `n` of the result lies in the block of point `n / 600`. -/
private theorem rows_covered (i : S30000x60.Idx) :
    ∃ t : Fin cfg0.N, (cfg0.win 10).flush t = true ∧ i ∈ ((cfg0.win 10).blk t).view.set := by
  have hi0 : (i 0).val < 30000 := (i 0).isLt
  have hi1 : (i 1).val < 60 := (i 1).isLt
  have hN : cfg0.N = 50 := N_0
  have hlt : (i 0).val / 600 < cfg0.N := by rw [hN]; omega
  obtain ⟨-, -, -, -, -, -, -, -, -, -, -, -, -, -, -, -, -, e0, e1⟩ := block_index ⟨(i 0).val / 600, hlt⟩
  refine ⟨⟨(i 0).val / 600, hlt⟩, flush0_10 _, ?_⟩
  rw [mem_result_block]
  intro a
  match a with
  | ⟨0, _⟩ =>
    show win0_10.index ⟨(i 0).val / 600, hlt⟩ (0 : Fin 2) * 600 ≤ (i 0).val ∧ (i 0).val < win0_10.index ⟨(i 0).val / 600, hlt⟩ (0 : Fin 2) * 600 + 600
    rw [e0]; show (i 0).val / 600 * 600 ≤ (i 0).val ∧ (i 0).val < (i 0).val / 600 * 600 + 600; omega
  | ⟨1, _⟩ =>
    show win0_10.index ⟨(i 0).val / 600, hlt⟩ (1 : Fin 2) * 60 ≤ (i 1).val ∧ (i 1).val < win0_10.index ⟨(i 0).val / 600, hlt⟩ (1 : Fin 2) * 60 + 60
    rw [e1]; omega

/-- The result array after the last point is the table of `outK`. -/
private theorem result_table (hok : OkAt m c) : (dats m 0 c).arrAt 10 cfg0.N = table m c :=
  (dats m 0 c).arrAt_eq_of_cover 10 (table m c) (fun t _ => written_block m c hok t) rows_covered

/-- After the program's last line the result buffer is the table of `outK` laid out as 600 × 1500 × 2. -/
private theorem result_layout (hok : OkAt m c) :
    Pipeline.afterTail₀ cfgs (dats m) 0 (V0 m) [hostOps1] c main_v77 = result m c := by
  unfold Pipeline.afterTail₀
  show StableHlo.after hostOps1 _ (Proc.devRef .tc main_v77) = _
  after_results
  have e : Pipeline.withArrays (cfgs 0).spec c (V0 m c) (fun w => (dats m 0 c).arrAt w (cfgs 0).N)
      (Proc.devRef .tc main_v76) = table m c :=
    (Pipeline.withArrays_arr spec0 launch0.win.arr_inj c _ _ 10).trans (result_table m c hok)
  rw [e]
  rfl

end Blocks

variable [Facts] (m : (ℓ : Loc nD τ sig) → Buf (Elt Ideal) ℓ) (c : Dev nD)

/-- Every fair run of the kernel program ends with the result array at the table of `outK` and the arguments unchanged. -/
theorem kernel_run (ρ : Dev nD → PrngReg) (hok : ∀ c, OkAt m c) :
    θ_run defs (onTc (τ := τ) (main (F := Ideal))) ⟨m, fun _ => 0, ρ⟩ (fun r => ∀ c : Dev nD,
      r.2.mem ((c.tc : Thread nD τ).loc main_v77) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_v77 (Pipeline.mem_restRefs_of main_v77 (by decide) (by decide))).trans (result_layout m c (hok c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.Gcn.Ker

end
-- ==== Proof.lean ====
/-
  A two-layer graph convolution followed by a two-layer dense head, on 30000 nodes in 1000 blocks of 30, with
  34000 directed edges and a self loop at every node.

  The reference multiplies the node features by the layer's weights and then aggregates along the edges
  (`n ↦ ∑ over edges and loops a → n of f a · dinv a · dinv n`, `dinv = deg ^ (-1/2)`). The kernel first builds each
  block's 30 × 30 aggregation matrix from the edges with both ends in the block, aggregates with it, and
  multiplies by the weights afterwards, on tiles of 20 blocks; its 3000-wide hidden layer runs over 3072
  zero-padded columns in three chunks.

  Under the precondition — every float entry finite, every index word a node, no edge leaving its block — the two
  agree entry by entry on the extended reals: every edge is then an in-block edge, so the block matrices
  carry the whole aggregation; all quantities are real numbers, so aggregation commutes with the weights; and a
  padded column contributes `tanh 0 · 0 = 0`. The three frames are the generated ones (the reference's is its
  generated run with the result dropped); the idealization ledger is empty.
-/
import proofs.«424383_j28647431864457_3_alg».proof.Defs
import proofs.«424383_j28647431864457_3_alg».proof.Proof.Gen.Kernel
import proofs.«424383_j28647431864457_3_alg».proof.Proof.Gen.Kernel.Frame
import proofs.«424383_j28647431864457_3_alg».proof.Proof.Gen.KernelIdeal
import proofs.«424383_j28647431864457_3_alg».proof.Proof.Gen.KernelIdeal.Frame
import proofs.«424383_j28647431864457_3_alg».proof.Proof.Gen.ReferenceIdeal
import proofs.«424383_j28647431864457_3_alg».proof.Proof.Gen.Pre_finite_inputs
import proofs.«424383_j28647431864457_3_alg».proof.Proof.RefRead
import proofs.«424383_j28647431864457_3_alg».proof.Proof.PreFacts
import proofs.«424383_j28647431864457_3_alg».proof.Proof.LayerMath
import proofs.«424383_j28647431864457_3_alg».proof.Proof.RefValue
import proofs.«424383_j28647431864457_3_alg».proof.Proof.KerArray
import Idealize.ShloMosaic.Adequacy
import Idealize.ShloMosaic.Init

noncomputable section

namespace Cert.Proof

open Idealize.ShloMosaic Idealize.ShloMosaic.TcCoe Idealize.ShloMosaic.ValueIdx Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel run ends at the table of `outK`, the reference's at the table of `outR`, of arguments that agree;
    under the precondition the two tables are one, and both programs lay it out the same way. -/
theorem algebraic : Cert.algebraic_KernelIdeal_ReferenceIdeal := by
  intro m ρ m' ρ' hpre hagree
  have hok : ∀ c, Cert.Gcn.Ker.OkAt m c := fun c => Cert.Gcn.argsOk_of_pre _ _ _ _ _ _ _ _ _ _ (hpre c)
  refine ⟨fun c => Cert.Gcn.Ker.result m c, Cert.Gcn.Ker.kernel_run m ρ hok, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v74_eq]
  obtain ⟨h0, h1, h2, h3, h4, h5, h6, h7, h8, h9⟩ := hagree c
  rw [h0, h1, h2, h3, h4, h5, h6, h7, h8, h9]
  have htab : Cert.ReferenceIdeal.Read.val_main_v73 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      = Cert.Gcn.Ker.table m c := by
    funext i
    have e := Cert.Gcn.Ref.ref_value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (hok c).range (i 0) (i 1)
    rw [eq_ix2 i]
    exact e.trans (Cert.Gcn.outK_eq_outR _ (hok c).real (hok c).blocks _ _).symm
  unfold Cert.ReferenceIdeal.Read.val_main_v74 Cert.Gcn.Ker.result
  rw [htab]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
